-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S4x128x128 .f32 .bf16
  ∧ IdealRules.truncf_extf.Statement Cert.KernelIdeal.S4x128x128 .f32 .bf16
  ∧ IdealRules.truncf_extf.Statement Cert.KernelIdeal.S4x128x128 .f32 .bf16
  ∧ IdealRules.truncf_extf.Statement Cert.KernelIdeal.S4x128x128 .f32 .bf16
  ∧ IdealRules.truncf_extf.Statement Cert.KernelIdeal.S4x128x128 .f32 .bf16
  ∧ IdealRules.truncf_extf.Statement Cert.KernelIdeal.S4x128x128 .f32 .bf16
  ∧ IdealRules.truncf_extf.Statement Cert.KernelIdeal.S4x128x128 .f32 .bf16
  ∧ IdealRules.truncf_extf.Statement Cert.KernelIdeal.S4x128x128 .f32 .bf16
  ∧ IdealRules.truncf_extf.Statement Cert.KernelIdeal.S4x128x128 .f32 .bf16
  ∧ IdealRules.truncf_extf.Statement Cert.KernelIdeal.S4x128x128 .f32 .bf16
  ∧ IdealRules.truncf_extf.Statement Cert.KernelIdeal.S4x128x128 .f32 .bf16
  ∧ IdealRules.truncf_extf.Statement Cert.KernelIdeal.S4x128x128 .f32 .bf16
  ∧ IdealRules.truncf_extf.Statement Cert.KernelIdeal.S4x128x128 .f32 .bf16
  ∧ IdealRules.truncf_extf.Statement Cert.KernelIdeal.S4x128x128 .f32 .bf16
  ∧ IdealRules.truncf_extf.Statement Cert.KernelIdeal.S4x128x128 .f32 .bf16
  ∧ IdealRules.truncf_extf.Statement Cert.KernelIdeal.S4x128x128 .f32 .bf16
  ∧ IdealRules.truncf_extf.Statement Cert.KernelIdeal.S4x128x128 .f32 .bf16
  ∧ IdealRules.truncf_extf.Statement Cert.KernelIdeal.S4x128x128 .f32 .bf16
  ∧ IdealRules.truncf_extf.Statement Cert.KernelIdeal.S4608x128 .f32 .bf16
  ∧ IdealRules.truncf_extf.Statement Cert.KernelIdeal.S128x128 .f32 .bf16
  ∧ IdealRules.truncf_extf.Statement Cert.KernelIdeal.S4608x128 .f32 .bf16
  ∧ IdealRules.truncf_extf.Statement Cert.KernelIdeal.S128x128 .f32 .bf16
  ∧ IdealRules.truncf_extf.Statement Cert.KernelIdeal.S4608x128 .f32 .bf16
  ∧ IdealRules.truncf_extf.Statement Cert.KernelIdeal.S128x128 .f32 .bf16
  ∧ IdealRules.truncf_extf.Statement Cert.KernelIdeal.S4608x128 .f32 .bf16
  ∧ IdealRules.truncf_extf.Statement Cert.KernelIdeal.S128x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x48x48x512 : Shape := ⟨4, ![32, 48, 48, 512]⟩
abbrev S1x1x1x512 : Shape := ⟨4, ![1, 1, 1, 512]⟩
abbrev S_ : Shape := ⟨0, ![]⟩

class Facts : Prop where
  bcast_S_S32x48x48x512 : S_.BroadcastsInDim S32x48x48x512 (![] : Fin 0 → Fin S32x48x48x512.rank)
  reducesTo_S32x48x48x512_S_d0_1_2_3 : S32x48x48x512.ReducesTo [0, 1, 2, 3] S_
  h_S_ : 0 < S_.numel
  bcast_S_S1x1x1x512 : S_.BroadcastsInDim S1x1x1x512 (![] : Fin 0 → Fin S1x1x1x512.rank)
  reducesTo_S1x1x1x512_S_d0_1_2_3 : S1x1x1x512.ReducesTo [0, 1, 2, 3] S_

variable [Facts]

def fn {F : FTy → Type} [FloatOps F] (main_arg0 : FVec F S32x48x48x512 .f32) (main_arg1 : FVec F S1x1x1x512 .f32) (main_arg2 : FVec F S1x1x1x512 .f32) : IVec S_ 1 :=
  let main_v0 : FVec F S32x48x48x512 .f32 := Host.absf main_arg0
  let main_cst : FVec F S_ .f32 := constant S_ .f32 0x7F800000#32
  let main_v1 : FVec F S32x48x48x512 .f32 := broadcastInDim S32x48x48x512 ![] bcast_S_S32x48x48x512 main_cst
  let main_v2 : IVec S32x48x48x512 1 := cmpf .olt main_v0 main_v1
  let main_c : IVec S_ 1 := constantI S_ 1 1#1
  let main_v3 : IVec S_ 1 := (fun x v => Host.reduce IntOp.andi x v reducesTo_S32x48x48x512_S_d0_1_2_3 h_S_) main_v2 main_c
  let main_v4 : FVec F S1x1x1x512 .f32 := Host.absf main_arg1
  let main_cst_0 : FVec F S_ .f32 := constant S_ .f32 0x7F800000#32
  let main_v5 : FVec F S1x1x1x512 .f32 := broadcastInDim S1x1x1x512 ![] bcast_S_S1x1x1x512 main_cst_0
  let main_v6 : IVec S1x1x1x512 1 := cmpf .olt main_v4 main_v5
  let main_c_1 : IVec S_ 1 := constantI S_ 1 1#1
  let main_v7 : IVec S_ 1 := (fun x v => Host.reduce IntOp.andi x v reducesTo_S1x1x1x512_S_d0_1_2_3 h_S_) main_v6 main_c_1
  let main_v8 : IVec S_ 1 := andi main_v3 main_v7
  let main_v9 : FVec F S1x1x1x512 .f32 := Host.absf main_arg2
  let main_cst_2 : FVec F S_ .f32 := constant S_ .f32 0x7F800000#32
  let main_v10 : FVec F S1x1x1x512 .f32 := broadcastInDim S1x1x1x512 ![] bcast_S_S1x1x1x512 main_cst_2
  let main_v11 : IVec S1x1x1x512 1 := cmpf .olt main_v9 main_v10
  let main_c_3 : IVec S_ 1 := constantI S_ 1 1#1
  let main_v12 : IVec S_ 1 := (fun x v => Host.reduce IntOp.andi x v reducesTo_S1x1x1x512_S_d0_1_2_3 h_S_) main_v11 main_c_3
  let main_v13 : IVec S_ 1 := andi main_v8 main_v12
  main_v13
-- ==== Kernel.lean ====
abbrev S32x48x48x512 : Shape := ⟨4, ![32, 48, 48, 512]⟩
abbrev S1x1x1x512 : Shape := ⟨4, ![1, 1, 1, 512]⟩
abbrev S73728x512 : Shape := ⟨2, ![73728, 512]⟩
abbrev S1x512 : Shape := ⟨2, ![1, 512]⟩
abbrev S2x1x512 : Shape := ⟨3, ![2, 1, 512]⟩
abbrev S2x4x128x128 : Shape := ⟨4, ![2, 4, 128, 128]⟩
abbrev S9216x512 : Shape := ⟨2, ![9216, 512]⟩
abbrev S1x1x512 : Shape := ⟨3, ![1, 1, 512]⟩
abbrev S1x4x128x128 : Shape := ⟨4, ![1, 4, 128, 128]⟩
abbrev S4x128x128 : Shape := ⟨3, ![4, 128, 128]⟩
abbrev S512 : Shape := ⟨1, ![512]⟩
abbrev S9216x256 : Shape := ⟨2, ![9216, 256]⟩
abbrev S256x256 : Shape := ⟨2, ![256, 256]⟩
abbrev S1x1x128x128 : Shape := ⟨4, ![1, 1, 128, 128]⟩
abbrev S128x128 : Shape := ⟨2, ![128, 128]⟩
abbrev S_ : Shape := ⟨0, ![]⟩
abbrev S4x128 : Shape := ⟨2, ![4, 128]⟩
abbrev S4x128x1 : Shape := ⟨3, ![4, 128, 1]⟩
abbrev S4x1x128 : Shape := ⟨3, ![4, 1, 128]⟩
abbrev S1x128x128 : Shape := ⟨3, ![1, 128, 128]⟩
abbrev S4 : Shape := ⟨1, ![4]⟩
abbrev S4x1x1 : Shape := ⟨3, ![4, 1, 1]⟩
abbrev S4608x512 : Shape := ⟨2, ![4608, 512]⟩
abbrev S4608x128 : Shape := ⟨2, ![4608, 128]⟩
abbrev S1x128 : Shape := ⟨2, ![1, 128]⟩

abbrev nBuf : Space → Nat
  | .hbm => 16
  | .vmem => 18
  | .smem => 0
  | _ => 0

abbrev bufTy : (tb : Table) → Fin (tcTables nBuf tb) → BufTy
  | .hbm, ⟨0, _⟩ => ⟨S32x48x48x512, .f32⟩
  | .hbm, ⟨1, _⟩ => ⟨S1x1x1x512, .f32⟩
  | .hbm, ⟨2, _⟩ => ⟨S1x1x1x512, .f32⟩
  | .hbm, ⟨3, _⟩ => ⟨S73728x512, .f32⟩
  | .hbm, ⟨4, _⟩ => ⟨S1x512, .f32⟩
  | .hbm, ⟨5, _⟩ => ⟨S1x512, .f32⟩
  | .hbm, ⟨6, _⟩ => ⟨S2x1x512, .f32⟩
  | .hbm, ⟨7, _⟩ => ⟨S2x4x128x128, .f32⟩
  | .hbm, ⟨8, _⟩ => ⟨S_, .f32⟩
  | .hbm, ⟨9, _⟩ => ⟨S1x512, .f32⟩
  | .hbm, ⟨10, _⟩ => ⟨S_, .f32⟩
  | .hbm, ⟨11, _⟩ => ⟨S4x128x128, .f32⟩
  | .hbm, ⟨12, _⟩ => ⟨S1x512, .f32⟩
  | .hbm, ⟨13, _⟩ => ⟨S4x128x128, .f32⟩
  | .hbm, ⟨14, _⟩ => ⟨S73728x512, .f32⟩
  | .hbm, ⟨15, _⟩ => ⟨S32x48x48x512, .f32⟩
  | .local _ .vmem, ⟨0, _⟩ => ⟨S9216x512, .f32⟩
  | .local _ .vmem, ⟨1, _⟩ => ⟨S9216x512, .f32⟩
  | .local _ .vmem, ⟨2, _⟩ => ⟨S1x1x512, .f32⟩
  | .local _ .vmem, ⟨3, _⟩ => ⟨S1x1x512, .f32⟩
  | .local _ .vmem, ⟨4, _⟩ => ⟨S1x4x128x128, .f32⟩
  | .local _ .vmem, ⟨5, _⟩ => ⟨S1x4x128x128, .f32⟩
  | .local _ .vmem, ⟨6, _⟩ => ⟨S1x512, .f32⟩
  | .local _ .vmem, ⟨7, _⟩ => ⟨S4x128x128, .f32⟩
  | .local _ .vmem, ⟨8, _⟩ => ⟨S1x512, .f32⟩
  | .local _ .vmem, ⟨9, _⟩ => ⟨S4x128x128, .f32⟩
  | .local _ .vmem, ⟨10, _⟩ => ⟨S4608x512, .f32⟩
  | .local _ .vmem, ⟨11, _⟩ => ⟨S4608x512, .f32⟩
  | .local _ .vmem, ⟨12, _⟩ => ⟨S1x512, .f32⟩
  | .local _ .vmem, ⟨13, _⟩ => ⟨S4x128x128, .f32⟩
  | .local _ .vmem, ⟨14, _⟩ => ⟨S1x512, .f32⟩
  | .local _ .vmem, ⟨15, _⟩ => ⟨S1x512, .f32⟩
  | .local _ .vmem, ⟨16, _⟩ => ⟨S4608x512, .f32⟩
  | .local _ .vmem, ⟨17, _⟩ => ⟨S4608x512, .f32⟩
  | _, _ => ⟨S32x48x48x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S9216x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 1 → Memref sig .tc .vmem S1x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4x128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4608x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4x128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4608x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S32x48x48x512_S73728x512 : S32x48x48x512.ShapeCasts S73728x512
  shapeCasts_S1x1x1x512_S1x512 : S1x1x1x512.ShapeCasts S1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  inb_S1x4x128x128_S1x4x128x128_0_0_0_0 : ∀ a, (![0, 0, 0, 0] : Fin 4 → Nat) a + S1x4x128x128.size a ≤ S1x4x128x128.size a
  h_S1x4x128x128 : 0 < S1x4x128x128.numel
  shapeCasts_S1x4x128x128_S4x128x128 : S1x4x128x128.ShapeCasts S4x128x128
  shapeCasts_S4x128x128_S1x4x128x128 : S4x128x128.ShapeCasts S1x4x128x128
  inb_S9216x512_S9216x512_0_0 : ∀ a, (![0, 0] : Fin 2 → Nat) a + S9216x512.size a ≤ S9216x512.size a
  h_S9216x512 : 0 < S9216x512.numel
  shapeCasts_S9216x512_S9216x512 : S9216x512.ShapeCasts S9216x512
  reduces_S9216x512_S512 : S9216x512.Reduces [0] S512
  shapeCasts_S512_S1x512 : S512.ShapeCasts S1x512
  slices_S9216x512_o0_0_S9216x256 : S9216x512.Slices ![0, 0] S9216x256
  bitsLt_bf16_f32 : FTy.bits .bf16 < FTy.bits .f32
  inb_S1x4x128x128_S1x1x128x128_0_0_0_0 : ∀ a, (![0, 0, 0, 0] : Fin 4 → Nat) a + S1x1x128x128.size a ≤ S1x4x128x128.size a
  h_S1x1x128x128 : 0 < S1x1x128x128.numel
  shapeCasts_S1x1x128x128_S128x128 : S1x1x128x128.ShapeCasts S128x128
  slices_S256x256_o0_0_S128x128 : S256x256.Slices ![0, 0] S128x128
  shapeCasts_S128x128_S1x1x128x128 : S128x128.ShapeCasts S1x1x128x128
  inb_S1x4x128x128_S1x1x128x128_0_1_0_0 : ∀ a, (![0, 1, 0, 0] : Fin 4 → Nat) a + S1x1x128x128.size a ≤ S1x4x128x128.size a
  slices_S256x256_o128_128_S128x128 : S256x256.Slices ![128, 128] S128x128
  slices_S9216x512_o0_256_S9216x256 : S9216x512.Slices ![0, 256] S9216x256
  inb_S1x4x128x128_S1x1x128x128_0_2_0_0 : ∀ a, (![0, 2, 0, 0] : Fin 4 → Nat) a + S1x1x128x128.size a ≤ S1x4x128x128.size a
  inb_S1x4x128x128_S1x1x128x128_0_3_0_0 : ∀ a, (![0, 3, 0, 0] : Fin 4 → Nat) a + S1x1x128x128.size a ≤ S1x4x128x128.size a
  reducesTo_S2x1x512_S1x512_d0 : S2x1x512.ReducesTo [0] S1x512
  h_S_ : 0 < S_.numel
  reducesTo_S2x4x128x128_S4x128x128_d0 : S2x4x128x128.ReducesTo [0] S4x128x128
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S4x128 : S1x512.ShapeCasts S4x128
  shapeCasts_S4x128_S4x128x1 : S4x128.ShapeCasts S4x128x1
  shapeCasts_S4x128_S4x1x128 : S4x128.ShapeCasts S4x1x128
  broadcasts_S4x128x1_S4x128x128 : S4x128x1.Broadcasts S4x128x128
  broadcasts_S4x1x128_S4x128x128 : S4x1x128.Broadcasts S4x128x128
  inb_S4x128x128_S4x128x128_0_0_0 : ∀ a, (![0, 0, 0] : Fin 3 → Nat) a + S4x128x128.size a ≤ S4x128x128.size a
  h_S4x128x128 : 0 < S4x128x128.numel
  shapeCasts_S4x128x128_S4x128x128 : S4x128x128.ShapeCasts S4x128x128
  iota_S128x128_d0_w32 : S128x128.Iotas .tc 32 [0]
  iota_S128x128_d1_w32 : S128x128.Iotas .tc 32 [1]
  natLt_1_32 : 1 < 32
  shapeCasts_S128x128_S1x128x128 : S128x128.ShapeCasts S1x128x128
  shapeCasts_S1x128x128_S1x128x128 : S1x128x128.ShapeCasts S1x128x128
  broadcasts_S1x128x128_S4x128x128 : S1x128x128.Broadcasts S4x128x128
  reduces_S4x128x128_S4 : S4x128x128.Reduces [1, 2] S4
  shapeCasts_S4_S4x1x1 : S4.ShapeCasts S4x1x1
  broadcasts_S4x1x1_S4x128x128 : S4x1x1.Broadcasts S4x128x128
  inb_S4608x512_S4608x512_0_0 : ∀ a, (![0, 0] : Fin 2 → Nat) a + S4608x512.size a ≤ S4608x512.size a
  h_S4608x512 : 0 < S4608x512.numel
  shapeCasts_S4608x512_S4608x512 : S4608x512.ShapeCasts S4608x512
  broadcasts_S1x512_S4608x512 : S1x512.Broadcasts S4608x512
  slices_S4608x512_o0_0_S4608x128 : S4608x512.Slices ![0, 0] S4608x128
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  inb_S1x512_S1x128_0_0 : ∀ a, (![0, 0] : Fin 2 → Nat) a + S1x128.size a ≤ S1x512.size a
  h_S1x128 : 0 < S1x128.numel
  shapeCasts_S1x128_S1x128 : S1x128.ShapeCasts S1x128
  broadcasts_S1x128_S4608x128 : S1x128.Broadcasts S4608x128
  inb_S4608x512_S4608x128_0_0 : ∀ a, (![0, 0] : Fin 2 → Nat) a + S4608x128.size a ≤ S4608x512.size a
  h_S4608x128 : 0 < S4608x128.numel
  slices_S4608x512_o0_128_S4608x128 : S4608x512.Slices ![0, 128] S4608x128
  inb_S4x128x128_S1x128x128_1_0_0 : ∀ a, (![1, 0, 0] : Fin 3 → Nat) a + S1x128x128.size a ≤ S4x128x128.size a
  inb_S1x512_S1x128_0_128 : ∀ a, (![0, 128] : Fin 2 → Nat) a + S1x128.size a ≤ S1x512.size a
  inb_S4608x512_S4608x128_0_128 : ∀ a, (![0, 128] : Fin 2 → Nat) a + S4608x128.size a ≤ S4608x512.size a
  slices_S4608x512_o0_256_S4608x128 : S4608x512.Slices ![0, 256] S4608x128
  inb_S4x128x128_S1x128x128_2_0_0 : ∀ a, (![2, 0, 0] : Fin 3 → Nat) a + S1x128x128.size a ≤ S4x128x128.size a
  inb_S1x512_S1x128_0_256 : ∀ a, (![0, 256] : Fin 2 → Nat) a + S1x128.size a ≤ S1x512.size a
  inb_S4608x512_S4608x128_0_256 : ∀ a, (![0, 256] : Fin 2 → Nat) a + S4608x128.size a ≤ S4608x512.size a
  slices_S4608x512_o0_384_S4608x128 : S4608x512.Slices ![0, 384] S4608x128
  inb_S4x128x128_S1x128x128_3_0_0 : ∀ a, (![3, 0, 0] : Fin 3 → Nat) a + S1x128x128.size a ≤ S4x128x128.size a
  inb_S1x512_S1x128_0_384 : ∀ a, (![0, 384] : Fin 2 → Nat) a + S1x128.size a ≤ S1x512.size a
  inb_S4608x512_S4608x128_0_384 : ∀ a, (![0, 384] : Fin 2 → Nat) a + S4608x128.size a ≤ S4608x512.size a
  shapeCasts_S73728x512_S32x48x48x512 : S73728x512.ShapeCasts S32x48x48x512
  dot_S9216x256_S9216x256_S256x256_0_0_1_1_n_n_wf : DotDims.WF S9216x256 S9216x256 S256x256 [0] [0] [1] [1] [] []
  dot_S4x128x128_S4x128x128_S4x128x128_2_1_1_2_0_0_wf : DotDims.WF S4x128x128 S4x128x128 S4x128x128 [2] [1] [1] [2] [0] [0]
  dot_S4608x128_S128x128_S4608x128_1_1_0_0_n_n_wf : DotDims.WF S4608x128 S128x128 S4608x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S9216x512.size a ≤ S73728x512.size a
  hwx0_0 : ∀ i : grid0.Coords, EltTy.bits .f32 = 32 ∨ (Rect.block (s := S73728x512) S9216x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S2x1x512.size a
  hwx0_1 : ∀ i : grid0.Coords, EltTy.bits .f32 = 32 ∨ (Rect.block (s := S2x1x512) S1x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x128x128.size a ≤ S2x4x128x128.size a
  hwx0_2 : ∀ i : grid0.Coords, EltTy.bits .f32 = 32 ∨ (Rect.block (s := S2x4x128x128) S1x4x128x128.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x512.size a ≤ S1x512.size a
  hwx1_0 : ∀ i : grid1.Coords, EltTy.bits .f32 = 32 ∨ (Rect.block (s := S1x512) S1x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x128x128.size a ≤ S4x128x128.size a
  hwx1_1 : ∀ i : grid1.Coords, EltTy.bits .f32 = 32 ∨ (Rect.block (s := S4x128x128) S4x128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x128x128.size a ≤ S4x128x128.size a
  hwx1_3 : ∀ i : grid1.Coords, EltTy.bits .f32 = 32 ∨ (Rect.block (s := S4x128x128) S4x128x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4608x512.size a ≤ S73728x512.size a
  hwx2_0 : ∀ i : grid2.Coords, EltTy.bits .f32 = 32 ∨ (Rect.block (s := S73728x512) S4608x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x512.size a ≤ S1x512.size a
  hwx2_1 : ∀ i : grid2.Coords, EltTy.bits .f32 = 32 ∨ (Rect.block (s := S1x512) S1x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4x128x128.size a ≤ S4x128x128.size a
  hwx2_2 : ∀ i : grid2.Coords, EltTy.bits .f32 = 32 ∨ (Rect.block (s := S4x128x128) S4x128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4608x512.size a ≤ S73728x512.size a
  hwx2_5 : ∀ i : grid2.Coords, EltTy.bits .f32 = 32 ∨ (Rect.block (s := S73728x512) S4608x512.size (cc2_transform_5 i) (hinb2_5 i)).WholeWords (EltTy.packing .f32)

variable [Facts₀]

def dot_S9216x256_S9216x256_S256x256_0_0_1_1_n_n : DotDims S9216x256 S9216x256 S256x256 where
  lhsContracting := [0]
  rhsContracting := [0]
  lhsNonContracting := [1]
  rhsNonContracting := [1]
  lhsBatch := []
  rhsBatch := []
  wf := dot_S9216x256_S9216x256_S256x256_0_0_1_1_n_n_wf
def dot_S4x128x128_S4x128x128_S4x128x128_2_1_1_2_0_0 : DotDims S4x128x128 S4x128x128 S4x128x128 where
  lhsContracting := [2]
  rhsContracting := [1]
  lhsNonContracting := [1]
  rhsNonContracting := [2]
  lhsBatch := [0]
  rhsBatch := [0]
  wf := dot_S4x128x128_S4x128x128_S4x128x128_2_1_1_2_0_0_wf
def dot_S4608x128_S128x128_S4608x128_1_1_0_0_n_n : DotDims S4608x128 S128x128 S4608x128 where
  lhsContracting := [1]
  rhsContracting := [1]
  lhsNonContracting := [0]
  rhsNonContracting := [0]
  lhsBatch := []
  rhsBatch := []
  wf := dot_S4608x128_S128x128_S4608x128_1_1_0_0_n_n_wf

abbrev win0_0 : Pipeline.Window sig grid0 :=
  Pipeline.Window.ofSpec (Memref.whole main_v0) S9216x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3_0) S1x1x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_1) S1x4x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S1x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v5) S4x128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6_0) S1x512.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6_1) S4x128x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S4608x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6_0) S1x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6_1) S4x128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v1) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v2) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v7) S4608x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S32x48x48x512 : Shape := ⟨4, ![32, 48, 48, 512]⟩
abbrev S1x1x1x512 : Shape := ⟨4, ![1, 1, 1, 512]⟩
abbrev S512x32x48x48 : Shape := ⟨4, ![512, 32, 48, 48]⟩
abbrev S512x73728 : Shape := ⟨2, ![512, 73728]⟩
abbrev S_ : Shape := ⟨0, ![]⟩
abbrev S512 : Shape := ⟨1, ![512]⟩
abbrev S512x1 : Shape := ⟨2, ![512, 1]⟩
abbrev S4x128x73728 : Shape := ⟨3, ![4, 128, 73728]⟩
abbrev S4x128x128 : Shape := ⟨3, ![4, 128, 128]⟩
abbrev S128x128 : Shape := ⟨2, ![128, 128]⟩
abbrev S1x128x128 : Shape := ⟨3, ![1, 128, 128]⟩
abbrev S4 : Shape := ⟨1, ![4]⟩
abbrev S4x1x1 : Shape := ⟨3, ![4, 1, 1]⟩

abbrev nBuf : Space → Nat
  | .hbm => 89
  | .vmem => 0
  | .smem => 0
  | _ => 0

abbrev bufTy : (tb : Table) → Fin (tcTables nBuf tb) → BufTy
  | .hbm, ⟨0, _⟩ => ⟨S32x48x48x512, .f32⟩
  | .hbm, ⟨1, _⟩ => ⟨S1x1x1x512, .f32⟩
  | .hbm, ⟨2, _⟩ => ⟨S1x1x1x512, .f32⟩
  | .hbm, ⟨3, _⟩ => ⟨S512x32x48x48, .f32⟩
  | .hbm, ⟨4, _⟩ => ⟨S512x73728, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S512x73728, .f32⟩
  | .hbm, ⟨12, _⟩ => ⟨S512x73728, .f32⟩
  | .hbm, ⟨13, _⟩ => ⟨S4x128x73728, .f32⟩
  | .hbm, ⟨14, _⟩ => ⟨S4x128x128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4x128x128, .f32⟩
  | .hbm, ⟨19, _⟩ => ⟨S4x128x128, .f32⟩
  | .hbm, ⟨20, _⟩ => ⟨S128x128, .i32⟩
  | .hbm, ⟨21, _⟩ => ⟨S128x128, .i32⟩
  | .hbm, ⟨22, _⟩ => ⟨S_, .i32⟩
  | .hbm, ⟨23, _⟩ => ⟨S128x128, .i32⟩
  | .hbm, ⟨24, _⟩ => ⟨S128x128, .i32⟩
  | .hbm, ⟨25, _⟩ => ⟨S128x128, .i1⟩
  | .hbm, ⟨26, _⟩ => ⟨S128x128, .f32⟩
  | .hbm, ⟨27, _⟩ => ⟨S_, .f32⟩
  | .hbm, ⟨28, _⟩ => ⟨S4x128x128, .f32⟩
  | .hbm, ⟨29, _⟩ => ⟨S4x128x128, .f32⟩
  | .hbm, ⟨30, _⟩ => ⟨S1x128x128, .f32⟩
  | .hbm, ⟨31, _⟩ => ⟨S_, .f32⟩
  | .hbm, ⟨32, _⟩ => ⟨S1x128x128, .f32⟩
  | .hbm, ⟨33, _⟩ => ⟨S1x128x128, .f32⟩
  | .hbm, ⟨34, _⟩ => ⟨S4x128x128, .f32⟩
  | .hbm, ⟨35, _⟩ => ⟨S4x128x128, .f32⟩
  | .hbm, ⟨36, _⟩ => ⟨S128x128, .i32⟩
  | .hbm, ⟨37, _⟩ => ⟨S128x128, .i32⟩
  | .hbm, ⟨38, _⟩ => ⟨S128x128, .i1⟩
  | .hbm, ⟨39, _⟩ => ⟨S4x128x128, .i1⟩
  | .hbm, ⟨40, _⟩ => ⟨S_, .f32⟩
  | .hbm, ⟨41, _⟩ => ⟨S4x128x128, .f32⟩
  | .hbm, ⟨42, _⟩ => ⟨S4x128x128, .f32⟩
  | .hbm, ⟨43, _⟩ => ⟨S_, .f32⟩
  | .hbm, ⟨44, _⟩ => ⟨S4, .f32⟩
  | .hbm, ⟨45, _⟩ => ⟨S4x1x1, .f32⟩
  | .hbm, ⟨46, _⟩ => ⟨S4x128x128, .f32⟩
  | .hbm, ⟨47, _⟩ => ⟨S4x128x128, .f32⟩
  | .hbm, ⟨48, _⟩ => ⟨S4x128x128, .f32⟩
  | .hbm, ⟨49, _⟩ => ⟨S_, .f32⟩
  | .hbm, ⟨50, _⟩ => ⟨S4x128x128, .f32⟩
  | .hbm, ⟨51, _⟩ => ⟨S4x128x128, .f32⟩
  | .hbm, ⟨52, _⟩ => ⟨S4x128x128, .f32⟩
  | .hbm, ⟨53, _⟩ => ⟨S4x128x128, .f32⟩
  | .hbm, ⟨54, _⟩ => ⟨S4x128x128, .f32⟩
  | .hbm, ⟨55, _⟩ => ⟨S4x128x128, .f32⟩
  | .hbm, ⟨56, _⟩ => ⟨S_, .f32⟩
  | .hbm, ⟨57, _⟩ => ⟨S4x128x128, .f32⟩
  | .hbm, ⟨58, _⟩ => ⟨S4x128x128, .f32⟩
  | .hbm, ⟨59, _⟩ => ⟨S_, .f32⟩
  | .hbm, ⟨60, _⟩ => ⟨S4x128x128, .f32⟩
  | .hbm, ⟨61, _⟩ => ⟨S4x128x128, .f32⟩
  | .hbm, ⟨62, _⟩ => ⟨S4x128x128, .f32⟩
  | .hbm, ⟨63, _⟩ => ⟨S4x128x128, .f32⟩
  | .hbm, ⟨64, _⟩ => ⟨S4x128x128, .f32⟩
  | .hbm, ⟨65, _⟩ => ⟨S4x128x128, .f32⟩
  | .hbm, ⟨66, _⟩ => ⟨S_, .f32⟩
  | .hbm, ⟨67, _⟩ => ⟨S4x128x128, .f32⟩
  | .hbm, ⟨68, _⟩ => ⟨S4x128x128, .f32⟩
  | .hbm, ⟨69, _⟩ => ⟨S_, .f32⟩
  | .hbm, ⟨70, _⟩ => ⟨S4x128x128, .f32⟩
  | .hbm, ⟨71, _⟩ => ⟨S4x128x128, .f32⟩
  | .hbm, ⟨72, _⟩ => ⟨S4x128x128, .f32⟩
  | .hbm, ⟨73, _⟩ => ⟨S4x128x128, .f32⟩
  | .hbm, ⟨74, _⟩ => ⟨S4x128x128, .f32⟩
  | .hbm, ⟨75, _⟩ => ⟨S4x128x128, .f32⟩
  | .hbm, ⟨76, _⟩ => ⟨S_, .f32⟩
  | .hbm, ⟨77, _⟩ => ⟨S4x128x128, .f32⟩
  | .hbm, ⟨78, _⟩ => ⟨S4x128x128, .f32⟩
  | .hbm, ⟨79, _⟩ => ⟨S4x1x1, .f32⟩
  | .hbm, ⟨80, _⟩ => ⟨S4x128x128, .f32⟩
  | .hbm, ⟨81, _⟩ => ⟨S4x128x128, .f32⟩
  | .hbm, ⟨82, _⟩ => ⟨S4x128x73728, .f32⟩
  | .hbm, ⟨83, _⟩ => ⟨S512x32x48x48, .f32⟩
  | .hbm, ⟨84, _⟩ => ⟨S32x48x48x512, .f32⟩
  | .hbm, ⟨85, _⟩ => ⟨S32x48x48x512, .f32⟩
  | .hbm, ⟨86, _⟩ => ⟨S32x48x48x512, .f32⟩
  | .hbm, ⟨87, _⟩ => ⟨S32x48x48x512, .f32⟩
  | .hbm, ⟨88, _⟩ => ⟨S32x48x48x512, .f32⟩
  | _, _ => ⟨S32x48x48x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_8 : Ref sig .tc := ⟨.hbm, 56, rfl⟩
abbrev main_v43 : Ref sig .tc := ⟨.hbm, 57, rfl⟩
abbrev main_v44 : Ref sig .tc := ⟨.hbm, 58, rfl⟩
abbrev main_cst_9 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_cst_11 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]

class Facts₀ : Prop where
  transposes_S32x48x48x512_S512x32x48x48_3_0_1_2 : S32x48x48x512.Transposes [3, 0, 1, 2] S512x32x48x48
  shapeCasts_S512x32x48x48_S512x73728 : S512x32x48x48.ShapeCasts S512x73728
  reducesTo_S512x73728_S512_d1 : S512x73728.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x73728_0_1 : S512x1.BroadcastsInDim S512x73728 (![0, 1] : Fin 2 → Fin S512x73728.rank)
  shapeCasts_S512x73728_S4x128x73728 : S512x73728.ShapeCasts S4x128x73728
  bcast_S_S4x128x128 : S_.BroadcastsInDim S4x128x128 (![] : Fin 0 → Fin S4x128x128.rank)
  bcast_S_S128x128 : S_.BroadcastsInDim S128x128 (![] : Fin 0 → Fin S128x128.rank)
  bcast_S128x128_S1x128x128_1_2 : S128x128.BroadcastsInDim S1x128x128 (![1, 2] : Fin 2 → Fin S1x128x128.rank)
  bcast_S_S1x128x128 : S_.BroadcastsInDim S1x128x128 (![] : Fin 0 → Fin S1x128x128.rank)
  bcast_S1x128x128_S4x128x128_0_1_2 : S1x128x128.BroadcastsInDim S4x128x128 (![0, 1, 2] : Fin 3 → Fin S4x128x128.rank)
  bcast_S128x128_S4x128x128_1_2 : S128x128.BroadcastsInDim S4x128x128 (![1, 2] : Fin 2 → Fin S4x128x128.rank)
  reducesTo_S4x128x128_S4_d1_2 : S4x128x128.ReducesTo [1, 2] S4
  bcast_S4_S4x1x1_0 : S4.BroadcastsInDim S4x1x1 (![0] : Fin 1 → Fin S4x1x1.rank)
  bcast_S4x1x1_S4x128x128_0_1_2 : S4x1x1.BroadcastsInDim S4x128x128 (![0, 1, 2] : Fin 3 → Fin S4x128x128.rank)
  shapeCasts_S4x128x73728_S512x32x48x48 : S4x128x73728.ShapeCasts S512x32x48x48
  transposes_S512x32x48x48_S32x48x48x512_1_2_3_0 : S512x32x48x48.Transposes [1, 2, 3, 0] S32x48x48x512
  bcast_S1x1x1x512_S32x48x48x512_0_1_2_3 : S1x1x1x512.BroadcastsInDim S32x48x48x512 (![0, 1, 2, 3] : Fin 4 → Fin S32x48x48x512.rank)
  dot_S4x128x73728_S4x128x73728_S4x128x128_2_2_1_1_0_0_wf : DotDims.WF S4x128x73728 S4x128x73728 S4x128x128 [2] [2] [1] [1] [0] [0]
  dot_S4x128x128_S4x128x128_S4x128x128_2_1_1_2_0_0_wf : DotDims.WF S4x128x128 S4x128x128 S4x128x128 [2] [1] [1] [2] [0] [0]
  dot_S4x128x128_S4x128x73728_S4x128x73728_2_1_1_2_0_0_wf : DotDims.WF S4x128x128 S4x128x73728 S4x128x73728 [2] [1] [1] [2] [0] [0]

variable [Facts₀]

def dot_S4x128x73728_S4x128x73728_S4x128x128_2_2_1_1_0_0 : DotDims S4x128x73728 S4x128x73728 S4x128x128 where
  lhsContracting := [2]
  rhsContracting := [2]
  lhsNonContracting := [1]
  rhsNonContracting := [1]
  lhsBatch := [0]
  rhsBatch := [0]
  wf := dot_S4x128x73728_S4x128x73728_S4x128x128_2_2_1_1_0_0_wf
def dot_S4x128x128_S4x128x128_S4x128x128_2_1_1_2_0_0 : DotDims S4x128x128 S4x128x128 S4x128x128 where
  lhsContracting := [2]
  rhsContracting := [1]
  lhsNonContracting := [1]
  rhsNonContracting := [2]
  lhsBatch := [0]
  rhsBatch := [0]
  wf := dot_S4x128x128_S4x128x128_S4x128x128_2_1_1_2_0_0_wf
def dot_S4x128x128_S4x128x73728_S4x128x73728_2_1_1_2_0_0 : DotDims S4x128x128 S4x128x73728 S4x128x73728 where
  lhsContracting := [2]
  rhsContracting := [1]
  lhsNonContracting := [1]
  rhsNonContracting := [2]
  lhsBatch := [0]
  rhsBatch := [0]
  wf := dot_S4x128x128_S4x128x73728_S4x128x73728_2_1_1_2_0_0_wf

class Facts : Prop extends Facts₀ where

variable [Facts]
-- ==== Proof.Spec.lean ====
/-
  The mathematics both programs compute, stated once over index types of literal extents.

  The input is read as a matrix of 73728 rows (samples) by 512 columns (channels); the channels are 4 groups of 128
  members. Per channel the column total, per group the matrix of raw second moments; from these the centred
  covariance of each group, regularised on the diagonal, its trace, and the whitened output
  (row minus column mean, times the group's whitening matrix, scaled and shifted per channel).
-/
import Idealize.ShloMosaic.PureOps.Ideal
import Idealize.ShloMosaic.PureOps.Ideal.Laws
import Idealize.ShloMosaic.Lib.ValueIdx

noncomputable section

open scoped BigOperators

namespace Cert.Whitening

open Idealize.ShloMosaic Idealize.ShloMosaic.ValueIdx

/-- samples by channels -/
abbrev TX : Shape := ⟨2, ![73728, 512]⟩
/-- one row of channels -/
abbrev TRow : Shape := ⟨2, ![1, 512]⟩
/-- per group, members by members -/
abbrev TG : Shape := ⟨3, ![4, 128, 128]⟩
/-- per group, one number -/
abbrev TT : Shape := ⟨3, ![4, 1, 1]⟩
/-- the input as given: batch, height, width, channels -/
abbrev TA : Shape := ⟨4, ![32, 48, 48, 512]⟩
/-- scale and shift as given -/
abbrev TP : Shape := ⟨4, ![1, 1, 1, 512]⟩

/-- The channel of member `a` of group `g`. -/
def ch (g : Fin 4) (a : Fin 128) : Fin 512 := ⟨128 * g.val + a.val, by have := g.isLt; have := a.isLt; omega⟩

/-- The group of a channel. -/
def grp (c : Fin 512) : Fin 4 := ⟨c.val / 128, by have := c.isLt; omega⟩
/-- The member index of a channel inside its group. -/
def mem (c : Fin 512) : Fin 128 := ⟨c.val % 128, Nat.mod_lt _ (by decide)⟩

theorem ch_grp_mem (c : Fin 512) : ch (grp c) (mem c) = c := Fin.ext (by simp [ch, grp, mem]; omega)

/-- Column totals over all samples. -/
def totF (X : FVec Ideal TX .f32) : FVec Ideal TRow .f32 := fun j => ∑ n : Fin 73728, X (ix2 n (j 1))

/-- Raw second moments of each group over all samples. -/
def totFF (X : FVec Ideal TX .f32) : FVec Ideal TG .f32 :=
  fun j => ∑ n : Fin 73728, X (ix2 n (ch (j 0) (j 1))) * X (ix2 n (ch (j 0) (j 2)))

/-- Every entry is the given real number. -/
def IsReal {S : Shape} (v : S.Idx → EReal) (r : S.Idx → ℝ) : Prop := ∀ j, v j = (r j : EReal)

/-- Every entry is a real number (neither infinity). -/
def Finite {S : Shape} (v : S.Idx → EReal) : Prop := ∀ j, ∃ r : ℝ, v j = (r : EReal)

theorem IsReal.finite {S : Shape} {v : S.Idx → EReal} {r : S.Idx → ℝ} (h : IsReal v r) : Finite v := fun j => ⟨r j, h j⟩

section Real

variable (x : Fin 73728 → Fin 512 → ℝ)

/-- The mean of a channel over the samples. -/
def mu (c : Fin 512) : ℝ := (∑ n : Fin 73728, x n c) / 73728

/-- The centred covariance of two members of a group, unbiased normalisation. -/
def covc (g : Fin 4) (a b : Fin 128) : ℝ :=
  (∑ n : Fin 73728, (x n (ch g a) - mu x (ch g a)) * (x n (ch g b) - mu x (ch g b))) / 73727

/-- The weight of the covariance in the regularised covariance: the single-precision number nearest below one. -/
def wCov : ℝ := 8388607 / 8388608
/-- The weight of the identity in the regularised covariance: the single-precision number nearest 1e-7. -/
def wEye : ℝ := 14073749 / 140737488355328

/-- The regularised covariance. -/
def covReg (g : Fin 4) (a b : Fin 128) : ℝ := wCov * covc x g a b + wEye * (if a = b then 1 else 0)

/-- Its trace. -/
def trReg (g : Fin 4) : ℝ := ∑ a : Fin 128, covReg x g a a

end Real

/-- The whitened, scaled and shifted output at sample `n` and channel `c`: the row's centred members of the channel's
    group against the group's whitening matrix row, times the channel's scale, plus its shift. -/
def outOf (X : FVec Ideal TX .f32) (M : FVec Ideal TRow .f32) (Wh : FVec Ideal TG .f32) (G B : FVec Ideal TRow .f32) :
    FVec Ideal TX .f32 :=
  fun j => (∑ k : Fin 128, (X (ix2 (j 0) (ch (grp (j 1)) k)) - M (ix2 0 (ch (grp (j 1)) k))) * Wh (ix3 (grp (j 1)) (mem (j 1)) k))
    * G (ix2 0 (j 1)) + B (ix2 0 (j 1))

end Cert.Whitening

end
-- ==== Proof.WhK.lean ====
/-
  The whitening matrix as the second kernel computes it, as one function of the trace array `T` and of the
  covariance divided by its trace `Sg`: three steps of the inverse-square-root iteration from the identity, each
  matrix product taken as four products of the operands' leading and residual parts, then the division by two and by
  the square root of the trace.
-/
import proofs.«401155_j5385888989602_3_alg».proof.Proof.Gen.KernelIdeal.Skeleton
import proofs.«401155_j5385888989602_3_alg».proof.Proof.Spec

noncomputable section

open scoped BigOperators

namespace Cert.Whitening

open Idealize.ShloMosaic Cert.KernelIdeal Cert.KernelIdeal.Gen

variable {F : FTy → Type} [FloatOps F]

/-- The iterate after the first step: from the identity `k1_pay3`, its leading parts `k1_pay7`, `k1_pay9` and its
    residual parts `k1_pay8`, `k1_pay10`, into a zero accumulator. -/
def iter1 (Sg : FVec F S4x128x128 .f32) : FVec F S4x128x128 .f32 :=
  k1_pay11 (k1_pay3 (F := F)) Sg (k1_pay7 (F := F)) (k1_pay8 (F := F)) (k1_pay9 (F := F)) (k1_pay10 (F := F))
    (constant S4x128x128 .f32 0x00000000#32)

/-- The leading part of the first iterate (left operand of the second step's first product). -/
def lead1 (Sg : FVec F S4x128x128 .f32) : FVec F S4x128x128 .bf16 :=
  k1_pay12 (k1_pay3 (F := F)) Sg (k1_pay7 (F := F)) (k1_pay8 (F := F)) (k1_pay9 (F := F)) (k1_pay10 (F := F))
    (constant S4x128x128 .f32 0x00000000#32)

/-- The residual part of the first iterate. -/
def resid1 (Sg : FVec F S4x128x128 .f32) : FVec F S4x128x128 .bf16 :=
  k1_pay13 (k1_pay3 (F := F)) Sg (k1_pay7 (F := F)) (k1_pay8 (F := F)) (k1_pay9 (F := F)) (k1_pay10 (F := F))
    (constant S4x128x128 .f32 0x00000000#32)

/-- The leading part of the first iterate again (right operand). -/
def lead1' (Sg : FVec F S4x128x128 .f32) : FVec F S4x128x128 .bf16 :=
  k1_pay14 (k1_pay3 (F := F)) Sg (k1_pay7 (F := F)) (k1_pay8 (F := F)) (k1_pay9 (F := F)) (k1_pay10 (F := F))
    (constant S4x128x128 .f32 0x00000000#32)

/-- The iterate after the second step. -/
def iter2 (Sg : FVec F S4x128x128 .f32) : FVec F S4x128x128 .f32 :=
  k1_pay15 Sg (iter1 Sg) (lead1 Sg) (resid1 Sg) (lead1' Sg)

/-- The leading part of the second iterate. -/
def lead2 (Sg : FVec F S4x128x128 .f32) : FVec F S4x128x128 .bf16 :=
  k1_pay16 Sg (iter1 Sg) (lead1 Sg) (resid1 Sg) (lead1' Sg)

/-- The stored value of the second kernel's matrix output, from the trace and the normalised covariance: the third
    step's numerator `k1_pay17`, halved and divided by the square root of the trace (`k1_pay1`). -/
def whK (T : FVec F S4x1x1 .f32) (Sg : FVec F S4x128x128 .f32) : FVec F S4x128x128 .f32 :=
  k1_pay1 T (k1_pay17 Sg (iter2 Sg) (lead2 Sg))

end Cert.Whitening

end
-- ==== Proof.KHost.lean ====
/-
  The host operations around the three kernels: the reshapes of the three arguments before the first kernel, the
  buffers no later kernel or host operation writes (the reshaped sample matrix, scale and shift reach the third
  kernel unchanged), and the reshape of the third kernel's result.
-/
import proofs.«401155_j5385888989602_3_alg».proof.Proof.Gen.KernelIdeal.Frame
import proofs.«401155_j5385888989602_3_alg».proof.Proof.Spec
import Idealize.ShloMosaic.Lib.StableHlo.Run
import Idealize.ShloMosaic.Lib.Pipeline.Value

noncomputable section

open scoped BigOperators

namespace Cert.Whitening.KHost

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The sample matrix the first kernel is entered with is the reshaped first argument. -/
theorem v0_eq (c : Dev nD) : (V1 m ρ c main_v0 : FVec Ideal TX .f32)
    = shapeCast S73728x512 (m ((c : Thread nD τ).loc main_arg0)) shapeCasts_S32x48x48x512_S73728x512 := by
  show StableHlo.after hostOps0 (W0 m ρ c) (Proc.devRef .tc main_v0) = _
  after_results
  rfl

/-- The scale row is the reshaped second argument. -/
theorem v1_eq (c : Dev nD) : (V1 m ρ c main_v1 : FVec Ideal TRow .f32)
    = shapeCast S1x512 (m ((c : Thread nD τ).loc main_arg1)) shapeCasts_S1x1x1x512_S1x512 := by
  show StableHlo.after hostOps0 (W0 m ρ c) (Proc.devRef .tc main_v1) = _
  after_results
  rfl

/-- The shift row is the reshaped third argument. -/
theorem v2_eq (c : Dev nD) : (V1 m ρ c main_v2 : FVec Ideal TRow .f32)
    = shapeCast S1x512 (m ((c : Thread nD τ).loc main_arg2)) shapeCasts_S1x1x1x512_S1x512 := by
  show StableHlo.after hostOps0 (W0 m ρ c) (Proc.devRef .tc main_v2) = _
  after_results
  rfl

/-- The first kernel only reads the sample matrix: its window never writes back. -/
theorem v0_after_first (c : Dev nD) : W2 m ρ c (Proc.devRef .tc main_v0) = V1 m ρ c main_v0 := by
  have h := W2_arr m ρ c 0
  refine h.trans ?_
  funext i
  refine ((dat0 (V1 m ρ) c).arrAt_apply_of_forall_not_mem 0 cfg0.N i fun t _ hf => ?_).trans (congrFun (A_eq0 (V1 m ρ) c 0) i)
  exact absurd hf (by revert t; decide)

/-- The sample matrix reaches the third kernel unchanged. -/
theorem v0_keep (c : Dev nD) : V4 m ρ c main_v0 = V1 m ρ c main_v0 :=
  calc W4 m ρ c (Proc.devRef .tc main_v0)
    _ = W3 m ρ c (Proc.devRef .tc main_v0) := W4_of_ne m ρ c main_v0 (by decide)
    _ = W2 m ρ c (Proc.devRef .tc main_v0) := StableHlo.after_of_forall_not_mem (b := Proc.devRef .tc main_v0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide)))
    _ = V1 m ρ c main_v0 := v0_after_first m ρ c

/-- The scale row reaches the third kernel unchanged. -/
theorem v1_keep (c : Dev nD) : V4 m ρ c main_v1 = V1 m ρ c main_v1 :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide)))
    _ = W1 m ρ c (Proc.devRef .tc main_v1) := W2_of_ne m ρ c main_v1 (by decide)

/-- The shift row reaches the third kernel unchanged. -/
theorem v2_keep (c : Dev nD) : V4 m ρ c main_v2 = V1 m ρ c main_v2 :=
  calc W4 m ρ c (Proc.devRef .tc main_v2)
    _ = W3 m ρ c (Proc.devRef .tc main_v2) := W4_of_ne m ρ c main_v2 (by decide)
    _ = W2 m ρ c (Proc.devRef .tc main_v2) := StableHlo.after_of_forall_not_mem (b := Proc.devRef .tc main_v2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide)))
    _ = W1 m ρ c (Proc.devRef .tc main_v2) := W2_of_ne m ρ c main_v2 (by decide)

/-- The result is the reshaped output of the third kernel. -/
theorem v8_eq (c : Dev nD) : (W6 m ρ c (Proc.devRef .tc main_v8) : FVec Ideal TA .f32)
    = shapeCast S32x48x48x512 (V5 m ρ c main_v7) shapeCasts_S73728x512_S32x48x48x512 := by
  show StableHlo.after hostOps3 (W5 m ρ c) (Proc.devRef .tc main_v8) = _
  after_results
  rfl

end Cert.Whitening.KHost

end
-- ==== Proof.Part.lean ====
/-
  Two intermediate arrays of the kernel program, stated over literal extents: the per-core partial totals the first
  kernel leaves (core c owns samples 36864·c … 36864·c + 36863), and one row tile's output of the third kernel from
  the blocks it is handed.
-/
import proofs.«401155_j5385888989602_3_alg».proof.Proof.Spec

noncomputable section

open scoped BigOperators

namespace Cert.Whitening

open Idealize.ShloMosaic Idealize.ShloMosaic.ValueIdx

/-- per core, one row of channels -/
abbrev TPartF : Shape := ⟨3, ![2, 1, 512]⟩
/-- per core and group, members by members -/
abbrev TPartFF : Shape := ⟨4, ![2, 4, 128, 128]⟩
/-- one row tile of the third kernel -/
abbrev TTile : Shape := ⟨2, ![4608, 512]⟩

/-- Sample `n` of core `c`'s half. -/
def half (c : Fin 2) (n : Fin 36864) : Fin 73728 := ⟨36864 * c.val + n.val, by have := c.isLt; have := n.isLt; omega⟩

/-- Each core's column totals over its own half of the samples. -/
def partF (X : FVec Ideal TX .f32) : FVec Ideal TPartF .f32 := fun j => ∑ n : Fin 36864, X (ix2 (half (j 0) n) (j 2))

/-- Each core's raw second moments over its own half of the samples. -/
def partFF (X : FVec Ideal TX .f32) : FVec Ideal TPartFF .f32 :=
  fun j => ∑ n : Fin 36864, X (ix2 (half (j 0) n) (ch (j 1) (j 2))) * X (ix2 (half (j 0) n) (ch (j 1) (j 3)))

/-- One row tile's output from the tile of input rows `x0`, the mean row `x1`, the whitening matrices `x2`, the scale
    row `x3` and the shift row `x4`. -/
def tileOut (x0 : FVec Ideal TTile .f32) (x1 : FVec Ideal TRow .f32) (x2 : FVec Ideal TG .f32) (x3 x4 : FVec Ideal TRow .f32) :
    FVec Ideal TTile .f32 :=
  fun j => (∑ k : Fin 128, (x0 (ix2 (j 0) (ch (grp (j 1)) k)) - x1 (ix2 0 (ch (grp (j 1)) k))) * x2 (ix3 (grp (j 1)) (mem (j 1)) k))
    * x3 (ix2 0 (j 1)) + x4 (ix2 0 (j 1))

end Cert.Whitening

end
-- ==== Proof.KReg0F.lean ====
/-
  The first kernel's first result: each core's column totals over its half of the samples, accumulated over the
  core's four row tiles (reset at the first, added to at the others) and written back after the last.

  The accumulator row after a point is the step of that point over what the point before left (over the zero row at a
  core's first point); one step adds the tile's column total at every channel. So after a core's last point the row
  holds, at channel k, the sum over the core's four tiles of their column totals, which is the sum over the core's
  36864 samples; that row is the block the core writes back, and the two cores' blocks fill the array.
-/
import proofs.«401155_j5385888989602_3_alg».proof.Proof.Gen.KernelIdeal.Frame
import proofs.«401155_j5385888989602_3_alg».proof.Proof.Part
import Idealize.ShloMosaic.Lib.Pipeline.Value
import Idealize.ShloMosaic.Lib.ValueLayout

noncomputable section

open scoped BigOperators

namespace Cert.Whitening.KReg0F

open Idealize.ShloMosaic Idealize.ShloMosaic.TcCoe Idealize.ShloMosaic.ValueIdx Idealize.SL.Sem
open Cert.KernelIdeal Cert.KernelIdeal.Gen

/-! ## What one point leaves in the accumulator row -/

variable {F : FTy → Type} [FloatOps F]

private theorem hz3 : (![0, 0, 0] : Fin 3 → Nat) = fun _ => 0 := funext fun a => by fin_cases a <;> rfl
private theorem hz2 : (![0, 0] : Fin 2 → Nat) = fun _ => 0 := funext fun a => by fin_cases a <;> rfl

/-- At a point that does not reset, the accumulator's staging buffer is left holding the step's result over what the
    point before left. -/
private theorem out_B (c : Dev nD) (i : grid0.Coords) (a2 : Memref sig .tc .vmem S9216x512 .f32) (h2 : a2.IsWhole)
    (a3 : Memref sig .tc .vmem S1x1x512 .f32) (h3 : a3.IsWhole) (a4 : Memref sig .tc .vmem S1x4x128x128 .f32) (h4 : a4.IsWhole)
    (hc : ¬cond0_0 i) (x0 : Vec F S9216x512 .f32) (xo1 : Vec F S1x1x512 .f32) (xo2 : Vec F S1x4x128x128 .f32) :
    out0_B_1 c i a2 h2 a3 h3 a4 h4 hc x0 xo1 xo2 = k0_pay8 x0 xo1 := by
  unfold out0_B_1
  rw [View.read_writes_eq_canon _ _ _ (cover0_B_1 c i a2 h2 a3 h3 a4 h4 hc x0 xo1 xo2)]
  unfold kernelRun0_B
  dsimp only
  sl_unfold_words
  rw [View.canon_unit_zero hz3]
  simp only [View.readAt_eq_ld, h2.read_unread, h3.read_unread, View.ld_unit_zero (S := S9216x512) hz2,
    View.ld_unit_zero (S := S1x1x512) hz3]

/-- At a point that resets, it is left holding the step's result over the zero row. -/
private theorem out_A (c : Dev nD) (i : grid0.Coords) (a2 : Memref sig .tc .vmem S9216x512 .f32) (h2 : a2.IsWhole)
    (a3 : Memref sig .tc .vmem S1x1x512 .f32) (h3 : a3.IsWhole) (a4 : Memref sig .tc .vmem S1x4x128x128 .f32) (h4 : a4.IsWhole)
    (hc : cond0_0 i) (x0 : Vec F S9216x512 .f32) :
    out0_A_1 c i a2 h2 a3 h3 a4 h4 hc x0 = k0_pay8 x0 (k0_pay5 (F := F)) := by
  unfold out0_A_1
  rw [View.read_writes_eq_canon _ _ _ (cover0_A_1 c i a2 h2 a3 h3 a4 h4 hc x0)]
  unfold kernelRun0_A
  dsimp only
  sl_unfold_words
  rw [View.canon_cons_unit_zero (S := S1x1x512) hz3, View.readCov_unit_zero (S := S1x1x512) _ hz3]
  simp only [View.readAt_eq_ld, h2.read_unread, View.ld_unit_zero (S := S9216x512) hz2]

/-- The step at a channel: what the row held there plus the tile's column total. -/
private theorem pay8_apply (x : Vec Ideal S9216x512 .f32) (acc : Vec Ideal S1x1x512 .f32) (k : Fin 512) :
    k0_pay8 (F := Ideal) x acc (ix3 0 0 k) = acc (ix3 0 0 k) + ∑ r : Fin 9216, x (ix2 r k) := by
  unfold k0_pay8 k0_pay7
  dsimp only
  refine (shapeCast_ab_1ab_apply _ _ 0 0 k).trans ?_
  rw [addf_apply, shapeCast_1ab_ab_apply, shapeCast_a_1a_apply, shapeCast_self]
  refine congrArg (acc (ix3 0 0 k) + ·) ?_
  refine (Ideal.multiReduction_add_single (s := S9216x512) (t := S512) (a := 0) x _ reduces_S9216x512_S512 _ _ (ix1 k)).trans ?_
  refine Finset.sum_congr rfl fun r _ => congrArg x ?_
  funext a
  match a with
  | ⟨0, _⟩ => rfl
  | ⟨1, _⟩ => rfl

/-- The reset row is zero everywhere. -/
private theorem pay5_apply (j : S1x1x512.Idx) : k0_pay5 (F := Ideal) j = 0 := by
  unfold k0_pay5
  obtain ⟨u, v, k, rfl⟩ : ∃ u v k, j = ix3 u v k := ⟨j 0, j 1, j 2, eq_ix3 j⟩
  refine (shapeCast_ab_1ab_apply _ _ u v k).trans ?_
  rw [broadcast_apply]
  exact Ideal.ofBits_zero_f32

/-! ## The tiles of the sample matrix and the fold over a core's four points -/

section Fold

variable (V : (c : Dev nD) → (b : Ref sig .tc) → Buf (Elt Ideal) ((c : Thread nD τ).loc b)) (c : Dev nD)

/-- Sample `m` of channel `k`; zero past the last sample, so that sums over row ranges need no bounds. -/
private def samp (X : FVec Ideal TX .f32) (k : Fin 512) (m : ℕ) : EReal := if h : m < 73728 then X (ix2 ⟨m, h⟩ k) else 0

/-- The channel of an index of the accumulator row. -/
private def col (i : S1x1x512.Idx) : Fin 512 := i 2

/-- Row tile `n`'s column total at the index's channel: rows `9216·n … 9216·n + 9215`. -/
private def addend (X : FVec Ideal TX .f32) (n : ℕ) (i : S1x1x512.Idx) : EReal :=
  ∑ r ∈ Finset.range 9216, samp X (col i) (9216 * n + r)

/-- The tile of 9216 sample rows the point is handed. -/
private abbrev xblk (t : Fin cfg0.N) : Vec Ideal S9216x512 .f32 := iblk0 V c 0 t

/-- The index maps, decided over the eight points: the input's row tile is the point's number, the accumulator's
    block is the core `t / 4`. -/
private theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

private theorem idx1 : ∀ t : Fin cfg0.N, win0_1.index t (0 : Fin 3) = t.val / 4 ∧ win0_1.index t (1 : Fin 3) = 0
    ∧ win0_1.index t (2 : Fin 3) = 0 :=
  (by decide +kernel : ∀ t : Fin grid0.N, win0_1.index t (0 : Fin 3) = t.val / 4 ∧ win0_1.index t (1 : Fin 3) = 0
    ∧ win0_1.index t (2 : Fin 3) = 0)

/-- Row `r` of the block at point `t` is sample `9216·t + r`. -/
private theorem blk_apply (t : Fin cfg0.N) (r : Fin 9216) (k : Fin 512) :
    xblk V c t (ix2 r k) = samp (V c main_v0) k (9216 * t.val + r.val) := by
  have hN : cfg0.N = 8 := N_0
  have hi := idx0 t
  have hlt : 9216 * t.val + r.val < 73728 := by have := t.isLt; have := r.isLt; omega
  unfold samp
  rw [dif_pos hlt]
  show ((cfg0.win 0).blk t).view.read (Elt Ideal) (V c (Pipeline.arrRef spec0 0)) (ix2 r k) = _
  rw [View.read_apply]
  show V c main_v0 _ = V c main_v0 _
  congr 1
  funext a
  apply Fin.ext
  match a with
  | ⟨0, _⟩ => show win0_0.index t (0 : Fin 2) * 9216 + 1 * r.val = 9216 * t.val + r.val; rw [hi.1]; omega
  | ⟨1, _⟩ => show win0_0.index t (1 : Fin 2) * 512 + 1 * k.val = k.val; rw [hi.2]; omega

/-- One step at any index: what the row held there plus the tile's column total. -/
private theorem step_apply (t : Fin cfg0.N) (acc : Vec Ideal S1x1x512 .f32) (i : S1x1x512.Idx) :
    k0_pay8 (F := Ideal) (xblk V c t) acc i = acc i + addend (V c main_v0) t.val i := by
  obtain ⟨u, v, k, rfl⟩ : ∃ u v k, i = ix3 u v k := ⟨i 0, i 1, i 2, eq_ix3 i⟩
  obtain rfl : u = 0 := Subsingleton.elim _ _
  obtain rfl : v = 0 := Subsingleton.elim _ _
  rw [pay8_apply]
  refine congrArg (acc (ix3 0 0 k) + ·) ?_
  show ∑ r : Fin 9216, xblk V c t (ix2 r k) = ∑ r ∈ Finset.range 9216, samp (V c main_v0) k (9216 * t.val + r)
  rw [Finset.sum_range]
  exact Finset.sum_congr rfl fun r _ => blk_apply V c t r k

/-- The reset value of a run and the step of every other point. -/
private def aF : (n : ℕ) → n < cfg0.N → Vec Ideal S1x1x512 .f32 := fun n h => k0_pay8 (xblk V c ⟨n, h⟩) (k0_pay5 (F := Ideal))
private def gF : (n : ℕ) → n < cfg0.N → Vec Ideal S1x1x512 .f32 → Vec Ideal S1x1x512 .f32 :=
  fun n h acc => k0_pay8 (xblk V c ⟨n, h⟩) acc

/-- At a point that resets, the row is the step over the zero row. -/
private theorem row_reset' (t : Fin cfg0.N) (hm : t.val % 4 = 0) :
    (outsAt0 V c t.val t.isLt).1 = k0_pay8 (F := Ideal) (xblk V c t) (k0_pay5 (F := Ideal)) := by
  rw [outsAt0_A V c t hm]
  dsimp only
  exact out_A (F := Ideal) c (grid0.coords t) (ms0_0 t) (hs0_0 t) (ms0_1 t) (hs0_1 t) (ms0_2 t) (hs0_2 t)
    ((hcond0_0 t).mpr hm) (iblk0 V c 0 t)

/-- At any other point, it is the step over what the point before left. -/
private theorem row_step' (t : Fin cfg0.N) (hm : ¬t.val % 4 = 0) :
    (outsAt0 V c t.val t.isLt).1
      = k0_pay8 (F := Ideal) (xblk V c t) (outsAt0 V c (t.val - 1) (Nat.lt_of_le_of_lt (Nat.sub_le _ _) t.isLt)).1 := by
  rw [outsAt0_B V c t hm]
  dsimp only
  exact out_B (F := Ideal) c (grid0.coords t) (ms0_0 t) (hs0_0 t) (ms0_1 t) (hs0_1 t) (ms0_2 t) (hs0_2 t)
    (fun h => hm ((hcond0_0 t).mp h)) (iblk0 V c 0 t)
    (outsAt0 V c (t.val - 1) (Nat.lt_of_le_of_lt (Nat.sub_le _ _) t.isLt)).1
    (outsAt0 V c (t.val - 1) (Nat.lt_of_le_of_lt (Nat.sub_le _ _) t.isLt)).2

private theorem row_reset (n : ℕ) (h : n < cfg0.N) (hm : n % 4 = 0) : (outsAt0 V c n h).1 = aF V c n h :=
  row_reset' V c ⟨n, h⟩ hm

private theorem row_step (n : ℕ) (h : n + 1 < cfg0.N) (hm : ¬(n + 1) % 4 = 0) :
    (outsAt0 V c (n + 1) h).1 = gF V c (n + 1) h (outsAt0 V c n (Nat.lt_of_succ_lt h)).1 :=
  row_step' V c ⟨n + 1, h⟩ hm

/-- What the accumulator row holds after point `t`: the column totals of the tiles of the run so far. -/
private theorem row_at (t : ℕ) (ht : t < cfg0.N) (i : S1x1x512.Idx) :
    (outsAt0 V c t ht).1 i = 0 + ∑ s ∈ Finset.range (t % 4 + 1), addend (V c main_v0) (4 * (t / 4) + s) i := by
  have hN : cfg0.N = 8 := N_0
  have h' : 4 * (t / 4) + t % 4 < cfg0.N := by rw [Nat.div_add_mod]; exact ht
  refine (congrFun (Pipeline.eq_accAt_of_mod (N := cfg0.N) (fun n h => (outsAt0 V c n h).1) 4 (aF V c) (gF V c)
    (row_reset V c) (row_step V c) (by decide) t ht h') i).trans ?_
  refine Pipeline.accAt_add_apply (aF V c) (gF V c) (fun _ => (0 : EReal)) (addend (V c main_v0)) (4 * (t / 4)) 3
    (fun h i => ?_) (fun n h acc i _ _ => ?_) (t % 4) (by omega) h' i
  · show k0_pay8 (F := Ideal) (xblk V c ⟨4 * (t / 4), h⟩) (k0_pay5 (F := Ideal)) i = _
    rw [step_apply, pay5_apply]
  · exact step_apply V c ⟨n, h⟩ acc i

end Fold

/-! ## From four tiles to a core's half of the samples, and the array -/

/-- `a` consecutive blocks of `b` terms are the first `a·b` terms. -/
private theorem sum_blocks (g : ℕ → EReal) (b : ℕ) : ∀ a : ℕ,
    ∑ s ∈ Finset.range a, ∑ r ∈ Finset.range b, g (b * s + r) = ∑ n ∈ Finset.range (a * b), g n
  | 0 => by simp
  | a + 1 => by
    rw [Finset.sum_range_succ, sum_blocks g b a, add_mul, one_mul, Finset.sum_range_add, Nat.mul_comm b a]

/-- The four row tiles of core `q` are its 36864 samples. -/
private theorem sum_tiles (f : ℕ → EReal) (q : ℕ) :
    ∑ s ∈ Finset.range 4, ∑ r ∈ Finset.range 9216, f (9216 * (4 * q + s) + r)
      = ∑ n ∈ Finset.range 36864, f (36864 * q + n) := by
  have e : ∀ s r : ℕ, 9216 * (4 * q + s) + r = 36864 * q + (9216 * s + r) := fun s r => by omega
  simp only [e]
  exact sum_blocks (fun m => f (36864 * q + m)) 9216 4

section Array

variable (V : (c : Dev nD) → (b : Ref sig .tc) → Buf (Elt Ideal) ((c : Thread nD τ).loc b)) (c : Dev nD)

/-- Core `q`'s total of channel `k`, as a sum over a range of sample numbers. -/
private theorem partF_apply (X : FVec Ideal TX .f32) (q : Fin 2) (u : Fin 1) (k : Fin 512) :
    partF X (ix3 q u k) = ∑ n ∈ Finset.range 36864, samp X k (36864 * q.val + n) := by
  show ∑ n : Fin 36864, X (ix2 (half q n) k) = _
  rw [Finset.sum_range]
  refine Finset.sum_congr rfl fun n _ => ?_
  have hlt : 36864 * q.val + n.val < 73728 := by have := q.isLt; have := n.isLt; omega
  unfold samp
  rw [dif_pos hlt]
  rfl

/-- An index of the array is in point `t`'s block iff each coordinate is in the block's range on its axis. -/
private theorem mem_blk (t : Fin cfg0.N) (i : S2x1x512.Idx) :
    i ∈ ((cfg0.win 1).blk t).view.set ↔ ∀ a : Fin 3, win0_1.index t a * S1x1x512.size a ≤ (i a).val
      ∧ (i a).val < win0_1.index t a * S1x1x512.size a + S1x1x512.size a := by
  show i ∈ ((View.whole main_v3_0).slice (win0_1.rect t)).set ↔ _
  rw [View.set_slice_whole, Rect.mem_set_unit]
  exact Iff.rfl

/-- After a core's last point the row holds the core's partial totals. -/
private theorem row_final (t : Fin cfg0.N) (h3 : t.val % 4 = 3) (hq : t.val / 4 < 2) (j : S1x1x512.Idx) :
    (outsAt0 V c t.val t.isLt).1 j = partF (V c main_v0) (ix3 (⟨t.val / 4, hq⟩ : Fin 2) (0 : Fin 1) (col j)) := by
  rw [partF_apply, row_at V c t.val t.isLt j, h3, zero_add]
  show ∑ s ∈ Finset.range 4, ∑ r ∈ Finset.range 9216, samp (V c main_v0) (col j) (9216 * (4 * (t.val / 4) + s) + r) = _
  exact sum_tiles (samp (V c main_v0) (col j)) (t.val / 4)

/-- The accumulator's block read through its window, and the block the write-back takes of the staging row, at an
    index — stated for arbitrary contents. -/
private theorem read_blk_apply (G : FVec Ideal TPartF .f32) (t : Fin cfg0.N) (j : ((cfg0.win 1).xblock (grid0.coords t)).Idx) :
    ((cfg0.win 1).blk t).view.read (Elt Ideal) G j = G (((cfg0.win 1).blk t).view.emb j) := rfl

private theorem cut_apply (R : Vec Ideal S1x1x512 .f32) (t : Fin cfg0.N) (j : ((cfg0.win 1).xblock (grid0.coords t)).Idx) :
    (cfg0.win 1).cut (grid0.coords t) R j = R ((cfg0.win 1).xinj (grid0.coords t) j) := rfl

/-- What a core's last point writes back is the core's block of the partial totals. -/
private theorem flushed_eq (t : Fin cfg0.N) (hf : (cfg0.win 1).flush t = true) :
    (dat0 V c).flushed 1 t = ((cfg0.win 1).blk t).view.read (Elt Ideal) (partF (V c main_v0)) := by
  have hN : cfg0.N = 8 := N_0
  have h3 : t.val % 4 = 3 := (flush0_1 t).mp hf
  have hi := idx1 t
  have hq : t.val / 4 < 2 := by have := t.isLt; omega
  show (cfg0.win 1).cut (grid0.coords t) ((dat0 V c).after 1 t) = _
  rw [after0_1]
  funext j
  have hj0 : (j 0).val < 1 := (j 0).isLt
  have hj1 : (j 1).val < 1 := (j 1).isLt
  refine (cut_apply _ t j).trans ?_
  refine Eq.trans ?_ (read_blk_apply (partF (V c main_v0)) t j).symm
  refine (row_final V c t h3 hq _).trans (congrArg (partF (V c main_v0)) ?_)
  funext a
  apply Fin.ext
  match a with
  | ⟨0, _⟩ => show t.val / 4 = win0_1.index t (0 : Fin 3) * 1 + 1 * (j 0).val; rw [hi.1]; omega
  | ⟨1, _⟩ => show 0 = win0_1.index t (1 : Fin 3) * 1 + 1 * (j 1).val; rw [hi.2.1]; omega
  | ⟨2, _⟩ => show (j 2).val = win0_1.index t (2 : Fin 3) * 512 + 1 * (j 2).val; rw [hi.2.2]; omega

end Array

/-- The partial column totals after the first kernel, from the sample matrix it is entered with. -/
theorem part_f (V : (c : Dev nD) → (b : Ref sig .tc) → Buf (Elt Ideal) ((c : Thread nD τ).loc b)) (c : Dev nD) :
    ((dat0 V c).arrAt 1 cfg0.N : FVec Ideal TPartF .f32) = partF (V c main_v0) := by
  have hN : cfg0.N = 8 := N_0
  refine (dat0 V c).arrAt_eq_of_cover 1 (partF (V c main_v0)) (flushed_eq V c) fun i => ?_
  have hq : (i 0).val < 2 := (i 0).isLt
  have h1 : (i 1).val < 1 := (i 1).isLt
  have h2 : (i 2).val < 512 := (i 2).isLt
  let t : Fin cfg0.N := ⟨4 * (i 0).val + 3, by omega⟩
  have ht : t.val = 4 * (i 0).val + 3 := rfl
  have hi := idx1 t
  refine ⟨t, (flush0_1 t).mpr (by omega), ?_⟩
  rw [mem_blk]
  intro a
  match a with
  | ⟨0, _⟩ => show win0_1.index t (0 : Fin 3) * 1 ≤ (i 0).val ∧ (i 0).val < win0_1.index t (0 : Fin 3) * 1 + 1; rw [hi.1]; omega
  | ⟨1, _⟩ => show win0_1.index t (1 : Fin 3) * 1 ≤ (i 1).val ∧ (i 1).val < win0_1.index t (1 : Fin 3) * 1 + 1; rw [hi.2.1]; omega
  | ⟨2, _⟩ => show win0_1.index t (2 : Fin 3) * 512 ≤ (i 2).val ∧ (i 2).val < win0_1.index t (2 : Fin 3) * 512 + 512; rw [hi.2.2]; omega

end Cert.Whitening.KReg0F

end
-- ==== Proof.KReg0FF.lean ====
/-
  The first kernel's second result: each core's raw second moments of every group over its half of the samples —
  per row tile the product of a 256-channel slab's transpose with itself, of which the two diagonal 128 by 128 blocks
  are kept — accumulated over the core's four row tiles and written back after the last.
-/
import proofs.«401155_j5385888989602_3_alg».proof.Proof.Gen.KernelIdeal.Frame
import proofs.«401155_j5385888989602_3_alg».proof.Proof.Part
import Idealize.ShloMosaic.Lib.Pipeline.Value
import Idealize.ShloMosaic.Lib.ValueIdx
import Idealize.ShloMosaic.PureOps.Ideal.Laws
import Idealize.ShloMosaic.Lib.Tactic

noncomputable section

open scoped BigOperators

namespace Cert.Whitening.KReg0FF

open Idealize.ShloMosaic Idealize.ShloMosaic.TcCoe Idealize.ShloMosaic.ValueIdx Idealize.SL.Sem
open Cert.KernelIdeal Cert.KernelIdeal.Gen

private abbrev dd := dot_S9216x256_S9216x256_S256x256_0_0_1_1_n_n

/-- Column a of the 256-column slab at offset o, as a column of the row tile. -/
private def col (o : Nat) (ho : o + 256 ≤ 512) (a : Fin 256) : Fin 512 := ⟨o + a.val, by have := a.isLt; omega⟩

/-- A slab's transpose times the slab, read at an entry: the sum over the tile's rows of the products of the two columns. -/
private theorem gram_apply (v : FVec Ideal S9216x512 .f32) (o : Nat) (h : S9216x512.Slices ![0, o] S9216x256) (ho : o + 256 ≤ 512)
    (hb : FTy.bf16.bits < FTy.f32.bits) (a b : Fin 256) :
    matmul dd none (truncf .bf16 (extractStridedSlice S9216x256 ![0, o] v h) hb)
      (truncf .bf16 (extractStridedSlice S9216x256 ![0, o] v h) hb) (constant S256x256 .f32 0x00000000#32) (ix2 a b)
      = ∑ r : Fin 9216, v (ix2 r (col o ho a)) * v (ix2 r (col o ho b)) := by
  refine (Ideal.matmul_constant_zero_apply dd none _ _ (ix2 a b)).trans ?_
  rw [← Equiv.sum_comp (contrEquiv1 dd 9216 rfl rfl).symm]
  refine Finset.sum_congr rfl fun r _ => ?_
  have hr := contrEquiv1_symm_val dd 9216 rfl rfl r
  have e1 : extractStridedSlice S9216x256 ![0, o] v h (dd.lhsIdx (ix2 a b) ((contrEquiv1 dd 9216 rfl rfl).symm r)) = v (ix2 r (col o ho a)) :=
    extractStridedSlice_apply _ _ _ _ _ fun ax => by
      match ax with
      | ⟨0, _⟩ =>
        show r.val = 0 + ((dd.lhsIdx (ix2 a b) ((contrEquiv1 dd 9216 rfl rfl).symm r)) 0).val
        have c0 : ((dd.lhsIdx (ix2 a b) ((contrEquiv1 dd 9216 rfl rfl).symm r)) 0).val = (((contrEquiv1 dd 9216 rfl rfl).symm r) ⟨0, by decide⟩).val := rfl
        rw [c0, hr]; omega
      | ⟨1, _⟩ => rfl
  have e2 : extractStridedSlice S9216x256 ![0, o] v h (dd.rhsIdx (ix2 a b) ((contrEquiv1 dd 9216 rfl rfl).symm r)) = v (ix2 r (col o ho b)) :=
    extractStridedSlice_apply _ _ _ _ _ fun ax => by
      match ax with
      | ⟨0, _⟩ =>
        show r.val = 0 + ((dd.rhsIdx (ix2 a b) ((contrEquiv1 dd 9216 rfl rfl).symm r)) 0).val
        have c0 : ((dd.rhsIdx (ix2 a b) ((contrEquiv1 dd 9216 rfl rfl).symm r)) 0).val = (((contrEquiv1 dd 9216 rfl rfl).symm r) ⟨0, by decide⟩).val := rfl
        rw [c0, hr]; omega
      | ⟨1, _⟩ => rfl
  exact congrArg₂ (· * ·) e1 e2

/-- A 128 by 128 matrix stored as a block with two leading unit axes, read at an entry. -/
private theorem cast_up {α : Type} (x : S128x128.Idx → α) (h : S128x128.ShapeCasts S1x1x128x128) (p q : Fin 1) (a b : Fin 128) :
    shapeCast S1x1x128x128 x h (ix4 p q a b) = x (ix2 a b) :=
  shapeCast_apply x h _ (ix2 a b) (by
    rw [Shape.rowMajor_val_two, Shape.rowMajor_val_four]
    show a.val * 128 + b.val = ((p.val * 1 + q.val) * 128 + a.val) * 128 + b.val
    have := p.isLt; have := q.isLt; omega)

/-- The converse view. -/
private theorem cast_dn {α : Type} (x : S1x1x128x128.Idx → α) (h : S1x1x128x128.ShapeCasts S128x128) (a b : Fin 128) :
    shapeCast S128x128 x h (ix2 a b) = x (ix4 0 0 a b) :=
  shapeCast_apply x h _ (ix4 0 0 a b) (by
    rw [Shape.rowMajor_val_two, Shape.rowMajor_val_four]
    show ((0 * 1 + 0) * 128 + a.val) * 128 + b.val = a.val * 128 + b.val
    omega)

/-- One accumulator update read at an entry: what the block held plus the diagonal block's entry of the slab's
    second-moment matrix, the columns named by any function c agreeing with the offsets. -/
private theorem slab_apply (v : FVec Ideal S9216x512 .f32) (o : Nat) (hsl : S9216x512.Slices ![0, o] S9216x256) (ho : o + 256 ≤ 512)
    (hb : FTy.bf16.bits < FTy.f32.bits) (acc : Vec Ideal S1x1x128x128 .f32) (hd : S1x1x128x128.ShapeCasts S128x128)
    (hu : S128x128.ShapeCasts S1x1x128x128) (o2 : Nat) (hs : S256x256.Slices ![o2, o2] S128x128) (ho2 : o2 + 128 ≤ 256)
    (c : Fin 128 → Fin 512) (hc : ∀ a, (c a).val = o + o2 + a.val) (a b : Fin 128) :
    shapeCast S1x1x128x128 (addf (shapeCast S128x128 acc hd)
      (extractStridedSlice S128x128 ![o2, o2] (matmul dd none (truncf .bf16 (extractStridedSlice S9216x256 ![0, o] v hsl) hb)
        (truncf .bf16 (extractStridedSlice S9216x256 ![0, o] v hsl) hb) (constant S256x256 .f32 0x00000000#32)) hs)) hu (ix4 0 0 a b)
      = acc (ix4 0 0 a b) + ∑ r : Fin 9216, v (ix2 r (c a)) * v (ix2 r (c b)) := by
  rw [cast_up]
  refine (addf_apply _ _ _).trans ?_
  rw [cast_dn]
  have e : extractStridedSlice S128x128 ![o2, o2] (matmul dd none (truncf .bf16 (extractStridedSlice S9216x256 ![0, o] v hsl) hb)
        (truncf .bf16 (extractStridedSlice S9216x256 ![0, o] v hsl) hb) (constant S256x256 .f32 0x00000000#32)) hs (ix2 a b)
      = _ := extractStridedSlice_apply _ _ hs (ix2 a b) (ix2 ⟨o2 + a.val, by have := a.isLt; omega⟩ ⟨o2 + b.val, by have := b.isLt; omega⟩) fun ax => by
        match ax with
        | ⟨0, _⟩ => rfl
        | ⟨1, _⟩ => rfl
  rw [e, gram_apply v o hsl ho hb]
  have ca : col o ho ⟨o2 + a.val, by have := a.isLt; omega⟩ = c a := Fin.ext (by rw [hc a]; show o + (o2 + a.val) = _; omega)
  have cb : col o ho ⟨o2 + b.val, by have := b.isLt; omega⟩ = c b := Fin.ext (by rw [hc b]; show o + (o2 + b.val) = _; omega)
  rw [ca, cb]

private theorem pay10_apply (v3 : Vec Ideal S9216x512 .f32) (v16 : Vec Ideal S1x1x128x128 .f32) (a b : Fin 128) :
    k0_pay10 (F := Ideal) v3 v16 (ix4 0 0 a b) = v16 (ix4 0 0 a b) + ∑ r : Fin 9216, v3 (ix2 r (ch 0 a)) * v3 (ix2 r (ch 0 b)) := by
  unfold k0_pay10 k0_pay9 k0_pay7
  rw [shapeCast_self]
  exact slab_apply v3 0 _ (by omega) _ v16 _ _ 0 _ (by omega) (ch 0) (fun a => by show 128 * 0 + a.val = _; omega) a b

private theorem pay11_apply (v3 : Vec Ideal S9216x512 .f32) (v23 : Vec Ideal S1x1x128x128 .f32) (a b : Fin 128) :
    k0_pay1 (F := Ideal) (k0_pay11 v3 v23) (ix4 0 0 a b) = v23 (ix4 0 0 a b) + ∑ r : Fin 9216, v3 (ix2 r (ch 1 a)) * v3 (ix2 r (ch 1 b)) := by
  unfold k0_pay1 k0_pay11 k0_pay9 k0_pay7
  rw [shapeCast_self]
  exact slab_apply v3 0 _ (by omega) _ v23 _ _ 128 _ (by omega) (ch 1) (fun a => by show 128 * 1 + a.val = _; omega) a b

private theorem pay3_apply (v4 : FVec Ideal S9216x512 .f32) (v33 : Vec Ideal S1x1x128x128 .f32) (a b : Fin 128) :
    k0_pay3 (F := Ideal) v4 v33 (ix4 0 0 a b) = v33 (ix4 0 0 a b) + ∑ r : Fin 9216, v4 (ix2 r (ch 2 a)) * v4 (ix2 r (ch 2 b)) := by
  unfold k0_pay3 k0_pay2
  exact slab_apply v4 256 _ (by omega) _ v33 _ _ 0 _ (by omega) (ch 2) (fun a => by show 128 * 2 + a.val = _; omega) a b

private theorem pay4_apply (v4 : FVec Ideal S9216x512 .f32) (v40 : Vec Ideal S1x1x128x128 .f32) (a b : Fin 128) :
    k0_pay4 (F := Ideal) v4 v40 (ix4 0 0 a b) = v40 (ix4 0 0 a b) + ∑ r : Fin 9216, v4 (ix2 r (ch 3 a)) * v4 (ix2 r (ch 3 b)) := by
  unfold k0_pay4 k0_pay2
  exact slab_apply v4 256 _ (by omega) _ v40 _ _ 128 _ (by omega) (ch 3) (fun a => by show 128 * 3 + a.val = _; omega) a b

/-- One row tile's raw second moments of every group. -/
private def tileFF (x : Vec Ideal S9216x512 .f32) : Vec Ideal S1x4x128x128 .f32 :=
  fun y => ∑ r : Fin 9216, x (ix2 r (ch (y 1) (y 2))) * x (ix2 r (ch (y 1) (y 3)))

private theorem hz2 : (![0, 0] : Fin 2 → Nat) = fun _ => 0 := funext fun a => by fin_cases a <;> rfl
private theorem hz4 : (![0, 0, 0, 0] : Fin 4 → Nat) = fun _ => 0 := funext fun a => by fin_cases a <;> rfl

/-- The block of group k inside the four-group accumulator: entry (a, b) of the block sits at (0, k, a, b). -/
private theorem emb_slab (k : Nat) (hk : k < 4) (inb : ∀ ax, (![0, k, 0, 0] : Fin 4 → Nat) ax + (![1, 1, 128, 128] : Fin 4 → Nat) ax ≤ S1x4x128x128.size ax)
    (a b : Fin 128) :
    (Rect.unit (s := S1x4x128x128) ![0, k, 0, 0] ![1, 1, 128, 128] inb).emb (ix4 0 0 a b) = ix4 0 ⟨k, hk⟩ a b := by
  funext ax
  apply Fin.ext
  rw [Rect.emb_apply]
  match ax with
  | ⟨0, _⟩ => show 0 + 1 * 0 = 0; omega
  | ⟨1, _⟩ => show k + 1 * 0 = k; omega
  | ⟨2, _⟩ => show 0 + 1 * a.val = a.val; omega
  | ⟨3, _⟩ => show 0 + 1 * b.val = b.val; omega

/-- Writes whose first few pieces already cover an entry leave there what those pieces say, whatever was written before. -/
private theorem canon_apply_of_prefix {Val : EltTy → Type} {S : Shape} {e : EltTy} [∀ e, Nonempty (Val e)] (G : S.Idx → Val e)
    (L2 : List (View.Piece Val S e)) :
    ∀ (L1 : List (View.Piece Val S e)) (_ : ∀ p ∈ L1, ∀ x : p.1.shape.Idx, p.2 x = G (p.1.emb x)) (y : S.Idx)
      (_ : ∃ p ∈ L1, y ∈ p.1.set), View.canon (L1 ++ L2) y = G y
  | [], _, _, hy => by obtain ⟨p, hp, _⟩ := hy; simp at hp
  | p :: L, hL, y, hy => by
    show View.canon (p :: (L ++ L2)) y = G y
    by_cases hm : y ∈ p.1.set
    · obtain ⟨x, rfl⟩ := p.1.exists_idx_of_mem hm
      rw [show p.1.idx x = p.1.emb x from rfl, View.canon_cons_emb]
      exact hL p (by simp) x
    · rw [View.canon_cons_of_not_mem _ _ hm]
      refine canon_apply_of_prefix G L2 L (fun q hq => hL q (by simp [hq])) y ?_
      obtain ⟨q, hq, hyq⟩ := hy
      rcases List.mem_cons.mp hq with rfl | hq'
      · exact absurd hyq hm
      · exact ⟨q, hq', hyq⟩

/-- An entry of group g lies in group g's block of the accumulator, -/
private theorem mem_slab (y : S1x4x128x128.Idx) (k : Nat) (hk : (y 1).val = k)
    (inb : ∀ ax, (![0, k, 0, 0] : Fin 4 → Nat) ax + (![1, 1, 128, 128] : Fin 4 → Nat) ax ≤ S1x4x128x128.size ax) :
    y ∈ (Rect.unit (s := S1x4x128x128) ![0, k, 0, 0] ![1, 1, 128, 128] inb).set := by
  rw [Rect.mem_set_unit]
  intro ax
  have h0 : (y 0).val < 1 := (y 0).isLt
  have h2 : (y 2).val < 128 := (y 2).isLt
  have h3 : (y 3).val < 128 := (y 3).isLt
  match ax with
  | ⟨0, _⟩ => show 0 ≤ (y 0).val ∧ (y 0).val < 0 + 1; omega
  | ⟨1, _⟩ => show k ≤ (y 1).val ∧ (y 1).val < k + 1; omega
  | ⟨2, _⟩ => show 0 ≤ (y 2).val ∧ (y 2).val < 0 + 128; omega
  | ⟨3, _⟩ => show 0 ≤ (y 3).val ∧ (y 3).val < 0 + 128; omega

/-- and in no other group's. -/
private theorem not_mem_slab (k g : Nat) (hg : g < 4) (hne : g ≠ k)
    (inb : ∀ ax, (![0, k, 0, 0] : Fin 4 → Nat) ax + (![1, 1, 128, 128] : Fin 4 → Nat) ax ≤ S1x4x128x128.size ax) (a b : Fin 128) :
    ix4 (0 : Fin 1) (⟨g, hg⟩ : Fin 4) a b ∉ (Rect.unit (s := S1x4x128x128) ![0, k, 0, 0] ![1, 1, 128, 128] inb).set := by
  rw [Rect.mem_set_unit]
  intro h
  have h1 : k ≤ g ∧ g < k + 1 := h 1
  omega

/-- So a write to another group's block does not change what an entry of group g reads. -/
private theorem canon_skip {Val : EltTy → Type} [∀ e, Nonempty (Val e)] (k g : Nat) (hg : g < 4) (hne : g ≠ k)
    (inb : ∀ ax, (![0, k, 0, 0] : Fin 4 → Nat) ax + (![1, 1, 128, 128] : Fin 4 → Nat) ax ≤ S1x4x128x128.size ax)
    (w : (Rect.unit (s := S1x4x128x128) ![0, k, 0, 0] ![1, 1, 128, 128] inb).shape.Idx → Val .f32)
    (L : List (View.Piece Val S1x4x128x128 .f32)) (a b : Fin 128) :
    View.canon ((⟨Rect.unit (s := S1x4x128x128) ![0, k, 0, 0] ![1, 1, 128, 128] inb, w⟩ : View.Piece Val S1x4x128x128 .f32) :: L)
        (ix4 (0 : Fin 1) (⟨g, hg⟩ : Fin 4) a b)
      = View.canon L (ix4 (0 : Fin 1) (⟨g, hg⟩ : Fin 4) a b) :=
  View.canon_cons_of_not_mem _ L (not_mem_slab k g hg hne inb a b)

/-- The reset value of the accumulator is zero everywhere. -/
private theorem pay6_apply (y : S1x4x128x128.Idx) : k0_pay6 (F := Ideal) y = 0 := by
  unfold k0_pay6
  exact Ideal.ofBits_zero_f32

/-- What a resetting point leaves in the second-moment accumulator: the row tile's second moments. -/
private theorem out_A2 (c : Dev nD) (i : grid0.Coords) (a2 : Memref sig .tc .vmem S9216x512 .f32) (h2 : a2.IsWhole)
    (a3 : Memref sig .tc .vmem S1x1x512 .f32) (h3 : a3.IsWhole) (a4 : Memref sig .tc .vmem S1x4x128x128 .f32) (h4 : a4.IsWhole)
    (hc : cond0_0 i) (x0 : Vec Ideal S9216x512 .f32) :
    out0_A_2 (F := Ideal) c i a2 h2 a3 h3 a4 h4 hc x0 = tileFF x0 := by
  unfold out0_A_2
  rw [View.read_writes_eq_canon _ _ _ (cover0_A_2 c i a2 h2 a3 h3 a4 h4 hc x0)]
  unfold kernelRun0_A
  dsimp only
  sl_unfold_words
  simp only [View.readAt_eq_ld, h2.read_unread, View.ld_unit_zero (S := S9216x512) hz2, k0_pay7, shapeCast_self]
  funext y
  refine canon_apply_of_prefix (tileFF x0) [_] [_, _, _, _] ?_ y ?_
  · refine List.forall_mem_cons.mpr ⟨fun x => ?_, List.forall_mem_cons.mpr ⟨fun x => ?_, List.forall_mem_cons.mpr ⟨fun x => ?_,
      List.forall_mem_cons.mpr ⟨fun x => ?_, fun p hp => absurd hp List.not_mem_nil⟩⟩⟩⟩
    · obtain ⟨p, q, a, b, rfl⟩ : ∃ (p q : Fin 1) (a b : Fin 128), x = ix4 p q a b := ⟨x 0, x 1, x 2, x 3, eq_ix4 x⟩
      obtain rfl : p = 0 := Subsingleton.elim _ _
      obtain rfl : q = 0 := Subsingleton.elim _ _
      refine (pay4_apply _ _ a b).trans ?_
      refine (congrArg₂ (· + ·) ?_ rfl).trans ((zero_add _).trans (congrArg (tileFF x0) (emb_slab 3 (by omega) inb_S1x4x128x128_S1x1x128x128_0_3_0_0 a b)).symm)
      refine (congrFun (View.readCov_eq_canon' _ _ _) _).trans ?_
      refine (congrArg (View.canon _) (emb_slab 3 (by omega) inb_S1x4x128x128_S1x1x128x128_0_3_0_0 a b)).trans ?_
      refine (canon_skip 2 3 (by omega) (by omega) inb_S1x4x128x128_S1x1x128x128_0_2_0_0 _ _ a b).trans ?_
      refine (canon_skip 1 3 (by omega) (by omega) inb_S1x4x128x128_S1x1x128x128_0_1_0_0 _ _ a b).trans ?_
      refine (canon_skip 0 3 (by omega) (by omega) inb_S1x4x128x128_S1x1x128x128_0_0_0_0 _ _ a b).trans ?_
      exact (congrFun (View.canon_unit_zero hz4 _ _) _).trans (pay6_apply _)
    · obtain ⟨p, q, a, b, rfl⟩ : ∃ (p q : Fin 1) (a b : Fin 128), x = ix4 p q a b := ⟨x 0, x 1, x 2, x 3, eq_ix4 x⟩
      obtain rfl : p = 0 := Subsingleton.elim _ _
      obtain rfl : q = 0 := Subsingleton.elim _ _
      refine (pay3_apply _ _ a b).trans ?_
      refine (congrArg₂ (· + ·) ?_ rfl).trans ((zero_add _).trans (congrArg (tileFF x0) (emb_slab 2 (by omega) inb_S1x4x128x128_S1x1x128x128_0_2_0_0 a b)).symm)
      refine (congrFun (View.readCov_eq_canon' _ _ _) _).trans ?_
      refine (congrArg (View.canon _) (emb_slab 2 (by omega) inb_S1x4x128x128_S1x1x128x128_0_2_0_0 a b)).trans ?_
      refine (canon_skip 1 2 (by omega) (by omega) inb_S1x4x128x128_S1x1x128x128_0_1_0_0 _ _ a b).trans ?_
      refine (canon_skip 0 2 (by omega) (by omega) inb_S1x4x128x128_S1x1x128x128_0_0_0_0 _ _ a b).trans ?_
      exact (congrFun (View.canon_unit_zero hz4 _ _) _).trans (pay6_apply _)
    · obtain ⟨p, q, a, b, rfl⟩ : ∃ (p q : Fin 1) (a b : Fin 128), x = ix4 p q a b := ⟨x 0, x 1, x 2, x 3, eq_ix4 x⟩
      obtain rfl : p = 0 := Subsingleton.elim _ _
      obtain rfl : q = 0 := Subsingleton.elim _ _
      refine (pay11_apply _ _ a b).trans ?_
      refine (congrArg₂ (· + ·) ?_ rfl).trans ((zero_add _).trans (congrArg (tileFF x0) (emb_slab 1 (by omega) inb_S1x4x128x128_S1x1x128x128_0_1_0_0 a b)).symm)
      refine (congrFun (View.readCov_eq_canon' _ _ _) _).trans ?_
      refine (congrArg (View.canon _) (emb_slab 1 (by omega) inb_S1x4x128x128_S1x1x128x128_0_1_0_0 a b)).trans ?_
      refine (canon_skip 0 1 (by omega) (by omega) inb_S1x4x128x128_S1x1x128x128_0_0_0_0 _ _ a b).trans ?_
      exact (congrFun (View.canon_unit_zero hz4 _ _) _).trans (pay6_apply _)
    · obtain ⟨p, q, a, b, rfl⟩ : ∃ (p q : Fin 1) (a b : Fin 128), x = ix4 p q a b := ⟨x 0, x 1, x 2, x 3, eq_ix4 x⟩
      obtain rfl : p = 0 := Subsingleton.elim _ _
      obtain rfl : q = 0 := Subsingleton.elim _ _
      refine (pay10_apply _ _ a b).trans ?_
      refine (congrArg₂ (· + ·) ?_ rfl).trans ((zero_add _).trans (congrArg (tileFF x0) (emb_slab 0 (by omega) inb_S1x4x128x128_S1x1x128x128_0_0_0_0 a b)).symm)
      refine (congrFun (View.readCov_eq_canon' _ _ _) _).trans ?_
      refine (congrArg (View.canon _) (emb_slab 0 (by omega) inb_S1x4x128x128_S1x1x128x128_0_0_0_0 a b)).trans ?_
      exact (congrFun (View.canon_unit_zero hz4 _ _) _).trans (pay6_apply _)
  · have h1 : (y 1).val < 4 := (y 1).isLt
    have hk : (y 1).val = 0 ∨ (y 1).val = 1 ∨ (y 1).val = 2 ∨ (y 1).val = 3 := by omega
    rcases hk with hk | hk | hk | hk
    · exact ⟨_, List.mem_cons_of_mem _ (List.mem_cons_of_mem _ (List.mem_cons_of_mem _ List.mem_cons_self)), mem_slab y 0 hk inb_S1x4x128x128_S1x1x128x128_0_0_0_0⟩
    · exact ⟨_, List.mem_cons_of_mem _ (List.mem_cons_of_mem _ List.mem_cons_self), mem_slab y 1 hk inb_S1x4x128x128_S1x1x128x128_0_1_0_0⟩
    · exact ⟨_, List.mem_cons_of_mem _ List.mem_cons_self, mem_slab y 2 hk inb_S1x4x128x128_S1x1x128x128_0_2_0_0⟩
    · exact ⟨_, List.mem_cons_self, mem_slab y 3 hk inb_S1x4x128x128_S1x1x128x128_0_3_0_0⟩

/-- What an accumulating point leaves in the second-moment accumulator: what it held plus the row tile's second moments. -/
private theorem out_B2 (c : Dev nD) (i : grid0.Coords) (a2 : Memref sig .tc .vmem S9216x512 .f32) (h2 : a2.IsWhole)
    (a3 : Memref sig .tc .vmem S1x1x512 .f32) (h3 : a3.IsWhole) (a4 : Memref sig .tc .vmem S1x4x128x128 .f32) (h4 : a4.IsWhole)
    (hc : ¬cond0_0 i) (x0 : Vec Ideal S9216x512 .f32) (xo1 : Vec Ideal S1x1x512 .f32) (xo2 : Vec Ideal S1x4x128x128 .f32) :
    out0_B_2 (F := Ideal) c i a2 h2 a3 h3 a4 h4 hc x0 xo1 xo2 = fun y => xo2 y + tileFF x0 y := by
  unfold out0_B_2
  rw [View.read_writes_eq_canon _ _ _ (cover0_B_2 c i a2 h2 a3 h3 a4 h4 hc x0 xo1 xo2)]
  funext y
  refine View.canon_apply_of_pieces (fun y => xo2 y + tileFF x0 y) _ ?_ y (cover0_B_2 c i a2 h2 a3 h3 a4 h4 hc x0 xo1 xo2 y)
  unfold kernelRun0_B
  dsimp only
  sl_unfold_words
  simp only [View.readAt_eq_ld, h2.read_unread, h4.read_unread, View.ld_unit_zero (S := S9216x512) hz2, k0_pay7, shapeCast_self]
  refine List.forall_mem_cons.mpr ⟨fun x => ?_, List.forall_mem_cons.mpr ⟨fun x => ?_, List.forall_mem_cons.mpr ⟨fun x => ?_,
    List.forall_mem_cons.mpr ⟨fun x => ?_, fun p hp => absurd hp List.not_mem_nil⟩⟩⟩⟩
  · obtain ⟨p, q, a, b, rfl⟩ : ∃ (p q : Fin 1) (a b : Fin 128), x = ix4 p q a b := ⟨x 0, x 1, x 2, x 3, eq_ix4 x⟩
    obtain rfl : p = 0 := Subsingleton.elim _ _
    obtain rfl : q = 0 := Subsingleton.elim _ _
    refine (pay4_apply _ _ a b).trans ?_
    refine congrArg₂ (· + ·) rfl ?_
    exact (congrArg (tileFF x0) (emb_slab 3 (by omega) inb_S1x4x128x128_S1x1x128x128_0_3_0_0 a b)).symm
  · obtain ⟨p, q, a, b, rfl⟩ : ∃ (p q : Fin 1) (a b : Fin 128), x = ix4 p q a b := ⟨x 0, x 1, x 2, x 3, eq_ix4 x⟩
    obtain rfl : p = 0 := Subsingleton.elim _ _
    obtain rfl : q = 0 := Subsingleton.elim _ _
    refine (pay3_apply _ _ a b).trans ?_
    refine congrArg₂ (· + ·) rfl ?_
    exact (congrArg (tileFF x0) (emb_slab 2 (by omega) inb_S1x4x128x128_S1x1x128x128_0_2_0_0 a b)).symm
  · obtain ⟨p, q, a, b, rfl⟩ : ∃ (p q : Fin 1) (a b : Fin 128), x = ix4 p q a b := ⟨x 0, x 1, x 2, x 3, eq_ix4 x⟩
    obtain rfl : p = 0 := Subsingleton.elim _ _
    obtain rfl : q = 0 := Subsingleton.elim _ _
    refine (pay11_apply _ _ a b).trans ?_
    refine congrArg₂ (· + ·) rfl ?_
    exact (congrArg (tileFF x0) (emb_slab 1 (by omega) inb_S1x4x128x128_S1x1x128x128_0_1_0_0 a b)).symm
  · obtain ⟨p, q, a, b, rfl⟩ : ∃ (p q : Fin 1) (a b : Fin 128), x = ix4 p q a b := ⟨x 0, x 1, x 2, x 3, eq_ix4 x⟩
    obtain rfl : p = 0 := Subsingleton.elim _ _
    obtain rfl : q = 0 := Subsingleton.elim _ _
    refine (pay10_apply _ _ a b).trans ?_
    refine congrArg₂ (· + ·) rfl ?_
    exact (congrArg (tileFF x0) (emb_slab 0 (by omega) inb_S1x4x128x128_S1x1x128x128_0_0_0_0 a b)).symm

section Run

variable (V : (c : Dev nD) → (b : Ref sig .tc) → Buf (Elt Ideal) ((c : Thread nD τ).loc b)) (c : Dev nD)

/-- The row tile a grid point is handed. -/
private abbrev xblk (t : Fin cfg0.N) : Vec Ideal S9216x512 .f32 := iblk0 V c 0 t

/-- The sample matrix the kernel is entered with. -/
private abbrev xin : FVec Ideal TX .f32 := V c main_v0

private theorem hN : cfg0.N = 8 := by decide

/-- Row tile t is rows 9216·t … of the sample matrix. -/
private theorem idx_facts0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

private theorem xblk_apply (t : Fin cfg0.N) (r : Fin 9216) (k : Fin 512) :
    xblk V c t (ix2 r k) = xin V c (ix2 ⟨9216 * t.val + r.val, by have h1 : t.val < 8 := hN ▸ t.isLt; have := r.isLt; omega⟩ k) := by
  obtain ⟨e0, e1⟩ := idx_facts0 t
  unfold xblk iblk0
  rw [View.read_apply]
  show V c main_v0 _ = V c main_v0 _
  congr 1
  funext ax
  apply Fin.ext
  match ax with
  | ⟨0, _⟩ => show win0_0.index t (0 : Fin 2) * 9216 + 1 * r.val = 9216 * t.val + r.val; rw [e0]; omega
  | ⟨1, _⟩ => show win0_0.index t (1 : Fin 2) * 512 + 1 * k.val = k.val; rw [e1]; omega
end Run

section Run2

variable (V : (c : Dev nD) → (b : Ref sig .tc) → Buf (Elt Ideal) ((c : Thread nD τ).loc b)) (c : Dev nD)

/-- Point n's contribution to the accumulator (zero past the grid, never used). -/
private def addend (n : Nat) : S1x4x128x128.Idx → EReal :=
  if h : n < cfg0.N then tileFF (xblk V c ⟨n, h⟩) else fun _ => 0

/-- At a resetting point the accumulator holds the point's row tile's second moments. -/
private theorem outs2_reset' (t : Fin cfg0.N) (hm : t.val % 4 = 0) :
    (outsAt0 V c t.val t.isLt).2 = tileFF (xblk V c t) := by
  rw [outsAt0_A V c t hm]
  dsimp only
  exact out_A2 c (grid0.coords t) (ms0_0 t) (hs0_0 t) (ms0_1 t) (hs0_1 t) (ms0_2 t) (hs0_2 t)
    ((hcond0_0 t).mpr hm) (iblk0 V c 0 t)

/-- At any other point it holds what the point before left plus the point's row tile's second moments. -/
private theorem outs2_step' (t : Fin cfg0.N) (hm : ¬t.val % 4 = 0) :
    (outsAt0 V c t.val t.isLt).2
      = fun y => (outsAt0 V c (t.val - 1) (Nat.lt_of_le_of_lt (Nat.sub_le _ _) t.isLt)).2 y + tileFF (xblk V c t) y := by
  rw [outsAt0_B V c t hm]
  dsimp only
  exact out_B2 c (grid0.coords t) (ms0_0 t) (hs0_0 t) (ms0_1 t) (hs0_1 t) (ms0_2 t) (hs0_2 t)
    (fun h => hm ((hcond0_0 t).mp h)) (iblk0 V c 0 t)
    (outsAt0 V c (t.val - 1) (Nat.lt_of_le_of_lt (Nat.sub_le _ _) t.isLt)).1
    (outsAt0 V c (t.val - 1) (Nat.lt_of_le_of_lt (Nat.sub_le _ _) t.isLt)).2

private theorem outs2_reset (n : Nat) (h : n < cfg0.N) (hm : n % 4 = 0) :
    (outsAt0 V c n h).2 = tileFF (xblk V c ⟨n, h⟩) :=
  outs2_reset' V c ⟨n, h⟩ hm

private theorem outs2_step (n : Nat) (h : n + 1 < cfg0.N) (hm : ¬(n + 1) % 4 = 0) :
    (outsAt0 V c (n + 1) h).2 = fun y => (outsAt0 V c n (Nat.lt_of_succ_lt h)).2 y + tileFF (xblk V c ⟨n + 1, h⟩) y :=
  outs2_step' V c ⟨n + 1, h⟩ hm

/-- So after point t the accumulator holds the sum of the contributions of the points since the last reset. -/
private theorem outs2_eq (t : Fin cfg0.N) (y : S1x4x128x128.Idx) :
    (outsAt0 V c t.val t.isLt).2 y = ∑ s ∈ Finset.range (t.val % 4 + 1), addend V c (4 * (t.val / 4) + s) y := by
  have h' : 4 * (t.val / 4) + t.val % 4 < cfg0.N := by rw [Nat.div_add_mod]; exact t.isLt
  have key := Pipeline.eq_accAt_of_mod (N := cfg0.N) (fun n h => (outsAt0 V c n h).2) 4
    (fun n h => tileFF (xblk V c ⟨n, h⟩)) (fun n h acc => fun y => acc y + tileFF (xblk V c ⟨n, h⟩) y)
    (outs2_reset V c) (outs2_step V c) (by omega) t.val t.isLt h'
  refine (congrFun key y).trans ?_
  refine (Pipeline.accAt_add_apply (β := EReal) _ _ (fun _ => 0) (addend V c) (4 * (t.val / 4)) 3 ?_ ?_ (t.val % 4) (by omega) h' y).trans (zero_add _)
  · intro h i
    unfold addend
    rw [dif_pos h]
    exact (zero_add _).symm
  · intro n h acc i _ _
    unfold addend
    rw [dif_pos h]
end Run2

/-- Sample numbers within a core's half, by row tile and row. -/
private def tilesEquiv : Fin 4 × Fin 9216 ≃ Fin 36864 := finProdFinEquiv.trans (finCongr (by norm_num))

private theorem tilesEquiv_val (s : Fin 4) (r : Fin 9216) : (tilesEquiv (s, r)).val = r.val + 9216 * s.val := rfl

/-- The four row tiles of a core are its half of the samples. -/
private theorem sum_half (Φ : Fin 73728 → EReal) (q : Fin 2) :
    ∑ n : Fin 36864, Φ (half q n)
      = ∑ s : Fin 4, ∑ r : Fin 9216,
          Φ ⟨9216 * (4 * q.val + s.val) + r.val, by have := q.isLt; have := s.isLt; have := r.isLt; omega⟩ := by
  rw [← Equiv.sum_comp tilesEquiv, Fintype.sum_prod_type]
  refine Finset.sum_congr rfl fun s _ => Finset.sum_congr rfl fun r _ => congrArg Φ (Fin.ext ?_)
  show 36864 * q.val + (tilesEquiv (s, r)).val = 9216 * (4 * q.val + s.val) + r.val
  rw [tilesEquiv_val]
  omega

section Run3

variable (V : (c : Dev nD) → (b : Ref sig .tc) → Buf (Elt Ideal) ((c : Thread nD τ).loc b)) (c : Dev nD)

/-- A row tile's second moments, over the sample matrix's rows. -/
private theorem tile_apply (t : Fin cfg0.N) (p : Fin 1) (g : Fin 4) (a b : Fin 128) :
    tileFF (xblk V c t) (ix4 p g a b)
      = ∑ r : Fin 9216,
          xin V c (ix2 ⟨9216 * t.val + r.val, by have h1 : t.val < 8 := hN ▸ t.isLt; have := r.isLt; omega⟩ (ch g a))
          * xin V c (ix2 ⟨9216 * t.val + r.val, by have h1 : t.val < 8 := hN ▸ t.isLt; have := r.isLt; omega⟩ (ch g b)) := by
  show ∑ r : Fin 9216, xblk V c t (ix2 r (ch g a)) * xblk V c t (ix2 r (ch g b)) = _
  exact Finset.sum_congr rfl fun r _ => by rw [xblk_apply, xblk_apply]

/-- After a core's last point the accumulator holds the core's partial second moments. -/
private theorem acc_final (t : Fin cfg0.N) (h3 : t.val % 4 = 3) (hq : t.val / 4 < 2) (p : Fin 1) (g : Fin 4) (a b : Fin 128) :
    (outsAt0 V c t.val t.isLt).2 (ix4 p g a b) = partFF (xin V c) (ix4 (⟨t.val / 4, hq⟩ : Fin 2) g a b) := by
  rw [outs2_eq V c t, h3]
  refine Eq.trans ?_ (sum_half (fun n => xin V c (ix2 n (ch g a)) * xin V c (ix2 n (ch g b))) ⟨t.val / 4, hq⟩).symm
  rw [← Fin.sum_univ_eq_sum_range (fun s => addend V c (4 * (t.val / 4) + s) (ix4 p g a b)) 4]
  refine Finset.sum_congr rfl fun s _ => ?_
  have hlt : 4 * (t.val / 4) + s.val < cfg0.N := by have := s.isLt; have hN' : cfg0.N = 8 := hN; omega
  unfold addend
  rw [dif_pos hlt]
  exact tile_apply V c ⟨_, hlt⟩ p g a b

/-- The accumulator's block index: the core, then zeros. -/
private theorem idx_facts2 : ∀ t : Fin cfg0.N, win0_2.index t (0 : Fin 4) = t.val / 4 ∧ win0_2.index t (1 : Fin 4) = 0
    ∧ win0_2.index t (2 : Fin 4) = 0 ∧ win0_2.index t (3 : Fin 4) = 0 :=
  (by decide +kernel : ∀ t : Fin grid0.N, win0_2.index t (0 : Fin 4) = t.val / 4 ∧ win0_2.index t (1 : Fin 4) = 0
    ∧ win0_2.index t (2 : Fin 4) = 0 ∧ win0_2.index t (3 : Fin 4) = 0)

/-- The same at any entry of the accumulator. -/
private theorem acc_final' (t : Fin cfg0.N) (h3 : t.val % 4 = 3) (hq : t.val / 4 < 2) (y : S1x4x128x128.Idx) :
    (outsAt0 V c t.val t.isLt).2 y = partFF (xin V c) (ix4 (⟨t.val / 4, hq⟩ : Fin 2) (y 1) (y 2) (y 3)) :=
  (congrArg (outsAt0 V c t.val t.isLt).2 (eq_ix4 y)).trans (acc_final V c t h3 hq (y 0) (y 1) (y 2) (y 3))

/-- The accumulator's block of an array read through its window, and the block a write-back takes of the accumulator,
    at an entry. -/
private theorem read_blk_apply (G : FVec Ideal TPartFF .f32) (t : Fin cfg0.N) (j : ((cfg0.win 2).xblock (grid0.coords t)).Idx) :
    ((cfg0.win 2).blk t).view.read (Elt Ideal) G j = G (((cfg0.win 2).blk t).view.emb j) := rfl

private theorem cut_apply (R : Vec Ideal S1x4x128x128 .f32) (t : Fin cfg0.N) (j : ((cfg0.win 2).xblock (grid0.coords t)).Idx) :
    (cfg0.win 2).cut (grid0.coords t) R j = R ((cfg0.win 2).xinj (grid0.coords t) j) := rfl

/-- What a core's last point writes back is the core's block of the partial second moments. -/
private theorem flushed_eq (t : Fin cfg0.N) (hf : (cfg0.win 2).flush t = true) :
    (dat0 V c).flushed 2 t = ((cfg0.win 2).blk t).view.read (Elt Ideal) (partFF (xin V c)) := by
  have h3 : t.val % 4 = 3 := (flush0_2 t).mp hf
  have hq : t.val / 4 < 2 := by have h1 : t.val < 8 := hN ▸ t.isLt; omega
  obtain ⟨e0, e1, e2, e3⟩ := idx_facts2 t
  show (cfg0.win 2).cut (grid0.coords t) ((dat0 V c).after 2 t) = _
  rw [after0_2]
  funext j
  have hj0 : (j 0).val < 1 := (j 0).isLt
  refine (cut_apply _ t j).trans ?_
  refine Eq.trans ?_ (read_blk_apply (partFF (xin V c)) t j).symm
  refine (acc_final' V c t h3 hq _).trans (congrArg (partFF (xin V c)) ?_)
  funext ax
  apply Fin.ext
  match ax with
  | ⟨0, _⟩ => show t.val / 4 = win0_2.index t (0 : Fin 4) * 1 + 1 * (j 0).val; rw [e0]; omega
  | ⟨1, _⟩ => show (j 1).val = win0_2.index t (1 : Fin 4) * 4 + 1 * (j 1).val; rw [e1]; omega
  | ⟨2, _⟩ => show (j 2).val = win0_2.index t (2 : Fin 4) * 128 + 1 * (j 2).val; rw [e2]; omega
  | ⟨3, _⟩ => show (j 3).val = win0_2.index t (3 : Fin 4) * 128 + 1 * (j 3).val; rw [e3]; omega

end Run3

/-- The partial second moments after the first kernel, from the sample matrix it is entered with. -/
theorem part_ff (V : (c : Dev nD) → (b : Ref sig .tc) → Buf (Elt Ideal) ((c : Thread nD τ).loc b)) (c : Dev nD) :
    ((dat0 V c).arrAt 2 cfg0.N : FVec Ideal TPartFF .f32) = partFF (V c main_v0) := by
  refine (dat0 V c).arrAt_eq_of_cover 2 (partFF (V c main_v0)) (flushed_eq V c) fun i => ?_
  have h0 : (i 0).val < 2 := (i 0).isLt
  have h1 : (i 1).val < 4 := (i 1).isLt
  have h2 : (i 2).val < 128 := (i 2).isLt
  have h3 : (i 3).val < 128 := (i 3).isLt
  let t : Fin cfg0.N := ⟨4 * (i 0).val + 3, by have hN' : cfg0.N = 8 := hN; omega⟩
  have ht : t.val = 4 * (i 0).val + 3 := rfl
  obtain ⟨e0, e1, e2, e3⟩ := idx_facts2 t
  refine ⟨t, (flush0_2 t).mpr (by omega), ?_⟩
  show i ∈ ((View.whole main_v3_1).slice (win0_2.rect t)).set
  rw [View.set_slice_whole, Rect.mem_set_unit]
  intro ax
  match ax with
  | ⟨0, _⟩ => show win0_2.index t (0 : Fin 4) * 1 ≤ (i 0).val ∧ (i 0).val < win0_2.index t (0 : Fin 4) * 1 + 1; rw [e0]; omega
  | ⟨1, _⟩ => show win0_2.index t (1 : Fin 4) * 4 ≤ (i 1).val ∧ (i 1).val < win0_2.index t (1 : Fin 4) * 4 + 4; rw [e1]; omega
  | ⟨2, _⟩ => show win0_2.index t (2 : Fin 4) * 128 ≤ (i 2).val ∧ (i 2).val < win0_2.index t (2 : Fin 4) * 128 + 128; rw [e2]; omega
  | ⟨3, _⟩ => show win0_2.index t (3 : Fin 4) * 128 ≤ (i 3).val ∧ (i 3).val < win0_2.index t (3 : Fin 4) * 128 + 128; rw [e3]; omega

end Cert.Whitening.KReg0FF

end
-- ==== Proof.KReg0.lean ====
/-
  After the first kernel the host adds the two cores' partial totals: the totals over all 73728 samples
  (sample 36864·c + n of core c's half is sample number 36864·c + n of the whole).
-/
import proofs.«401155_j5385888989602_3_alg».proof.Proof.Gen.KernelIdeal.Frame
import proofs.«401155_j5385888989602_3_alg».proof.Proof.Part
import proofs.«401155_j5385888989602_3_alg».proof.Proof.KReg0F
import proofs.«401155_j5385888989602_3_alg».proof.Proof.KReg0FF
import Idealize.ShloMosaic.Lib.StableHlo.Run
import Mathlib.Algebra.BigOperators.Fin

noncomputable section

open scoped BigOperators

namespace Cert.Whitening.KReg0

open Idealize.ShloMosaic Idealize.ShloMosaic.TcCoe Idealize.ShloMosaic.ValueIdx Idealize.SL.Sem
open Cert.KernelIdeal Cert.KernelIdeal.Gen

/-- Summing over the two halves, each over its 36864 samples, is summing over all 73728 samples:
    (c, n) ↦ 36864·c + n is a bijection from pairs onto the sample numbers. -/
private theorem sum_half {M : Type} [AddCommMonoid M] (f : Fin 73728 → M) :
    ∑ c : Fin 2, ∑ n : Fin 36864, f (half c n) = ∑ n : Fin 73728, f n := by
  rw [← Fintype.sum_prod_type']
  exact Fintype.sum_equiv (finProdFinEquiv (m := 2) (n := 36864)) _ _
    (fun x => congrArg f (Fin.ext (by simp [half, finProdFinEquiv]; omega)))

variable (m : (ℓ : Loc nD τ sig) → Buf (Elt Ideal) ℓ) (ρ : Dev nD → PrngReg)

/-- The column totals the second kernel is handed. -/
theorem tot_f (c : Dev nD) : (V3 m ρ c main_v4 : FVec Ideal TRow .f32) = totF (V1 m ρ c main_v0) := by
  -- the host's sum over the core axis of the partial totals, started from zero
  show StableHlo.after hostOps1 (W2 m ρ c) (Proc.devRef .tc main_v4) = _
  after_results
  have h1 : W2 m ρ c (Proc.devRef .tc main_v3_0) = (partF (V1 m ρ c main_v0) : FVec Ideal TPartF .f32) :=
    (W2_arr m ρ c 1).trans (KReg0F.part_f (V1 m ρ) c)
  rw [h1]
  funext j
  simp only [Host.reduceAdd]
  rw [Ideal.hostReduceAdd_def,
    Ideal.hostReduceAdd_single reducesTo_S2x1x512_S1x512_d0 (by decide : S2x1x512.Reduces [0] S1x512),
    constant_apply, Ideal.ofBits_zero_f32, zero_add]
  -- ∑ over the two cores of ∑ over a half = ∑ over all samples
  simp only [partF, totF]
  rw [← sum_half]
  rfl

/-- The raw second moments the second kernel is handed. -/
theorem tot_ff (c : Dev nD) : (V3 m ρ c main_v5 : FVec Ideal TG .f32) = totFF (V1 m ρ c main_v0) := by
  -- the host's sum over the core axis of the partial second moments, started from zero
  show StableHlo.after hostOps1 (W2 m ρ c) (Proc.devRef .tc main_v5) = _
  after_results
  have h1 : W2 m ρ c (Proc.devRef .tc main_v3_1) = (partFF (V1 m ρ c main_v0) : FVec Ideal TPartFF .f32) :=
    (W2_arr m ρ c 2).trans (KReg0FF.part_ff (V1 m ρ) c)
  rw [h1]
  funext j
  simp only [Host.reduceAdd]
  rw [Ideal.hostReduceAdd_def,
    Ideal.hostReduceAdd_single reducesTo_S2x4x128x128_S4x128x128_d0 (by decide : S2x4x128x128.Reduces [0] S4x128x128),
    constant_apply, Ideal.ofBits_zero_f32, zero_add]
  -- ∑ over the two cores of ∑ over a half = ∑ over all samples
  simp only [partFF, totFF]
  rw [← sum_half]
  rfl

end Cert.Whitening.KReg0

end
-- ==== Proof.KReg1.lean ====
/-
  The second kernel's two results as arrays: the means, and the whitening matrices as the function `whK` of the
  trace and the normalised covariance the kernel forms from the totals it is handed.

  The second kernel runs at one grid point and each of its four windows is its whole array. So the block an input
  window hands the body is the input array itself, the block an output window writes back is written over the whole
  output array, and every index of an output array lies in that one block: the array after the run is the body's
  result on the two input arrays.
-/
import proofs.«401155_j5385888989602_3_alg».proof.Proof.Gen.KernelIdeal.Frame
import proofs.«401155_j5385888989602_3_alg».proof.Proof.Spec
import proofs.«401155_j5385888989602_3_alg».proof.Proof.WhK
import Idealize.ShloMosaic.Lib.Pipeline.Value

noncomputable section

open scoped BigOperators

namespace Cert.Whitening.KReg1

open Idealize.ShloMosaic Idealize.ShloMosaic.TcCoe Idealize.ShloMosaic.ValueIdx Idealize.SL.Sem
open Cert.KernelIdeal Cert.KernelIdeal.Gen

/-! ## At any contents of the buffers when the second kernel is entered -/

section Generic

variable {F : FTy → Type} [FloatOps F]
variable (V : (c : Dev nD) → (b : Ref sig .tc) → Buf (Elt F) ((c : Thread nD τ).loc b))

/-- The zero offsets of a rank-2 rectangle. -/
private theorem hz2 : (![0, 0] : Fin 2 → Nat) = fun _ => 0 := funext fun a => by fin_cases a <;> rfl
/-- The zero offsets of a rank-3 rectangle. -/
private theorem hz3 : (![0, 0, 0] : Fin 3 → Nat) = fun _ => 0 := funext fun a => by fin_cases a <;> rfl

/-- What the body leaves in the mean window: its one store covers the whole block, and its one load reads the whole
    first input block, so the block is the payload of the first input block. -/
private theorem out1_2_eq (x0 : Vec F S1x512 .f32) (x1 : Vec F S4x128x128 .f32) : out1_2 x0 x1 = k1_pay2 x0 := by
  unfold out1_2
  rw [View.canon_unit_zero hz2]
  simp only [View.ld_unit_zero (S := S1x512) hz2]

/-- What the body leaves in the matrix window: one store over the whole block, whole-block loads; the stored term is
    `whK` of the trace `k1_pay5` and the normalised covariance `k1_pay6` of the two input blocks, the iteration's
    intermediate values being named by `whK`'s definitions. -/
private theorem out1_3_eq (x0 : Vec F S1x512 .f32) (x1 : Vec F S4x128x128 .f32) :
    out1_3 x0 x1 = whK (k1_pay5 x0 x1) (k1_pay6 x0 x1) := by
  unfold out1_3
  rw [View.canon_unit_zero hz3]
  simp only [View.ld_unit_zero (S := S1x512) hz2, View.ld_unit_zero (S := S4x128x128) hz3]
  unfold whK iter2 lead2 iter1 lead1 resid1 lead1'
  rfl

/-- At the one grid point every window's block index is zero on every axis. -/
private theorem idx1_0 : win1_0.index t1_0 (0 : Fin 2) = 0 ∧ win1_0.index t1_0 (1 : Fin 2) = 0 := by decide
private theorem idx1_1 : win1_1.index t1_0 (0 : Fin 3) = 0 ∧ win1_1.index t1_0 (1 : Fin 3) = 0
    ∧ win1_1.index t1_0 (2 : Fin 3) = 0 := by decide
private theorem idx1_2 : win1_2.index t1_0 (0 : Fin 2) = 0 ∧ win1_2.index t1_0 (1 : Fin 2) = 0 := by decide
private theorem idx1_3 : win1_3.index t1_0 (0 : Fin 3) = 0 ∧ win1_3.index t1_0 (1 : Fin 3) = 0
    ∧ win1_3.index t1_0 (2 : Fin 3) = 0 := by decide

/-- The first input window's block is the whole first input array: the block starts at offset zero on each axis and
    has the array's extents, so a block index is sent to itself. -/
private theorem iblk1_0 (c : Dev nD) (t : Fin cfg1.N) : iblk1 V c 0 t = V c main_v4 := by
  obtain rfl := fin_N1 t
  funext j
  show V c main_v4 (((cfg1.win 0).blk t1_0).view.emb j) = V c main_v4 j
  refine congrArg (V c main_v4) ?_
  obtain ⟨e0, e1⟩ := idx1_0
  funext a; apply Fin.ext
  match a with
  | ⟨0, _⟩ => show win1_0.index t1_0 (0 : Fin 2) * 1 + 1 * (j 0).val = (j 0).val; omega
  | ⟨1, _⟩ => show win1_0.index t1_0 (1 : Fin 2) * 512 + 1 * (j 1).val = (j 1).val; omega

/-- The second input window's block is the whole second input array. -/
private theorem iblk1_1 (c : Dev nD) (t : Fin cfg1.N) : iblk1 V c 1 t = V c main_v5 := by
  obtain rfl := fin_N1 t
  funext j
  show V c main_v5 (((cfg1.win 1).blk t1_0).view.emb j) = V c main_v5 j
  refine congrArg (V c main_v5) ?_
  obtain ⟨e0, e1, e2⟩ := idx1_1
  funext a; apply Fin.ext
  match a with
  | ⟨0, _⟩ => show win1_1.index t1_0 (0 : Fin 3) * 4 + 1 * (j 0).val = (j 0).val; omega
  | ⟨1, _⟩ => show win1_1.index t1_0 (1 : Fin 3) * 128 + 1 * (j 1).val = (j 1).val; omega
  | ⟨2, _⟩ => show win1_1.index t1_0 (2 : Fin 3) * 128 + 1 * (j 2).val = (j 2).val; omega

/-- An array of the mean window's shape read through that window's one block is the array itself. -/
private theorem read1_2 (t : Fin cfg1.N) (G : Vec F S1x512 .f32) :
    ((cfg1.win 2).blk t).view.read (Elt F) G = G := by
  obtain rfl := fin_N1 t
  funext j
  show G (((cfg1.win 2).blk t1_0).view.emb j) = G j
  refine congrArg G ?_
  obtain ⟨e0, e1⟩ := idx1_2
  funext a; apply Fin.ext
  match a with
  | ⟨0, _⟩ => show win1_2.index t1_0 (0 : Fin 2) * 1 + 1 * (j 0).val = (j 0).val; omega
  | ⟨1, _⟩ => show win1_2.index t1_0 (1 : Fin 2) * 512 + 1 * (j 1).val = (j 1).val; omega

/-- An array of the matrix window's shape read through that window's one block is the array itself. -/
private theorem read1_3 (t : Fin cfg1.N) (G : Vec F S4x128x128 .f32) :
    ((cfg1.win 3).blk t).view.read (Elt F) G = G := by
  obtain rfl := fin_N1 t
  funext j
  show G (((cfg1.win 3).blk t1_0).view.emb j) = G j
  refine congrArg G ?_
  obtain ⟨e0, e1, e2⟩ := idx1_3
  funext a; apply Fin.ext
  match a with
  | ⟨0, _⟩ => show win1_3.index t1_0 (0 : Fin 3) * 4 + 1 * (j 0).val = (j 0).val; omega
  | ⟨1, _⟩ => show win1_3.index t1_0 (1 : Fin 3) * 128 + 1 * (j 1).val = (j 1).val; omega
  | ⟨2, _⟩ => show win1_3.index t1_0 (2 : Fin 3) * 128 + 1 * (j 2).val = (j 2).val; omega

/-- What the grid point writes back to the mean array: the body's result on the two whole input arrays (the window is
    not cut at the array's end, so the whole block is written back). -/
private theorem flushed1_2 (c : Dev nD) (t : Fin cfg1.N) :
    (dat1 V c).flushed 2 t = ((cfg1.win 2).blk t).view.read (Elt F) (out1_2 (V c main_v4) (V c main_v5)) := by
  show (cfg1.win 2).cut (grid1.coords t) ((dat1 V c).after 2 t) = _
  rw [after1_2, iblk1_0, iblk1_1, read1_2]
  rfl

/-- What the grid point writes back to the matrix array, likewise. -/
private theorem flushed1_3 (c : Dev nD) (t : Fin cfg1.N) :
    (dat1 V c).flushed 3 t = ((cfg1.win 3).blk t).view.read (Elt F) (out1_3 (V c main_v4) (V c main_v5)) := by
  show (cfg1.win 3).cut (grid1.coords t) ((dat1 V c).after 3 t) = _
  rw [after1_3, iblk1_0, iblk1_1, read1_3]
  rfl

/-- Every index of the mean array is in the one block of its window. -/
private theorem mem_blk1_2 (t : Fin cfg1.N) (i : S1x512.Idx) : i ∈ ((cfg1.win 2).blk t).view.set := by
  obtain rfl := fin_N1 t
  show i ∈ ((View.whole main_v6_0).slice (win1_2.rect t1_0)).set
  rw [View.set_slice_whole, Rect.mem_set_unit]
  obtain ⟨e0, e1⟩ := idx1_2
  intro a
  match a with
  | ⟨0, _⟩ =>
    show win1_2.index t1_0 (0 : Fin 2) * 1 ≤ (i 0).val ∧ (i 0).val < win1_2.index t1_0 (0 : Fin 2) * 1 + 1
    have hi : (i 0).val < 1 := (i 0).isLt; omega
  | ⟨1, _⟩ =>
    show win1_2.index t1_0 (1 : Fin 2) * 512 ≤ (i 1).val ∧ (i 1).val < win1_2.index t1_0 (1 : Fin 2) * 512 + 512
    have hi : (i 1).val < 512 := (i 1).isLt; omega

/-- Every index of the matrix array is in the one block of its window. -/
private theorem mem_blk1_3 (t : Fin cfg1.N) (i : S4x128x128.Idx) : i ∈ ((cfg1.win 3).blk t).view.set := by
  obtain rfl := fin_N1 t
  show i ∈ ((View.whole main_v6_1).slice (win1_3.rect t1_0)).set
  rw [View.set_slice_whole, Rect.mem_set_unit]
  obtain ⟨e0, e1, e2⟩ := idx1_3
  intro a
  match a with
  | ⟨0, _⟩ =>
    show win1_3.index t1_0 (0 : Fin 3) * 4 ≤ (i 0).val ∧ (i 0).val < win1_3.index t1_0 (0 : Fin 3) * 4 + 4
    have hi : (i 0).val < 4 := (i 0).isLt; omega
  | ⟨1, _⟩ =>
    show win1_3.index t1_0 (1 : Fin 3) * 128 ≤ (i 1).val ∧ (i 1).val < win1_3.index t1_0 (1 : Fin 3) * 128 + 128
    have hi : (i 1).val < 128 := (i 1).isLt; omega
  | ⟨2, _⟩ =>
    show win1_3.index t1_0 (2 : Fin 3) * 128 ≤ (i 2).val ∧ (i 2).val < win1_3.index t1_0 (2 : Fin 3) * 128 + 128
    have hi : (i 2).val < 128 := (i 2).isLt; omega

/-- The mean array after the second kernel, at any entry contents: the mean payload of the first input array. -/
theorem mean_arr_of (c : Dev nD) : (dat1 V c).arrAt 2 cfg1.N = k1_pay2 (V c main_v4) :=
  ((dat1 V c).arrAt_eq_of_cover 2 (out1_2 (V c main_v4) (V c main_v5)) (fun t _ => flushed1_2 V c t)
    (fun i => ⟨t1_0, flush1_2 t1_0, mem_blk1_2 t1_0 i⟩)).trans (out1_2_eq _ _)

/-- The matrix array after the second kernel, at any entry contents: `whK` of the trace and the normalised covariance
    of the two input arrays. -/
theorem whiten_arr_of (c : Dev nD) : (dat1 V c).arrAt 3 cfg1.N
    = whK (k1_pay5 (V c main_v4) (V c main_v5)) (k1_pay6 (V c main_v4) (V c main_v5)) :=
  ((dat1 V c).arrAt_eq_of_cover 3 (out1_3 (V c main_v4) (V c main_v5)) (fun t _ => flushed1_3 V c t)
    (fun i => ⟨t1_0, flush1_3 t1_0, mem_blk1_3 t1_0 i⟩)).trans (out1_3_eq _ _)

end Generic

/-! ## In the run -/

variable (m : (ℓ : Loc nD τ sig) → Buf (Elt Ideal) ℓ) (ρ : Dev nD → PrngReg)

/-- The mean array after the second kernel. -/
theorem mean_arr (c : Dev nD) : (V4 m ρ c main_v6_0 : FVec Ideal TRow .f32) = k1_pay2 (F := Ideal) (V3 m ρ c main_v4) := by
  show W4 m ρ c (Proc.devRef .tc (Pipeline.arrRef spec1 2)) = _
  rw [W4_arr]
  exact mean_arr_of (V3 m ρ) c

/-- The whitening matrices after the second kernel. -/
theorem whiten_arr (c : Dev nD) : (V4 m ρ c main_v6_1 : FVec Ideal TG .f32)
    = whK (k1_pay5 (F := Ideal) (V3 m ρ c main_v4) (V3 m ρ c main_v5)) (k1_pay6 (F := Ideal) (V3 m ρ c main_v4) (V3 m ρ c main_v5)) := by
  show W4 m ρ c (Proc.devRef .tc (Pipeline.arrRef spec1 3)) = _
  rw [W4_arr]
  exact whiten_arr_of (V3 m ρ) c

end Cert.Whitening.KReg1

end
-- ==== Proof.LibReal.lean ====
/-
  Real numbers inside the extended reals: a finite sum of reals is real, the quotient of reals by a non-zero real is
  their real quotient, the square root of a non-negative real is its real square root.
-/
import Idealize.ShloMosaic.PureOps.Ideal
import Idealize.ShloMosaic.PureOps.Ideal.Laws

noncomputable section

open scoped BigOperators

namespace Cert.LibReal

open Idealize.ShloMosaic

/-- A finite sum of real numbers, taken in the extended reals, is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The quotient of two reals, the divisor not zero. -/
theorem div_coe_coe (a b : ℝ) (hb : b ≠ 0) : Ideal.div (a : EReal) (b : EReal) = ((a / b : ℝ) : EReal) := by
  rw [Ideal.div_coe hb, ← EReal.coe_mul]; congr 1; field_simp

/-- The square root of a non-negative real. -/
theorem sqrt_coe_nonneg (a : ℝ) (ha : 0 ≤ a) : Ideal.sqrt (a : EReal) = ((Real.sqrt a : ℝ) : EReal) := by
  rw [Ideal.sqrt_coe, if_neg (not_lt.mpr ha)]

/-- A real minus itself. -/
theorem coe_sub_self (a : ℝ) : (a : EReal) - (a : EReal) = 0 := by
  rw [← EReal.coe_sub, sub_self, EReal.coe_zero]

end Cert.LibReal

end
-- ==== Proof.KBody2.lean ====
/-
  One row tile of the third kernel: its four 128-channel column pieces are, entry by entry, the centred row's members
  of the channel's group against the group's whitening matrix row, scaled and shifted. The product is taken in three
  parts (leading by leading, leading by residual, residual by leading); on real operands the residual parts are
  zero, so only the first part remains.
-/
import proofs.«401155_j5385888989602_3_alg».proof.Proof.Gen.KernelIdeal.Frame
import proofs.«401155_j5385888989602_3_alg».proof.Proof.Part
import proofs.«401155_j5385888989602_3_alg».proof.Proof.LibReal
import Idealize.ShloMosaic.Lib.Pipeline.Value

noncomputable section

open scoped BigOperators

namespace Cert.Whitening.KBody2

open Idealize.ShloMosaic Idealize.ShloMosaic.TcCoe Idealize.ShloMosaic.ValueIdx Idealize.SL.Sem
open Cert.KernelIdeal Cert.KernelIdeal.Gen

/-- The product against the second operand's rows, read at an entry: the sum over the shared coordinate. -/
private theorem mm_apply {φ₁ φ₂ : FTy} (L : FVec Ideal S4608x128 φ₁) (R : FVec Ideal S128x128 φ₂) (r : Fin 4608) (a : Fin 128) :
    matmul dot_S4608x128_S128x128_S4608x128_1_1_0_0_n_n none L R (constant S4608x128 .f32 0x00000000#32) (ix2 r a)
      = ∑ k : Fin 128, L (ix2 r k) * R (ix2 a k) := by
  show FloatOps.matmul dot_S4608x128_S128x128_S4608x128_1_1_0_0_n_n none L R (constant S4608x128 .f32 0x00000000#32) (ix2 r a) = _
  rw [Ideal.matmul_constant_zero_apply,
    ← Equiv.sum_comp (contrEquiv1 dot_S4608x128_S128x128_S4608x128_1_1_0_0_n_n 128 rfl rfl).symm]
  refine Finset.sum_congr rfl fun k _ => ?_
  have c2 := contrEquiv1_symm_val dot_S4608x128_S128x128_S4608x128_1_1_0_0_n_n 128 rfl rfl k
  have l2 : dot_S4608x128_S128x128_S4608x128_1_1_0_0_n_n.lhsIdx (ix2 r a) ((contrEquiv1 _ 128 rfl rfl).symm k) = ix2 r k := by
    funext ax; apply Fin.ext
    match ax with
    | ⟨0, _⟩ => rfl
    | ⟨1, _⟩ => exact (DotDims.lhsIdx_val_of_single _ rfl _ _).trans c2
  have r2 : dot_S4608x128_S128x128_S4608x128_1_1_0_0_n_n.rhsIdx (ix2 r a) ((contrEquiv1 _ 128 rfl rfl).symm k) = ix2 a k := by
    funext ax; apply Fin.ext
    match ax with
    | ⟨0, _⟩ => rfl
    | ⟨1, _⟩ => exact (DotDims.rhsIdx_val_of_single _ rfl _ _).trans c2
  rw [l2, r2]

private theorem z2 : (![0, 0] : Fin 2 → Nat) = fun _ => 0 := by
  funext a; match a with | ⟨0, _⟩ => rfl | ⟨1, _⟩ => rfl

private theorem grp_ch (g : Fin 4) (a : Fin 128) : grp (ch g a) = g :=
  Fin.ext (by have := g.isLt; have := a.isLt; simp only [ch, grp]; omega)

private theorem mem_ch (g : Fin 4) (a : Fin 128) : mem (ch g a) = a :=
  Fin.ext (by have := g.isLt; have := a.isLt; simp only [ch, mem]; omega)

/-- The centred tile: the row's entry minus the mean row's entry of the same channel. -/
private theorem xc_apply (x0 : FVec Ideal TTile .f32) (x1 : FVec Ideal TRow .f32) (r : Fin 4608) (c : Fin 512) :
    k2_pay3 (F := Ideal) (View.ld x0 r2_0) (View.ld x1 r2_1) (ix2 r c) = x0 (ix2 r c) - x1 (ix2 0 c) := by
  unfold k2_pay3
  rw [subf_apply, shapeCast_self, shapeCast_self, View.ld_unit_zero z2, View.ld_unit_zero z2]
  congr 1
  exact broadcastTo_apply x1 _ (ix2 r c) (ix2 0 c) (by
    intro a; match a with | ⟨0, _⟩ => rfl | ⟨1, _⟩ => rfl)

/-- A column piece of 128 channels of a tile, read at an entry. -/
private theorem slice_apply {α : Type} (v : S4608x512.Idx → α) (o : Nat) (h : S4608x512.Slices ![0, o] S4608x128)
    (r : Fin 4608) (a : Fin 128) (c : Fin 512) (hc : c.val = o + a.val) :
    extractStridedSlice S4608x128 ![0, o] v h (ix2 r a) = v (ix2 r c) :=
  extractStridedSlice_apply ![0, o] v h (ix2 r a) (ix2 r c) (by
    intro ax; match ax with
    | ⟨0, _⟩ => show r.val = 0 + r.val; omega
    | ⟨1, _⟩ => exact hc)

/-- One group's matrix out of the stack of four, read at an entry. -/
private theorem slab_apply (x2 : FVec Ideal TG .f32) (g : Fin 4) (gv : Nat) (hg : g.val = gv)
    (inb : ∀ a, (![gv, 0, 0] : Fin 3 → Nat) a + S1x128x128.size a ≤ S4x128x128.size a) (a k : Fin 128) :
    shapeCast S128x128 (View.ld (Val := Elt Ideal) (e' := .f32) x2 (Rect.unit (s := S4x128x128) ![gv, 0, 0] S1x128x128.size inb)) shapeCasts_S1x128x128_S128x128 (ix2 a k)
      = x2 (ix3 g a k) := by
  rw [shapeCast_dropUnit_apply]
  show x2 _ = x2 _
  congr 1
  funext ax; apply Fin.ext
  match ax with
  | ⟨0, _⟩ => show gv + 1 * 0 = g.val; omega
  | ⟨1, _⟩ => show 0 + 1 * a.val = a.val; omega
  | ⟨2, _⟩ => show 0 + 1 * k.val = k.val; omega

/-- A group's piece of a row of channels, laid along every row of the tile, read at an entry. -/
private theorem rowpiece_apply (x3 : FVec Ideal TRow .f32) (o : Nat) (inb : ∀ a, (![0, o] : Fin 2 → Nat) a + S1x128.size a ≤ S1x512.size a)
    (r : Fin 4608) (a : Fin 128) (c : Fin 512) (hc : c.val = o + a.val) :
    broadcastTo S4608x128 (shapeCast S1x128 (View.ld (Val := Elt Ideal) (e' := .f32) x3 (Rect.unit (s := S1x512) ![0, o] S1x128.size inb)) shapeCasts_S1x128_S1x128)
      broadcasts_S1x128_S4608x128 (ix2 r a) = x3 (ix2 0 c) := by
  refine (broadcastTo_apply _ _ (ix2 r a) (ix2 0 a) (by
    intro ax; match ax with | ⟨0, _⟩ => rfl | ⟨1, _⟩ => rfl)).trans ?_
  refine (congrFun (shapeCast_self (s := S1x128) _ shapeCasts_S1x128_S1x128) (ix2 0 a)).trans ?_
  show x3 _ = x3 _
  congr 1
  funext ax; apply Fin.ext
  match ax with
  | ⟨0, _⟩ => rfl
  | ⟨1, _⟩ => show o + 1 * a.val = c.val; omega

/-- The product taken in three parts; on real operands the two residual parts vanish. -/
private theorem three_apply (Fg : FVec Ideal S4608x128 .f32) (Wg : FVec Ideal S128x128 .f32)
    (hF : ∀ r k, ∃ q : ℝ, Fg (ix2 r k) = (q : EReal)) (hW : ∀ a k, ∃ q : ℝ, Wg (ix2 a k) = (q : EReal))
    (r : Fin 4608) (a : Fin 128) :
    addf (addf (matmul dot_S4608x128_S128x128_S4608x128_1_1_0_0_n_n none (truncf .bf16 Fg bitsLt_bf16_f32) (truncf .bf16 Wg bitsLt_bf16_f32) (constant S4608x128 .f32 0x00000000#32))
               (matmul dot_S4608x128_S128x128_S4608x128_1_1_0_0_n_n none (truncf .bf16 Fg bitsLt_bf16_f32) (truncf .bf16 (subf Wg Wg) bitsLt_bf16_f32) (constant S4608x128 .f32 0x00000000#32)))
         (matmul dot_S4608x128_S128x128_S4608x128_1_1_0_0_n_n none (truncf .bf16 (subf Fg Fg) bitsLt_bf16_f32) (truncf .bf16 Wg bitsLt_bf16_f32) (constant S4608x128 .f32 0x00000000#32))
         (ix2 r a)
      = ∑ k : Fin 128, Fg (ix2 r k) * Wg (ix2 a k) := by
  rw [addf_apply, addf_apply, mm_apply, mm_apply, mm_apply]
  have e2 : ∑ k : Fin 128, (truncf .bf16 Fg bitsLt_bf16_f32 : FVec Ideal S4608x128 .bf16) (ix2 r k) * (truncf .bf16 (subf Wg Wg) bitsLt_bf16_f32 : FVec Ideal S128x128 .bf16) (ix2 a k) = 0 := by
    refine Finset.sum_eq_zero fun k _ => ?_
    rw [truncf_apply, truncf_apply, subf_apply]
    obtain ⟨q, hq⟩ := hW a k
    rw [hq, Cert.LibReal.coe_sub_self, mul_zero]
  have e3 : ∑ k : Fin 128, (truncf .bf16 (subf Fg Fg) bitsLt_bf16_f32 : FVec Ideal S4608x128 .bf16) (ix2 r k) * (truncf .bf16 Wg bitsLt_bf16_f32 : FVec Ideal S128x128 .bf16) (ix2 a k) = 0 := by
    refine Finset.sum_eq_zero fun k _ => ?_
    rw [truncf_apply, truncf_apply, subf_apply]
    obtain ⟨q, hq⟩ := hF r k
    rw [hq, Cert.LibReal.coe_sub_self, zero_mul]
  rw [e2, e3, add_zero, add_zero]
  rfl

/-- One group's piece of the tile's output, read at an entry: the centred row's members of the group against the
    group's matrix row, times the channel's scale, plus its shift. -/
private theorem combine_apply (x0 : FVec Ideal TTile .f32) (x1 : FVec Ideal TRow .f32) (x2 : FVec Ideal TG .f32) (x3 x4 : FVec Ideal TRow .f32)
    (h0 : Finite (S := TTile) x0) (h1 : Finite (S := TRow) x1) (h2 : Finite (S := TG) x2)
    (g : Fin 4) (gv o : Nat) (hg : g.val = gv) (ho : o = 128 * gv)
    (hs : S4608x512.Slices ![0, o] S4608x128)
    (inbW : ∀ a, (![gv, 0, 0] : Fin 3 → Nat) a + S1x128x128.size a ≤ S4x128x128.size a)
    (inbR : ∀ a, (![0, o] : Fin 2 → Nat) a + S1x128.size a ≤ S1x512.size a) (r : Fin 4608) (a : Fin 128) :
    addf
      (mulf
        (addf
          (addf
            (matmul dot_S4608x128_S128x128_S4608x128_1_1_0_0_n_n none
              (truncf FTy.bf16
                (extractStridedSlice S4608x128 ![0, o] (k2_pay3 (F := Ideal) (View.ld x0 r2_0) (View.ld x1 r2_1)) hs)
                bitsLt_bf16_f32)
              (truncf FTy.bf16 (shapeCast S128x128 (View.ld (Val := Elt Ideal) (e' := .f32) x2 (Rect.unit (s := S4x128x128) ![gv, 0, 0] S1x128x128.size inbW)) shapeCasts_S1x128x128_S128x128) bitsLt_bf16_f32)
              (constant S4608x128 FTy.f32 0x00000000#32))
            (matmul dot_S4608x128_S128x128_S4608x128_1_1_0_0_n_n none
              (truncf FTy.bf16
                (extractStridedSlice S4608x128 ![0, o] (k2_pay3 (F := Ideal) (View.ld x0 r2_0) (View.ld x1 r2_1)) hs)
                bitsLt_bf16_f32)
              (truncf FTy.bf16
                (subf (shapeCast S128x128 (View.ld (Val := Elt Ideal) (e' := .f32) x2 (Rect.unit (s := S4x128x128) ![gv, 0, 0] S1x128x128.size inbW)) shapeCasts_S1x128x128_S128x128)
                  (shapeCast S128x128 (View.ld (Val := Elt Ideal) (e' := .f32) x2 (Rect.unit (s := S4x128x128) ![gv, 0, 0] S1x128x128.size inbW)) shapeCasts_S1x128x128_S128x128))
                bitsLt_bf16_f32)
              (constant S4608x128 FTy.f32 0x00000000#32)))
          (matmul dot_S4608x128_S128x128_S4608x128_1_1_0_0_n_n none
            (truncf FTy.bf16
              (subf
                (extractStridedSlice S4608x128 ![0, o] (k2_pay3 (F := Ideal) (View.ld x0 r2_0) (View.ld x1 r2_1)) hs)
                (extractStridedSlice S4608x128 ![0, o] (k2_pay3 (F := Ideal) (View.ld x0 r2_0) (View.ld x1 r2_1)) hs))
              bitsLt_bf16_f32)
            (truncf FTy.bf16 (shapeCast S128x128 (View.ld (Val := Elt Ideal) (e' := .f32) x2 (Rect.unit (s := S4x128x128) ![gv, 0, 0] S1x128x128.size inbW)) shapeCasts_S1x128x128_S128x128) bitsLt_bf16_f32)
            (constant S4608x128 FTy.f32 0x00000000#32)))
        (broadcastTo S4608x128 (shapeCast S1x128 (View.ld (Val := Elt Ideal) (e' := .f32) x3 (Rect.unit (s := S1x512) ![0, o] S1x128.size inbR)) shapeCasts_S1x128_S1x128)
          broadcasts_S1x128_S4608x128))
      (broadcastTo S4608x128 (shapeCast S1x128 (View.ld (Val := Elt Ideal) (e' := .f32) x4 (Rect.unit (s := S1x512) ![0, o] S1x128.size inbR)) shapeCasts_S1x128_S1x128) broadcasts_S1x128_S4608x128)
      (ix2 r a) =
    (∑ k : Fin 128, (x0 (ix2 r (ch g k)) - x1 (ix2 0 (ch g k))) * x2 (ix3 g a k)) * x3 (ix2 0 (ch g a)) + x4 (ix2 0 (ch g a)) := by
  have hc : ∀ b : Fin 128, (ch g b).val = o + b.val := fun b => by
    show 128 * g.val + b.val = o + b.val
    rw [hg, ho]
  have eF : ∀ (r : Fin 4608) (k : Fin 128),
      extractStridedSlice S4608x128 ![0, o] (k2_pay3 (F := Ideal) (View.ld x0 r2_0) (View.ld x1 r2_1)) hs (ix2 r k)
        = x0 (ix2 r (ch g k)) - x1 (ix2 0 (ch g k)) := fun r k => by
    rw [slice_apply _ o hs r k (ch g k) (hc k), xc_apply]
  have hF : ∀ (r : Fin 4608) (k : Fin 128), ∃ q : ℝ,
      extractStridedSlice S4608x128 ![0, o] (k2_pay3 (F := Ideal) (View.ld x0 r2_0) (View.ld x1 r2_1)) hs (ix2 r k) = (q : EReal) := fun r k => by
    obtain ⟨q0, e0⟩ := h0 (ix2 r (ch g k))
    obtain ⟨q1, e1⟩ := h1 (ix2 0 (ch g k))
    exact ⟨q0 - q1, by rw [eF, e0, e1, EReal.coe_sub]⟩
  have hW : ∀ (a k : Fin 128), ∃ q : ℝ,
      shapeCast S128x128 (View.ld (Val := Elt Ideal) (e' := .f32) x2 (Rect.unit (s := S4x128x128) ![gv, 0, 0] S1x128x128.size inbW)) shapeCasts_S1x128x128_S128x128 (ix2 a k) = (q : EReal) := fun a k => by
    obtain ⟨q, e⟩ := h2 (ix3 g a k)
    exact ⟨q, by rw [slab_apply x2 g gv hg inbW, e]⟩
  rw [addf_apply, mulf_apply, three_apply _ _ hF hW, rowpiece_apply x3 o inbR r a (ch g a) (hc a),
    rowpiece_apply x4 o inbR r a (ch g a) (hc a)]
  refine congrArg (fun s => s * x3 (ix2 0 (ch g a)) + x4 (ix2 0 (ch g a))) (Finset.sum_congr rfl fun k _ => ?_)
  rw [eF, slab_apply x2 g gv hg inbW]

/-- The piece of channel group 3, read at an entry. -/
private theorem piece3_apply (x0 : FVec Ideal TTile .f32) (x1 : FVec Ideal TRow .f32) (x2 : FVec Ideal TG .f32) (x3 x4 : FVec Ideal TRow .f32)
    (h0 : Finite (S := TTile) x0) (h1 : Finite (S := TRow) x1) (h2 : Finite (S := TG) x2) (r : Fin 4608) (a : Fin 128) :
    k2_pay2 (F := Ideal) (k2_pay3 (View.ld x0 r2_0) (View.ld x1 r2_1)) (View.ld x2 r2_11) (View.ld x3 r2_12) (View.ld x4 r2_12) (ix2 r a)
      = (∑ k : Fin 128, (x0 (ix2 r (ch 3 k)) - x1 (ix2 0 (ch 3 k))) * x2 (ix3 3 a k)) * x3 (ix2 0 (ch 3 a)) + x4 (ix2 0 (ch 3 a)) := by
  unfold k2_pay2
  exact combine_apply x0 x1 x2 x3 x4 h0 h1 h2 3 3 384 rfl rfl _ _ _ r a

/-- The piece of channel group 2, read at an entry. -/
private theorem piece2_apply (x0 : FVec Ideal TTile .f32) (x1 : FVec Ideal TRow .f32) (x2 : FVec Ideal TG .f32) (x3 x4 : FVec Ideal TRow .f32)
    (h0 : Finite (S := TTile) x0) (h1 : Finite (S := TRow) x1) (h2 : Finite (S := TG) x2) (r : Fin 4608) (a : Fin 128) :
    k2_pay1 (F := Ideal) (k2_pay11 (k2_pay3 (View.ld x0 r2_0) (View.ld x1 r2_1)) (View.ld x2 r2_8) (View.ld x3 r2_9)) (k2_pay12 (View.ld x4 r2_9)) (ix2 r a)
      = (∑ k : Fin 128, (x0 (ix2 r (ch 2 k)) - x1 (ix2 0 (ch 2 k))) * x2 (ix3 2 a k)) * x3 (ix2 0 (ch 2 a)) + x4 (ix2 0 (ch 2 a)) := by
  unfold k2_pay1 k2_pay11 k2_pay12
  exact combine_apply x0 x1 x2 x3 x4 h0 h1 h2 2 2 256 rfl rfl _ _ _ r a

/-- The piece of channel group 1, read at an entry. -/
private theorem piece1_apply (x0 : FVec Ideal TTile .f32) (x1 : FVec Ideal TRow .f32) (x2 : FVec Ideal TG .f32) (x3 x4 : FVec Ideal TRow .f32)
    (h0 : Finite (S := TTile) x0) (h1 : Finite (S := TRow) x1) (h2 : Finite (S := TG) x2) (r : Fin 4608) (a : Fin 128) :
    k2_pay10 (F := Ideal) (k2_pay6 (View.ld x2 r2_5)) (k2_pay7 (View.ld x0 r2_0) (View.ld x1 r2_1)) (k2_pay8 (View.ld x0 r2_0) (View.ld x1 r2_1)) (k2_pay9 (View.ld x2 r2_5)) (View.ld x3 r2_6) (View.ld x4 r2_6) (ix2 r a)
      = (∑ k : Fin 128, (x0 (ix2 r (ch 1 k)) - x1 (ix2 0 (ch 1 k))) * x2 (ix3 1 a k)) * x3 (ix2 0 (ch 1 a)) + x4 (ix2 0 (ch 1 a)) := by
  unfold k2_pay10 k2_pay9 k2_pay8 k2_pay7 k2_pay6 k2_pay5
  exact combine_apply x0 x1 x2 x3 x4 h0 h1 h2 1 1 128 rfl rfl _ _ _ r a

/-- The piece of channel group 0, read at an entry. -/
private theorem piece0_apply (x0 : FVec Ideal TTile .f32) (x1 : FVec Ideal TRow .f32) (x2 : FVec Ideal TG .f32) (x3 x4 : FVec Ideal TRow .f32)
    (h0 : Finite (S := TTile) x0) (h1 : Finite (S := TRow) x1) (h2 : Finite (S := TG) x2) (r : Fin 4608) (a : Fin 128) :
    k2_pay4 (F := Ideal) (View.ld x0 r2_0) (View.ld x1 r2_1) (View.ld x2 r2_2) (View.ld x3 r2_3) (View.ld x4 r2_3) (ix2 r a)
      = (∑ k : Fin 128, (x0 (ix2 r (ch 0 k)) - x1 (ix2 0 (ch 0 k))) * x2 (ix3 0 a k)) * x3 (ix2 0 (ch 0 a)) + x4 (ix2 0 (ch 0 a)) := by
  unfold k2_pay4
  exact combine_apply x0 x1 x2 x3 x4 h0 h1 h2 0 0 0 rfl rfl _ _ _ r a

/-- The tile's output at a channel given by its group and member. -/
private theorem tileOut_apply (x0 : FVec Ideal TTile .f32) (x1 : FVec Ideal TRow .f32) (x2 : FVec Ideal TG .f32) (x3 x4 : FVec Ideal TRow .f32)
    (r : Fin 4608) (g : Fin 4) (a : Fin 128) :
    tileOut x0 x1 x2 x3 x4 (ix2 r (ch g a))
      = (∑ k : Fin 128, (x0 (ix2 r (ch g k)) - x1 (ix2 0 (ch g k))) * x2 (ix3 g a k)) * x3 (ix2 0 (ch g a)) + x4 (ix2 0 (ch g a)) := by
  show (∑ k : Fin 128, (x0 (ix2 r (ch (grp (ch g a)) k)) - x1 (ix2 0 (ch (grp (ch g a)) k))) * x2 (ix3 (grp (ch g a)) (mem (ch g a)) k))
      * x3 (ix2 0 (ch g a)) + x4 (ix2 0 (ch g a)) = _
  rw [grp_ch, mem_ch]

/-- Where a column piece's entry sits in the tile. -/
private theorem emb_piece (o : Nat) (inb : ∀ a, (![0, o] : Fin 2 → Nat) a + S4608x128.size a ≤ S4608x512.size a)
    (r : Fin 4608) (a : Fin 128) (c : Fin 512) (hc : c.val = o + a.val) :
    (Rect.unit (s := S4608x512) ![0, o] S4608x128.size inb).emb (ix2 r a) = ix2 r c := by
  funext ax; apply Fin.ext
  match ax with
  | ⟨0, _⟩ => show 0 + 1 * r.val = r.val; omega
  | ⟨1, _⟩ => show o + 1 * a.val = c.val; omega

/-- What the third kernel's body leaves in its output block, from the blocks it loads. -/
theorem out2_5_eq (x0 : FVec Ideal TTile .f32) (x1 : FVec Ideal TRow .f32) (x2 : FVec Ideal TG .f32) (x3 x4 : FVec Ideal TRow .f32)
    (h0 : Finite (S := TTile) x0) (h1 : Finite (S := TRow) x1) (h2 : Finite (S := TG) x2) :
    (out2_5 (F := Ideal) x0 x1 x2 x3 x4 : FVec Ideal TTile .f32) = tileOut x0 x1 x2 x3 x4 := by
  funext j
  unfold out2_5
  refine View.canon_apply_of_pieces (Val := Elt Ideal) (S := S4608x512) (e := .f32) (tileOut x0 x1 x2 x3 x4) _ ?_ j (cover2_5 _ _ _ _ j)
  intro p hp
  simp only [List.mem_cons, List.not_mem_nil, or_false] at hp
  rcases hp with rfl | rfl | rfl | rfl
  · intro x
    obtain ⟨r, a, rfl⟩ : ∃ (r : Fin 4608) (a : Fin 128), x = ix2 r a := ⟨x 0, x 1, eq_ix2 x⟩
    refine (piece3_apply x0 x1 x2 x3 x4 h0 h1 h2 r a).trans ?_
    refine Eq.trans ?_ (congrArg (tileOut x0 x1 x2 x3 x4) (show r2_13.emb (ix2 r a) = ix2 r (ch 3 a) from emb_piece 384 _ r a (ch 3 a) rfl).symm)
    exact (tileOut_apply x0 x1 x2 x3 x4 r 3 a).symm
  · intro x
    obtain ⟨r, a, rfl⟩ : ∃ (r : Fin 4608) (a : Fin 128), x = ix2 r a := ⟨x 0, x 1, eq_ix2 x⟩
    refine (piece2_apply x0 x1 x2 x3 x4 h0 h1 h2 r a).trans ?_
    refine Eq.trans ?_ (congrArg (tileOut x0 x1 x2 x3 x4) (show r2_10.emb (ix2 r a) = ix2 r (ch 2 a) from emb_piece 256 _ r a (ch 2 a) rfl).symm)
    exact (tileOut_apply x0 x1 x2 x3 x4 r 2 a).symm
  · intro x
    obtain ⟨r, a, rfl⟩ : ∃ (r : Fin 4608) (a : Fin 128), x = ix2 r a := ⟨x 0, x 1, eq_ix2 x⟩
    refine (piece1_apply x0 x1 x2 x3 x4 h0 h1 h2 r a).trans ?_
    refine Eq.trans ?_ (congrArg (tileOut x0 x1 x2 x3 x4) (show r2_7.emb (ix2 r a) = ix2 r (ch 1 a) from emb_piece 128 _ r a (ch 1 a) rfl).symm)
    exact (tileOut_apply x0 x1 x2 x3 x4 r 1 a).symm
  · intro x
    obtain ⟨r, a, rfl⟩ : ∃ (r : Fin 4608) (a : Fin 128), x = ix2 r a := ⟨x 0, x 1, eq_ix2 x⟩
    refine (piece0_apply x0 x1 x2 x3 x4 h0 h1 h2 r a).trans ?_
    refine Eq.trans ?_ (congrArg (tileOut x0 x1 x2 x3 x4) (show r2_4.emb (ix2 r a) = ix2 r (ch 0 a) from emb_piece 0 _ r a (ch 0 a) rfl).symm)
    exact (tileOut_apply x0 x1 x2 x3 x4 r 0 a).symm

end Cert.Whitening.KBody2

end
-- ==== Proof.KReg2.lean ====
/-
  The third kernel's result as one array: its sixteen row tiles, each the tile function of the input's tile of rows
  and of the whole mean, whitening, scale and shift arrays, cover the output.
-/
import proofs.«401155_j5385888989602_3_alg».proof.Proof.Gen.KernelIdeal.Frame
import proofs.«401155_j5385888989602_3_alg».proof.Proof.Part
import proofs.«401155_j5385888989602_3_alg».proof.Proof.KBody2
import Idealize.ShloMosaic.Lib.Pipeline.Value

noncomputable section

open scoped BigOperators

namespace Cert.Whitening.KReg2

open Idealize.ShloMosaic Idealize.ShloMosaic.TcCoe Idealize.ShloMosaic.ValueIdx Idealize.SL.Sem
open Cert.KernelIdeal Cert.KernelIdeal.Gen

/-- Row `r` of row tile `t` as a row of the whole array. -/
private def rowOf (t : ℕ) (ht : t < 16) (r : Fin 4608) : Fin 73728 := ⟨t * 4608 + r.val, by have := r.isLt; omega⟩

/-- A row tile's output is the whole output on the tile's rows: the tile function reads its input block only at the
    row it writes, and the mean, whitening, scale and shift arrays whole. -/
private theorem tileOut_eq (X : FVec Ideal TX .f32) (M : FVec Ideal TRow .f32) (Wh : FVec Ideal TG .f32) (G B : FVec Ideal TRow .f32)
    (x0 : FVec Ideal TTile .f32) (x1 : FVec Ideal TRow .f32) (x2 : FVec Ideal TG .f32) (x3 x4 : FVec Ideal TRow .f32)
    (row : Fin 4608 → Fin 73728)
    (e0 : ∀ (r : Fin 4608) (k : Fin 512), x0 (ix2 r k) = X (ix2 (row r) k))
    (e1 : x1 = M) (e2 : x2 = Wh) (e3 : x3 = G) (e4 : x4 = B) (r : Fin 4608) (k : Fin 512) :
    tileOut x0 x1 x2 x3 x4 (ix2 r k) = outOf X M Wh G B (ix2 (row r) k) := by
  subst e1 e2 e3 e4
  show (∑ k' : Fin 128, (x0 (ix2 r (ch (grp k) k')) - x1 (ix2 0 (ch (grp k) k'))) * x2 (ix3 (grp k) (mem k) k')) * x3 (ix2 0 k) + x4 (ix2 0 k)
     = (∑ k' : Fin 128, (X (ix2 (row r) (ch (grp k) k')) - x1 (ix2 0 (ch (grp k) k'))) * x2 (ix3 (grp k) (mem k) k')) * x3 (ix2 0 k) + x4 (ix2 0 k)
  simp only [e0]

section Generic

variable (V : (c : Dev nD) → (b : Ref sig .tc) → Buf (Elt Ideal) ((c : Thread nD τ).loc b))

/-- The windows' block indices at every grid point: the input rows and the output rows move with the point, every
    other window stays at its one block. -/
private theorem idx_facts : ∀ t : Fin cfg2.N,
    win2_5.index t (0 : Fin 2) = t.val ∧ win2_5.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 3) = 0 ∧ win2_2.index t (1 : Fin 3) = 0 ∧ win2_2.index t (2 : Fin 3) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

private theorem lt16 (t : Fin cfg2.N) : t.val < 16 := lt_of_lt_of_eq t.isLt N_2

/-- The input block at point `t` holds rows `4608·t … 4608·t + 4607` of the input array. -/
private theorem blk0_eq (c : Dev nD) (t : Fin cfg2.N) (r : Fin 4608) (k : Fin 512) :
    (iblk2 V c 0 t : FVec Ideal TTile .f32) (ix2 r k) = (V c main_v0 : FVec Ideal TX .f32) (ix2 (rowOf t.val (lt16 t) r) k) := by
  obtain ⟨-, -, e0, e1, -⟩ := idx_facts t
  show V c main_v0 (((cfg2.win 0).blk t).view.emb (ix2 r k)) = V c main_v0 (ix2 (rowOf t.val (lt16 t) r) k)
  congr 1
  funext a; apply Fin.ext
  match a with
  | ⟨0, _⟩ => show win2_0.index t (0 : Fin 2) * 4608 + 1 * r.val = t.val * 4608 + r.val; omega
  | ⟨1, _⟩ => show win2_0.index t (1 : Fin 2) * 512 + 1 * k.val = k.val; omega

/-- A window that is its whole array reads the array itself at every point. -/
private theorem blk1_eq (c : Dev nD) (t : Fin cfg2.N) : (iblk2 V c 1 t : FVec Ideal TRow .f32) = V c main_v6_0 := by
  obtain ⟨-, -, -, -, e0, e1, -⟩ := idx_facts t
  funext y
  show V c main_v6_0 (((cfg2.win 1).blk t).view.emb y) = V c main_v6_0 y
  congr 1
  funext a; apply Fin.ext
  match a with
  | ⟨0, _⟩ => show win2_1.index t (0 : Fin 2) * 1 + 1 * (y 0).val = (y 0).val; omega
  | ⟨1, _⟩ => show win2_1.index t (1 : Fin 2) * 512 + 1 * (y 1).val = (y 1).val; omega

private theorem blk2_eq (c : Dev nD) (t : Fin cfg2.N) : (iblk2 V c 2 t : FVec Ideal TG .f32) = V c main_v6_1 := by
  obtain ⟨-, -, -, -, -, -, e0, e1, e2, -⟩ := idx_facts t
  funext y
  show V c main_v6_1 (((cfg2.win 2).blk t).view.emb y) = V c main_v6_1 y
  congr 1
  funext a; apply Fin.ext
  match a with
  | ⟨0, _⟩ => show win2_2.index t (0 : Fin 3) * 4 + 1 * (y 0).val = (y 0).val; omega
  | ⟨1, _⟩ => show win2_2.index t (1 : Fin 3) * 128 + 1 * (y 1).val = (y 1).val; omega
  | ⟨2, _⟩ => show win2_2.index t (2 : Fin 3) * 128 + 1 * (y 2).val = (y 2).val; omega

private theorem blk3_eq (c : Dev nD) (t : Fin cfg2.N) : (iblk2 V c 3 t : FVec Ideal TRow .f32) = V c main_v1 := by
  obtain ⟨-, -, -, -, -, -, -, -, -, e0, e1, -⟩ := idx_facts t
  funext y
  show V c main_v1 (((cfg2.win 3).blk t).view.emb y) = V c main_v1 y
  congr 1
  funext a; apply Fin.ext
  match a with
  | ⟨0, _⟩ => show win2_3.index t (0 : Fin 2) * 1 + 1 * (y 0).val = (y 0).val; omega
  | ⟨1, _⟩ => show win2_3.index t (1 : Fin 2) * 512 + 1 * (y 1).val = (y 1).val; omega

private theorem blk4_eq (c : Dev nD) (t : Fin cfg2.N) : (iblk2 V c 4 t : FVec Ideal TRow .f32) = V c main_v2 := by
  obtain ⟨-, -, -, -, -, -, -, -, -, -, -, e0, e1⟩ := idx_facts t
  funext y
  show V c main_v2 (((cfg2.win 4).blk t).view.emb y) = V c main_v2 y
  congr 1
  funext a; apply Fin.ext
  match a with
  | ⟨0, _⟩ => show win2_4.index t (0 : Fin 2) * 1 + 1 * (y 0).val = (y 0).val; omega
  | ⟨1, _⟩ => show win2_4.index t (1 : Fin 2) * 512 + 1 * (y 1).val = (y 1).val; omega

/-- What point `t` writes back is block `t` of the whole output function of the arrays the kernel is entered with. -/
private theorem flushed_eq (c : Dev nD) (h0 : Finite (S := TX) (V c main_v0))
    (h1 : Finite (S := TRow) (V c main_v6_0)) (h2 : Finite (S := TG) (V c main_v6_1)) (t : Fin cfg2.N) :
    (dat2 V c).flushed 5 t = ((cfg2.win 5).blk t).view.read (Elt Ideal)
      (outOf (V c main_v0) (V c main_v6_0) (V c main_v6_1) (V c main_v1) (V c main_v2)) := by
  show (cfg2.win 5).cut (grid2.coords t) ((dat2 V c).after 5 t) = _
  rw [after2_5]
  have f0 : Finite (S := TTile) (iblk2 V c 0 t) := fun y => h0 (((cfg2.win 0).blk t).view.emb y)
  have f1 : Finite (S := TRow) (iblk2 V c 1 t) := fun y => h1 (((cfg2.win 1).blk t).view.emb y)
  have f2 : Finite (S := TG) (iblk2 V c 2 t) := fun y => h2 (((cfg2.win 2).blk t).view.emb y)
  rw [KBody2.out2_5_eq _ _ _ _ _ f0 f1 f2]
  funext y
  show tileOut (iblk2 V c 0 t) (iblk2 V c 1 t) (iblk2 V c 2 t) (iblk2 V c 3 t) (iblk2 V c 4 t) y
    = outOf (V c main_v0) (V c main_v6_0) (V c main_v6_1) (V c main_v1) (V c main_v2) (((cfg2.win 5).blk t).view.emb y)
  obtain ⟨e0, e1, -⟩ := idx_facts t
  have hemb : ((cfg2.win 5).blk t).view.emb y = (ix2 (rowOf t.val (lt16 t) (y 0)) (y 1) : TX.Idx) := by
    funext a; apply Fin.ext
    match a with
    | ⟨0, _⟩ => show win2_5.index t (0 : Fin 2) * 4608 + 1 * (y 0).val = t.val * 4608 + (y 0).val; omega
    | ⟨1, _⟩ => show win2_5.index t (1 : Fin 2) * 512 + 1 * (y 1).val = (y 1).val; omega
  rw [hemb]
  refine (congrArg (tileOut (iblk2 V c 0 t) (iblk2 V c 1 t) (iblk2 V c 2 t) (iblk2 V c 3 t) (iblk2 V c 4 t)) (eq_ix2 (n0 := 4608) (n1 := 512) y)).trans ?_
  exact tileOut_eq _ _ _ _ _ _ _ _ _ _ (rowOf t.val (lt16 t)) (blk0_eq V c t) (blk1_eq V c t) (blk2_eq V c t) (blk3_eq V c t) (blk4_eq V c t) (y 0) (y 1)

/-- An index of the output array is in point `t`'s block iff each coordinate is in the block's range on its axis. -/
private theorem mem_blk (t : Fin cfg2.N) (i : S73728x512.Idx) :
    i ∈ ((cfg2.win 5).blk t).view.set ↔ ∀ a : Fin 2, win2_5.index t a * S4608x512.size a ≤ (i a).val ∧ (i a).val < win2_5.index t a * S4608x512.size a + S4608x512.size a := by
  show i ∈ ((View.whole main_v7).slice (win2_5.rect t)).set ↔ _
  rw [View.set_slice_whole, Rect.mem_set_unit]
  exact Iff.rfl

/-- Every row of the output is in the block of the point that is the row's number divided by the tile height. -/
private theorem cover (i : S73728x512.Idx) : ∃ t : Fin cfg2.N, (cfg2.win 5).flush t = true ∧ i ∈ ((cfg2.win 5).blk t).view.set := by
  have hi0 : (i 0).val < 73728 := (i 0).isLt
  have hi1 : (i 1).val < 512 := (i 1).isLt
  refine ⟨⟨(i 0).val / 4608, lt_of_lt_of_eq (by omega : (i 0).val / 4608 < 16) N_2.symm⟩, flush2_5 _, ?_⟩
  rw [mem_blk]
  obtain ⟨e0, e1, -⟩ := idx_facts ⟨(i 0).val / 4608, lt_of_lt_of_eq (by omega : (i 0).val / 4608 < 16) N_2.symm⟩
  have e0' : win2_5.index ⟨(i 0).val / 4608, lt_of_lt_of_eq (by omega : (i 0).val / 4608 < 16) N_2.symm⟩ (0 : Fin 2) = (i 0).val / 4608 := e0
  intro a
  match a with
  | ⟨0, _⟩ => show win2_5.index _ (0 : Fin 2) * 4608 ≤ (i 0).val ∧ (i 0).val < win2_5.index _ (0 : Fin 2) * 4608 + 4608; omega
  | ⟨1, _⟩ => show win2_5.index _ (1 : Fin 2) * 512 ≤ (i 1).val ∧ (i 1).val < win2_5.index _ (1 : Fin 2) * 512 + 512; omega

/-- The output array after the kernel's sixteen points: the whole output function of the arrays it is entered with. -/
private theorem arr_eq (c : Dev nD) (h0 : Finite (S := TX) (V c main_v0))
    (h1 : Finite (S := TRow) (V c main_v6_0)) (h2 : Finite (S := TG) (V c main_v6_1)) :
    (dat2 V c).arrAt 5 cfg2.N = outOf (V c main_v0) (V c main_v6_0) (V c main_v6_1) (V c main_v1) (V c main_v2) :=
  (dat2 V c).arrAt_eq_of_cover 5 (outOf (V c main_v0) (V c main_v6_0) (V c main_v6_1) (V c main_v1) (V c main_v2))
    (fun t _ => flushed_eq V c h0 h1 h2 t) cover

end Generic

variable (m : (ℓ : Loc nD τ sig) → Buf (Elt Ideal) ℓ) (ρ : Dev nD → PrngReg)

/-- The output array after the third kernel, from the arrays it is entered with. -/
theorem out_arr (c : Dev nD) (h0 : Finite (S := TX) (V4 m ρ c main_v0))
    (h1 : Finite (S := TRow) (V4 m ρ c main_v6_0)) (h2 : Finite (S := TG) (V4 m ρ c main_v6_1)) :
    (V5 m ρ c main_v7 : FVec Ideal TX .f32)
      = outOf (V4 m ρ c main_v0) (V4 m ρ c main_v6_0) (V4 m ρ c main_v6_1) (V4 m ρ c main_v1) (V4 m ρ c main_v2) :=
  (W5_arr m ρ c 5).trans (arr_eq (V4 m ρ) c h0 h1 h2)

end Cert.Whitening.KReg2

end
-- ==== Proof.KValue.lean ====
/-
  The kernel program's result array in one formula of its three arguments: the reshaped output of the third kernel,
  entered with the reshaped sample matrix, scale and shift and with the second kernel's means and whitening matrices,
  which come from the totals the first kernel and the host sums leave.
-/
import proofs.«401155_j5385888989602_3_alg».proof.Proof.Gen.KernelIdeal.Frame
import proofs.«401155_j5385888989602_3_alg».proof.Proof.Spec
import proofs.«401155_j5385888989602_3_alg».proof.Proof.WhK
import proofs.«401155_j5385888989602_3_alg».proof.Proof.KHost
import proofs.«401155_j5385888989602_3_alg».proof.Proof.KReg0
import proofs.«401155_j5385888989602_3_alg».proof.Proof.KReg1
import proofs.«401155_j5385888989602_3_alg».proof.Proof.KReg2

noncomputable section

open scoped BigOperators

namespace Cert.Whitening.KValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The sample matrix: the first argument reshaped. -/
abbrev Xk (c : Dev nD) : FVec Ideal TX .f32 :=
  shapeCast S73728x512 (m ((c : Thread nD τ).loc main_arg0)) shapeCasts_S32x48x48x512_S73728x512

/-- The kernel's whitening matrices from a sample matrix. -/
abbrev WhOf (X : FVec Ideal TX .f32) : FVec Ideal TG .f32 :=
  whK (F := Ideal) (k1_pay5 (F := Ideal) (totF X) (totFF X)) (k1_pay6 (F := Ideal) (totF X) (totFF X))

/-- The means the third kernel is entered with. -/
theorem mean_eq (c : Dev nD) : (V4 m ρ c main_v6_0 : FVec Ideal TRow .f32) = k1_pay2 (F := Ideal) (totF (Xk m c)) := by
  rw [KReg1.mean_arr, KReg0.tot_f, KHost.v0_eq]

/-- The whitening matrices the third kernel is entered with. -/
theorem wh_eq (c : Dev nD) : (V4 m ρ c main_v6_1 : FVec Ideal TG .f32) = WhOf (Xk m c) := by
  rw [KReg1.whiten_arr, KReg0.tot_f, KReg0.tot_ff, KHost.v0_eq]

/-- The result array, when the sample matrix, the means and the whitening matrices are real-entried. -/
theorem result_eq (c : Dev nD) (h0 : Finite (S := TX) (Xk m c)) (h1 : Finite (S := TRow) (k1_pay2 (F := Ideal) (totF (Xk m c))))
    (h2 : Finite (S := TG) (WhOf (Xk m c))) :
    (W6 m ρ c (Proc.devRef .tc main_v8) : FVec Ideal TA .f32)
      = shapeCast S32x48x48x512
          (outOf (Xk m c) (k1_pay2 (F := Ideal) (totF (Xk m c))) (WhOf (Xk m c))
            (shapeCast S1x512 (m ((c : Thread nD τ).loc main_arg1)) shapeCasts_S1x1x1x512_S1x512)
            (shapeCast S1x512 (m ((c : Thread nD τ).loc main_arg2)) shapeCasts_S1x1x1x512_S1x512))
          shapeCasts_S73728x512_S32x48x48x512 := by
  have e0 : (V4 m ρ c main_v0 : FVec Ideal TX .f32) = Xk m c := (KHost.v0_keep m ρ c).trans (KHost.v0_eq m ρ c)
  have e1 := mean_eq m ρ c
  have e2 := wh_eq m ρ c
  have e3 : (V4 m ρ c main_v1 : FVec Ideal TRow .f32) = _ := (KHost.v1_keep m ρ c).trans (KHost.v1_eq m ρ c)
  have e4 : (V4 m ρ c main_v2 : FVec Ideal TRow .f32) = _ := (KHost.v2_keep m ρ c).trans (KHost.v2_eq m ρ c)
  rw [KHost.v8_eq, KReg2.out_arr m ρ c (by rw [e0]; exact h0) (by rw [e1]; exact h1) (by rw [e2]; exact h2), e0, e1, e2, e3, e4]

end Cert.Whitening.KValue

end
-- ==== Proof.WhR.lean ====
/-
  The whitening matrix as the reference computes it, as one function of the trace array `T`, the normalised
  covariance `Sg` and the starting matrix `P0`: three steps P ↦ (3·P − ((P·P)·P)·Sg) / 2, then the division by the
  square root of the trace; and the reference's result from a whitening matrix.
-/
import proofs.«401155_j5385888989602_3_alg».proof.Proof.Gen.ReferenceIdeal.Run
import proofs.«401155_j5385888989602_3_alg».proof.Proof.Spec

noncomputable section

open scoped BigOperators

namespace Cert.Whitening

open Idealize.ShloMosaic Idealize.ShloMosaic.StableHlo Cert.ReferenceIdeal Cert.ReferenceIdeal.Gen Cert.ReferenceIdeal.Value

variable {F : FTy → Type} [FloatOps F]

/-- One step of the iteration on the host. -/
def stepR (P Sg : FVec F S4x128x128 .f32) : FVec F S4x128x128 .f32 :=
  Host.divf (subf (mulf (broadcastInDim S4x128x128 ![] bcast_S_S4x128x128 (constant S_ .f32 0x40400000#32)) P) (Host.dotGeneral dot_S4x128x128_S4x128x128_S4x128x128_2_1_1_2_0_0 none (Host.dotGeneral dot_S4x128x128_S4x128x128_S4x128x128_2_1_1_2_0_0 none (Host.dotGeneral dot_S4x128x128_S4x128x128_S4x128x128_2_1_1_2_0_0 none P P) P) Sg)) (broadcastInDim S4x128x128 ![] bcast_S_S4x128x128 (constant S_ .f32 0x40000000#32))

/-- Three steps and the final scaling. -/
def whR (T : FVec F S4x1x1 .f32) (Sg P0 : FVec F S4x128x128 .f32) : FVec F S4x128x128 .f32 :=
  Host.divf (stepR (stepR (stepR P0 Sg) Sg) Sg) (broadcastInDim S4x128x128 ![0, 1, 2] bcast_S4x1x1_S4x128x128_0_1_2 (Host.sqrt T))

/-- The reference's result from a whitening matrix `Wh`: its product with the centred input, laid back out as
    batch, height, width, channels, times the scale plus the shift. -/
def resR (Wh : FVec F S4x128x128 .f32) (V0 : Valuation τ sig (Elt F)) : FVec F S32x48x48x512 .f32 :=
  addf (mulf (transpose S32x48x48x512 [1, 2, 3, 0] (shapeCast _ (Host.dotGeneral dot_S4x128x128_S4x128x73728_S4x128x73728_2_1_1_2_0_0 none Wh (res_main_v8 V0)) shapeCasts_S4x128x73728_S512x32x48x48) transposes_S512x32x48x48_S32x48x48x512_1_2_3_0) (broadcastInDim S32x48x48x512 ![0, 1, 2, 3] bcast_S1x1x1x512_S32x48x48x512_0_1_2_3 (V0 (Proc.devRef .tc main_arg1)))) (broadcastInDim S32x48x48x512 ![0, 1, 2, 3] bcast_S1x1x1x512_S32x48x48x512_0_1_2_3 (V0 (Proc.devRef .tc main_arg2)))

end Cert.Whitening

end
-- ==== Proof.Consts.lean ====
/-
  The single-precision literals of the two programs as real numbers.
-/
import Idealize.ShloMosaic.PureOps.Ideal
import Idealize.ShloMosaic.PureOps.Ideal.Laws
import proofs.«401155_j5385888989602_3_alg».proof.Proof.Spec

noncomputable section

open scoped BigOperators

namespace Cert.Whitening.Consts

open Idealize.ShloMosaic

/-- The sample count. -/
theorem ofBits_73728 : Ideal.ofBits .f32 0x47900000#32 = ((73728 : ℝ) : EReal) := by
  simp [Ideal.ofBits, Ideal.ieee, -EReal.coe_mul]; norm_num

/-- The sample count less one. -/
theorem ofBits_73727 : Ideal.ofBits .f32 0x478FFF80#32 = ((73727 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_three : Ideal.ofBits .f32 0x40400000#32 = ((3 : ℝ) : EReal) := by
  simp [Ideal.ofBits, Ideal.ieee, -EReal.coe_mul]; norm_num

/-- The weight of the covariance: (2^23 − 1) / 2^23. -/
theorem ofBits_wCov : Ideal.ofBits .f32 0x3F7FFFFE#32 = ((wCov : ℝ) : EReal) := by
  simp [Ideal.ofBits, Ideal.ieee, wCov, -EReal.coe_mul]; norm_num

/-- The weight of the identity: 14073749 / 2^47. -/
theorem ofBits_wEye : Ideal.ofBits .f32 0x33D6BF95#32 = ((wEye : ℝ) : EReal) := by
  simp [Ideal.ofBits, Ideal.ieee, wEye, -EReal.coe_mul]; norm_num

theorem wCov_nonneg : (0 : ℝ) ≤ wCov := by unfold wCov; norm_num
theorem wEye_pos : (0 : ℝ) < wEye := by unfold wEye; norm_num

end Cert.Whitening.Consts

end
-- ==== Proof.CovK.lean ====
/-
  The second kernel's mean and regularised covariance, from the totals of a real input: the raw second moment minus
  the sample count times the product of means is the sum of products of deviations.
-/
import proofs.«401155_j5385888989602_3_alg».proof.Proof.Gen.KernelIdeal.Skeleton
import proofs.«401155_j5385888989602_3_alg».proof.Proof.Spec
import proofs.«401155_j5385888989602_3_alg».proof.Proof.Consts
import proofs.«401155_j5385888989602_3_alg».proof.Proof.LibReal
import Idealize.ShloMosaic.Lib.ValueLayout

noncomputable section

open scoped BigOperators

namespace Cert.Whitening.CovK

open Idealize.ShloMosaic Idealize.ShloMosaic.TcCoe Idealize.ShloMosaic.ValueIdx Idealize.SL.Sem
open Cert.KernelIdeal Cert.KernelIdeal.Gen

/-- The mean row at a channel: the column total over the sample count. -/
private theorem pay2_apply (v0 : FVec Ideal S1x512 .f32) (u : Fin 1) (c : Fin 512) :
    k1_pay2 (F := Ideal) v0 (ix2 u c) = Ideal.div (v0 (ix2 u c)) ((73728 : ℝ) : EReal) := by
  unfold k1_pay2
  rw [shapeCast_self, divf_apply, broadcast_apply]
  show Ideal.div _ (Ideal.ofBits .f32 0x47900000#32) = _
  rw [Consts.ofBits_73728]

section Layout
variable {α : Type}

/-- A row of 512 channels read as 4 groups of 128 members: member `a` of group `g` is channel `128 g + a`. -/
private theorem cast_row_groups (m : S1x512.Idx → α) (h : S1x512.ShapeCasts S4x128) (g : Fin 4) (a : Fin 128) :
    shapeCast S4x128 m h (ix2 g a) = m (ix2 (0 : Fin 1) (ch g a)) :=
  shapeCast_apply m h _ _ (by
    rw [Shape.rowMajor_val_two, Shape.rowMajor_val_two]
    show 0 * 512 + (128 * g.val + a.val) = g.val * 128 + a.val
    omega)

/-- A trailing unit axis added: `(g, a, 0)` reads `(g, a)`. -/
private theorem cast_groups_col (m : S4x128.Idx → α) (h : S4x128.ShapeCasts S4x128x1) (g : Fin 4) (a : Fin 128) (u : Fin 1) :
    shapeCast S4x128x1 m h (ix3 g a u) = m (ix2 g a) :=
  shapeCast_apply m h _ _ (by
    have hu : u.val = 0 := by omega
    rw [Shape.rowMajor_val_two, Shape.rowMajor_val_three]
    show g.val * 128 + a.val = (g.val * 128 + a.val) * 1 + u.val
    omega)

/-- A middle unit axis added: `(g, 0, b)` reads `(g, b)`. -/
private theorem cast_groups_row (m : S4x128.Idx → α) (h : S4x128.ShapeCasts S4x1x128) (g : Fin 4) (u : Fin 1) (b : Fin 128) :
    shapeCast S4x1x128 m h (ix3 g u b) = m (ix2 g b) :=
  shapeCast_apply m h _ _ (by
    have hu : u.val = 0 := by omega
    rw [Shape.rowMajor_val_two, Shape.rowMajor_val_three]
    show g.val * 128 + b.val = (g.val * 1 + u.val) * 128 + b.val
    omega)

/-- A column broadcast along the last axis. -/
private theorem bcast_col (m : S4x128x1.Idx → α) (h : S4x128x1.Broadcasts S4x128x128) (g : Fin 4) (a b : Fin 128) :
    broadcastTo S4x128x128 m h (ix3 g a b) = m (ix3 g a (0 : Fin 1)) := by
  refine broadcastTo_apply m h (ix3 g a b) (ix3 g a (0 : Fin 1)) fun ax => ?_
  match ax with
  | ⟨0, _⟩ => rfl
  | ⟨1, _⟩ => rfl
  | ⟨2, _⟩ => rfl

/-- A row broadcast along the middle axis. -/
private theorem bcast_row (m : S4x1x128.Idx → α) (h : S4x1x128.Broadcasts S4x128x128) (g : Fin 4) (a b : Fin 128) :
    broadcastTo S4x128x128 m h (ix3 g a b) = m (ix3 g (0 : Fin 1) b) := by
  refine broadcastTo_apply m h (ix3 g a b) (ix3 g (0 : Fin 1) b) fun ax => ?_
  match ax with
  | ⟨0, _⟩ => rfl
  | ⟨1, _⟩ => rfl
  | ⟨2, _⟩ => rfl

/-- One matrix broadcast over the groups. -/
private theorem bcast_mat (m : S1x128x128.Idx → α) (h : S1x128x128.Broadcasts S4x128x128) (g : Fin 4) (a b : Fin 128) :
    broadcastTo S4x128x128 m h (ix3 g a b) = m (ix3 (0 : Fin 1) a b) := by
  refine broadcastTo_apply m h (ix3 g a b) (ix3 (0 : Fin 1) a b) fun ax => ?_
  match ax with
  | ⟨0, _⟩ => rfl
  | ⟨1, _⟩ => rfl
  | ⟨2, _⟩ => rfl

end Layout

/-- The identity pattern: one on the diagonal of every group, zero off it. -/
private theorem pay3_apply (g : Fin 4) (a b : Fin 128) :
    k1_pay3 (F := Ideal) (ix3 g a b) = (((if a = b then 1 else 0 : ℝ)) : EReal) := by
  unfold k1_pay3
  rw [bcast_mat, shapeCast_self, shapeCast_ab_1ab_apply, sitofp_apply, extui_apply]
  show ((((IntOp.cmpi .eq (iota .tc S128x128 32 [0] iota_S128x128_d0_w32 (ix2 a b))
      (iota .tc S128x128 32 [1] iota_S128x128_d1_w32 (ix2 a b))).setWidth 32).toInt : ℝ) : EReal) = _
  rw [iota_single_apply, iota_single_apply]
  show ((((IntOp.cmpi .eq (BitVec.ofNat 32 a.val) (BitVec.ofNat 32 b.val)).setWidth 32).toInt : ℝ) : EReal) = _
  by_cases hab : a = b
  · subst hab
    rw [if_pos rfl]
    have h1 : IntOp.cmpi CmpIPredicate.eq (BitVec.ofNat 32 a.val) (BitVec.ofNat 32 a.val) = 1#1 := by
      simp [IntOp.cmpi]
    have h2 : ((1#1 : BitVec 1).setWidth 32).toInt = 1 := by decide
    rw [h1, h2, Int.cast_one]
  · rw [if_neg hab]
    have hne : BitVec.ofNat 32 a.val ≠ BitVec.ofNat 32 b.val := by
      intro h
      apply hab
      have := congrArg BitVec.toNat h
      rw [BitVec.toNat_ofNat, BitVec.toNat_ofNat] at this
      apply Fin.ext
      have ha := a.isLt
      have hb := b.isLt
      omega
    have hbeq : (BitVec.ofNat 32 a.val == BitVec.ofNat 32 b.val) = false := beq_eq_false_iff_ne.mpr hne
    have h1 : IntOp.cmpi CmpIPredicate.eq (BitVec.ofNat 32 a.val) (BitVec.ofNat 32 b.val) = 0#1 := by
      show BitVec.ofBool (BitVec.ofNat 32 a.val == BitVec.ofNat 32 b.val) = 0#1
      rw [hbeq]; rfl
    have h2 : ((0#1 : BitVec 1).setWidth 32).toInt = 0 := by decide
    rw [h1, h2, Int.cast_zero]

/-- The regularised covariance at `(g, a, b)`, over the mean row and the raw second moments. -/
private theorem pay4_apply (v0 : FVec Ideal S1x512 .f32) (v11 : FVec Ideal S4x128x128 .f32) (g : Fin 4) (a b : Fin 128) :
    k1_pay4 (F := Ideal) v0 v11 (ix3 g a b) =
      ((wCov : ℝ) : EReal) * Ideal.div (v11 (ix3 g a b) - ((73728 : ℝ) : EReal) *
          (k1_pay2 (F := Ideal) v0 (ix2 (0 : Fin 1) (ch g a)) * k1_pay2 (F := Ideal) v0 (ix2 (0 : Fin 1) (ch g b))))
          ((73727 : ℝ) : EReal)
        + ((wEye : ℝ) : EReal) * (((if a = b then 1 else 0 : ℝ)) : EReal) := by
  unfold k1_pay4
  rw [addf_apply, mulf_apply, mulf_apply, divf_apply, subf_apply, mulf_apply, mulf_apply]
  simp only [broadcast_apply]
  rw [shapeCast_self, bcast_col, bcast_row, cast_groups_col, cast_groups_row, cast_row_groups, cast_row_groups, pay3_apply]
  show Ideal.ofBits .f32 0x3F7FFFFE#32 * Ideal.div (v11 (ix3 g a b) - Ideal.ofBits .f32 0x47900000#32 * _)
      (Ideal.ofBits .f32 0x478FFF80#32) + Ideal.ofBits .f32 0x33D6BF95#32 * _ = _
  rw [Consts.ofBits_wCov, Consts.ofBits_73728, Consts.ofBits_73727, Consts.ofBits_wEye]

/-- The raw second moment less the sample count times the product of the means is the sum of the products of the
    deviations from the means. -/
private theorem sum_dev_mul (x : Fin 73728 → Fin 512 → ℝ) (p q : Fin 512) :
    ∑ n : Fin 73728, x n p * x n q - 73728 * (mu x p * mu x q)
      = ∑ n : Fin 73728, (x n p - mu x p) * (x n q - mu x q) := by
  have hp : ∑ n : Fin 73728, x n p = 73728 * mu x p := by unfold mu; field_simp
  have hq : ∑ n : Fin 73728, x n q = 73728 * mu x q := by unfold mu; field_simp
  generalize mu x p = mp at hp ⊢
  generalize mu x q = mq at hq ⊢
  have hc : ∑ n : Fin 73728, (mp * mq) = 73728 * (mp * mq) := by
    rw [Finset.sum_const, Finset.card_univ, Fintype.card_fin, nsmul_eq_mul]; norm_num
  have hexp : ∀ n : Fin 73728, (x n p - mp) * (x n q - mq) = x n p * x n q - mp * x n q - x n p * mq + mp * mq :=
    fun n => by ring
  simp only [hexp]
  rw [Finset.sum_add_distrib, Finset.sum_sub_distrib, Finset.sum_sub_distrib, ← Finset.mul_sum, ← Finset.sum_mul, hc, hp, hq]
  ring

/-- The kernel's mean row is the real mean of each channel. -/
theorem meanK_isReal (X : FVec Ideal TX .f32) (x : Fin 73728 → Fin 512 → ℝ) (hX : ∀ n c, X (ix2 n c) = (x n c : EReal)) :
    IsReal (S := TRow) (k1_pay2 (F := Ideal) (totF X)) (fun j => mu x (j 1)) := by
  intro j
  obtain ⟨u, c, rfl⟩ : ∃ (u : Fin 1) (c : Fin 512), j = ix2 u c := ⟨j 0, j 1, eq_ix2 j⟩
  rw [pay2_apply]
  show Ideal.div (∑ n : Fin 73728, X (ix2 n c)) _ = ((mu x c : ℝ) : EReal)
  simp only [hX]
  rw [Cert.LibReal.coe_sum, Cert.LibReal.div_coe_coe _ _ (by norm_num)]
  rfl

/-- The kernel's regularised covariance is the real regularised covariance. -/
theorem covK_isReal (X : FVec Ideal TX .f32) (x : Fin 73728 → Fin 512 → ℝ) (hX : ∀ n c, X (ix2 n c) = (x n c : EReal)) :
    IsReal (S := TG) (k1_pay4 (F := Ideal) (totF X) (totFF X)) (fun j => covReg x (j 0) (j 1) (j 2)) := by
  intro j
  obtain ⟨g, a, b, rfl⟩ : ∃ (g : Fin 4) (a b : Fin 128), j = ix3 g a b := ⟨j 0, j 1, j 2, eq_ix3 j⟩
  rw [pay4_apply]
  have hm : ∀ c : Fin 512, k1_pay2 (F := Ideal) (totF X) (ix2 (0 : Fin 1) c) = ((mu x c : ℝ) : EReal) :=
    fun c => meanK_isReal X x hX (ix2 (0 : Fin 1) c)
  have hff : totFF X (ix3 g a b) = ((∑ n : Fin 73728, x n (ch g a) * x n (ch g b) : ℝ) : EReal) := by
    show ∑ n : Fin 73728, X (ix2 n (ch g a)) * X (ix2 n (ch g b)) = _
    simp only [hX, ← EReal.coe_mul]
    exact Cert.LibReal.coe_sum _ _
  rw [hm, hm, hff, ← EReal.coe_mul, ← EReal.coe_mul, ← EReal.coe_sub, Cert.LibReal.div_coe_coe _ _ (by norm_num),
    ← EReal.coe_mul, ← EReal.coe_mul, ← EReal.coe_add, sum_dev_mul]
  rfl

end Cert.Whitening.CovK

end
-- ==== Proof.CovR.lean ====
/-
  The reference's centred input and regularised covariance, from a real input; and the trace of the regularised
  covariance is positive (a non-negative multiple of a sum of squares plus 128 times a positive weight).
-/
import proofs.«401155_j5385888989602_3_alg».proof.Proof.Gen.ReferenceIdeal.Run
import proofs.«401155_j5385888989602_3_alg».proof.Proof.Spec
import proofs.«401155_j5385888989602_3_alg».proof.Proof.Consts
import proofs.«401155_j5385888989602_3_alg».proof.Proof.LibReal
import Idealize.ShloMosaic.Lib.IdealHost
import Idealize.ShloMosaic.Lib.Pipeline.Value

noncomputable section

open scoped BigOperators

namespace Cert.Whitening.CovR

open Idealize.ShloMosaic Idealize.ShloMosaic.TcCoe Idealize.ShloMosaic.ValueIdx Idealize.ShloMosaic.StableHlo
open Cert.ReferenceIdeal Cert.ReferenceIdeal.Gen Cert.ReferenceIdeal.Value

/-- The (batch, row, column) triple of a sample index: n = (batch * 48 + row) * 48 + column. -/
private def smp (n : Fin 73728) : Fin 32 × Fin 48 × Fin 48 :=
  (⟨n.val / 2304, by have := n.isLt; omega⟩, ⟨n.val / 48 % 48, Nat.mod_lt _ (by decide)⟩, ⟨n.val % 48, Nat.mod_lt _ (by decide)⟩)

private theorem v1_apply (A : FVec Ideal TA .f32) (hsc : TA.ShapeCasts TX) (c : Fin 512) (n : Fin 73728) :
    shapeCast S512x73728 (transpose S512x32x48x48 [3, 0, 1, 2] A transposes_S32x48x48x512_S512x32x48x48_3_0_1_2) shapeCasts_S512x32x48x48_S512x73728 (ix2 c n)
      = shapeCast TX A hsc (ix2 n c) := by
  have hn := n.isLt
  have hc := c.isLt
  refine (shapeCast_apply _ _ (ix2 c n) (ix4 c (smp n).1 (smp n).2.1 (smp n).2.2) ?_).trans ?_
  · rw [Shape.rowMajor_val_two, Shape.rowMajor_val_four]
    show ((c.val * 32 + n.val / 2304) * 48 + n.val / 48 % 48) * 48 + n.val % 48 = c.val * 73728 + n.val
    omega
  refine (transpose_apply _ _ _ (ix4 c (smp n).1 (smp n).2.1 (smp n).2.2) (ix4 (smp n).1 (smp n).2.1 (smp n).2.2 c)
    (fun b => match b with | ⟨0, _⟩ => rfl | ⟨1, _⟩ => rfl | ⟨2, _⟩ => rfl | ⟨3, _⟩ => rfl)).trans ?_
  refine (shapeCast_apply _ hsc (ix2 n c) (ix4 (smp n).1 (smp n).2.1 (smp n).2.2 c) ?_).symm
  rw [Shape.rowMajor_val_two, Shape.rowMajor_val_four]
  show ((n.val / 2304 * 48 + n.val / 48 % 48) * 48 + n.val % 48) * 512 + c.val = n.val * 512 + c.val
  omega

/-- The input with channels first, samples flattened: entry (c, n) is sample n's channel c. -/
private theorem v1_real (V0 : Valuation τ sig (Elt Ideal)) (hsc : TA.ShapeCasts TX) (x : Fin 73728 → Fin 512 → ℝ)
    (hX : ∀ n c, shapeCast TX (V0 (Proc.devRef .tc main_arg0) : FVec Ideal TA .f32) hsc (ix2 n c) = (x n c : EReal))
    (c : Fin 512) (n : Fin 73728) : res_main_v1 (F := Ideal) V0 (ix2 c n) = (x n c : EReal) := by
  rw [← hX n c]
  exact v1_apply _ hsc c n

private theorem reduces_d1 : S512x73728.Reduces [1] S512 := by decide

/-- A row of a real matrix summed over its columns. -/
private theorem sum_lift (v : S512x73728.Idx → EReal) (r : Fin 73728 → ℝ) (c : Fin 512) (h : ∀ n, v (ix2 c n) = (r n : EReal)) :
    ∑ k : Fin (S512x73728.size 1), v (reduces_d1.lift (ix1 c) k) = ((∑ n, r n : ℝ) : EReal) := by
  rw [← Cert.LibReal.coe_sum]
  show ∑ k : Fin 73728, v (reduces_d1.lift (ix1 c) k) = _
  refine Finset.sum_congr rfl fun k _ => ?_
  rw [← h k]
  exact congrArg v (funext fun a => match a with | ⟨0, _⟩ => rfl | ⟨1, _⟩ => rfl)

/-- The channel total over all samples. -/
private theorem tot_real (V0 : Valuation τ sig (Elt Ideal)) (hsc : TA.ShapeCasts TX) (x : Fin 73728 → Fin 512 → ℝ)
    (hX : ∀ n c, shapeCast TX (V0 (Proc.devRef .tc main_arg0) : FVec Ideal TA .f32) hsc (ix2 n c) = (x n c : EReal))
    (c : Fin 512) :
    Host.reduceAdd (F := Ideal) (res_main_v1 (F := Ideal) V0) (constant (F := Ideal) S_ .f32 0x00000000#32)
        reducesTo_S512x73728_S512_d1 h_S_ (ix1 c)
      = ((∑ n : Fin 73728, x n c : ℝ) : EReal) := by
  rw [hostReduceAdd_apply, Ideal.hostReduceAdd_single reducesTo_S512x73728_S512_d1 reduces_d1, constant_apply,
    Ideal.ofBits_zero_f32, zero_add]
  exact sum_lift _ _ c (v1_real V0 hsc x hX c)

/-- The centred input at (g, a, n). -/
private theorem v8_apply (V0 : Valuation τ sig (Elt Ideal)) (hsc : TA.ShapeCasts TX) (x : Fin 73728 → Fin 512 → ℝ)
    (hX : ∀ n c, shapeCast TX (V0 (Proc.devRef .tc main_arg0) : FVec Ideal TA .f32) hsc (ix2 n c) = (x n c : EReal))
    (g : Fin 4) (a : Fin 128) (n : Fin 73728) :
    res_main_v8 (F := Ideal) V0 (ix3 g a n) = ((x n (ch g a) - mu x (ch g a) : ℝ) : EReal) := by
  unfold res_main_v8
  have hg := g.isLt
  have ha := a.isLt
  refine (shapeCast_apply _ _ (ix3 g a n) (ix2 (ch g a) n) ?_).trans ?_
  · rw [Shape.rowMajor_val_two, Shape.rowMajor_val_three]
    show (128 * g.val + a.val) * 73728 + n.val = (g.val * 128 + a.val) * 73728 + n.val
    omega
  rw [subf_apply, v1_real V0 hsc x hX]
  rw [broadcastInDim_apply _ _ _ (ix2 (ch g a) n) (ix2 (ch g a) 0) (fun b => match b with | ⟨0, _⟩ => rfl | ⟨1, _⟩ => rfl)]
  rw [hostDivf_apply]
  rw [broadcastInDim_apply _ _ _ (ix2 (ch g a) 0) (ix1 (ch g a)) (fun b => match b with | ⟨0, _⟩ => rfl)]
  rw [tot_real V0 hsc x hX, broadcastInDim_scalar_apply, constant_apply, Consts.ofBits_73728,
    Cert.LibReal.div_coe_coe _ _ (by norm_num), ← EReal.coe_sub]
  rfl

/-- The identity matrix of order 128 at (a, b). -/
private theorem v18_apply (V0 : Valuation τ sig (Elt Ideal)) (a b : Fin 128) :
    res_main_v18 (F := Ideal) V0 (ix2 a b) = (((if a = b then 1 else 0 : ℝ)) : EReal) := by
  unfold res_main_v18
  show ((((IntOp.cmpi .eq (IntOp.addi (BitVec.ofNat 32 a.val) 0#32) (BitVec.ofNat 32 b.val)).toNat : ℝ)) : EReal) = _
  have hab : IntOp.cmpi .eq (IntOp.addi (BitVec.ofNat 32 a.val) 0#32) (BitVec.ofNat 32 b.val) = if a = b then 1#1 else 0#1 := by
    unfold IntOp.cmpi IntOp.addi
    rw [BitVec.add_zero]
    by_cases h : a = b
    · subst h; simp
    · rw [if_neg h]
      have hne : (BitVec.ofNat 32 a.val == BitVec.ofNat 32 b.val) = false := by
        rw [beq_eq_false_iff_ne]
        intro e
        apply h
        apply Fin.ext
        have e' := congrArg BitVec.toNat e
        simp only [BitVec.toNat_ofNat] at e'
        have := a.isLt
        have := b.isLt
        omega
      simp [hne]
  rw [hab]
  by_cases h : a = b
  · rw [if_pos h, if_pos h]; simp
  · rw [if_neg h, if_neg h]; simp

/-- The product of a grouped matrix with its own transpose, group by group: entry (g, a, b) sums over the samples. -/
private theorem dot_apply (v : S4x128x73728.Idx → EReal) (g : Fin 4) (a b : Fin 128) :
    Host.dotGeneral (F := Ideal) (φ₁ := .f32) (φ₂ := .f32) dot_S4x128x73728_S4x128x73728_S4x128x128_2_2_1_1_0_0 none v v (ix3 g a b)
      = ∑ n : Fin 73728, v (ix3 g a n) * v (ix3 g b n) := by
  refine (Ideal.dotGeneral_apply (φ₁ := .f32) (φ₂ := .f32) dot_S4x128x73728_S4x128x73728_S4x128x128_2_2_1_1_0_0 none .single v v (ix3 g a b)).trans ?_
  rw [← Equiv.sum_comp (contrEquiv1 dot_S4x128x73728_S4x128x73728_S4x128x128_2_2_1_1_0_0 73728 rfl rfl).symm]
  refine Finset.sum_congr rfl fun n _ => ?_
  have hl : dot_S4x128x73728_S4x128x73728_S4x128x128_2_2_1_1_0_0.lhsIdx (ix3 g a b)
      ((contrEquiv1 dot_S4x128x73728_S4x128x73728_S4x128x128_2_2_1_1_0_0 73728 rfl rfl).symm n) = ix3 g a n := by
    funext c
    apply Fin.ext
    match c with
    | ⟨0, _⟩ => rfl
    | ⟨1, _⟩ => rfl
    | ⟨2, _⟩ => rfl
  have hr : dot_S4x128x73728_S4x128x73728_S4x128x128_2_2_1_1_0_0.rhsIdx (ix3 g a b)
      ((contrEquiv1 dot_S4x128x73728_S4x128x73728_S4x128x128_2_2_1_1_0_0 73728 rfl rfl).symm n) = ix3 g b n := by
    funext c
    apply Fin.ext
    match c with
    | ⟨0, _⟩ => rfl
    | ⟨1, _⟩ => rfl
    | ⟨2, _⟩ => rfl
  rw [hl, hr]

/-- The second moments of the centred input, group by group. -/
private theorem dot_real (V0 : Valuation τ sig (Elt Ideal)) (hsc : TA.ShapeCasts TX) (x : Fin 73728 → Fin 512 → ℝ)
    (hX : ∀ n c, shapeCast TX (V0 (Proc.devRef .tc main_arg0) : FVec Ideal TA .f32) hsc (ix2 n c) = (x n c : EReal))
    (g : Fin 4) (a b : Fin 128) :
    Host.dotGeneral (F := Ideal) (φ₁ := .f32) (φ₂ := .f32) dot_S4x128x73728_S4x128x73728_S4x128x128_2_2_1_1_0_0 none
        (res_main_v8 (F := Ideal) V0) (res_main_v8 (F := Ideal) V0) (ix3 g a b)
      = ((∑ n : Fin 73728, (x n (ch g a) - mu x (ch g a)) * (x n (ch g b) - mu x (ch g b)) : ℝ) : EReal) := by
  rw [← Cert.LibReal.coe_sum]
  refine (dot_apply _ g a b).trans ?_
  refine Finset.sum_congr rfl fun n _ => ?_
  rw [v8_apply V0 hsc x hX, v8_apply V0 hsc x hX, ← EReal.coe_mul]

/-- The unbiased normaliser: the sample count less one. -/
private theorem den_real (j : S4x128x128.Idx) :
    broadcastInDim S4x128x128 ![] bcast_S_S4x128x128
        (subf (constant (F := Ideal) S_ .f32 0x47900000#32) (constant (F := Ideal) S_ .f32 0x3F800000#32)) j
      = ((73727 : ℝ) : EReal) := by
  rw [broadcastInDim_scalar_apply, subf_apply, constant_apply, constant_apply, Consts.ofBits_73728, Consts.ofBits_one,
    ← EReal.coe_sub]
  norm_num

/-- The regularised covariance at (g, a, b). -/
private theorem covR_apply (V0 : Valuation τ sig (Elt Ideal)) (hsc : TA.ShapeCasts TX) (x : Fin 73728 → Fin 512 → ℝ)
    (hX : ∀ n c, shapeCast TX (V0 (Proc.devRef .tc main_arg0) : FVec Ideal TA .f32) hsc (ix2 n c) = (x n c : EReal))
    (g : Fin 4) (a b : Fin 128) :
    res_main_v25 (F := Ideal) V0 (ix3 g a b) = ((covReg x g a b : ℝ) : EReal) := by
  unfold res_main_v25
  rw [addf_apply, mulf_apply, hostDivf_apply, dot_real V0 hsc x hX, den_real, Cert.LibReal.div_coe_coe _ _ (by norm_num),
    broadcastInDim_scalar_apply, constant_apply, Consts.ofBits_wCov]
  rw [broadcastInDim_apply _ _ _ (ix3 g a b) (ix3 0 a b) (fun c => match c with | ⟨0, _⟩ => rfl | ⟨1, _⟩ => rfl | ⟨2, _⟩ => rfl)]
  rw [mulf_apply, broadcastInDim_scalar_apply, constant_apply, Consts.ofBits_wEye]
  rw [broadcastInDim_apply _ _ _ (ix3 0 a b) (ix2 a b) (fun c => match c with | ⟨0, _⟩ => rfl | ⟨1, _⟩ => rfl)]
  rw [v18_apply, ← EReal.coe_mul, ← EReal.coe_mul, ← EReal.coe_add]
  rfl

/-- The reference's centred input, grouped: entry (g, a, n) is sample n's deviation from the mean in channel (g, a). -/
theorem v8_isReal (V0 : Valuation τ sig (Elt Ideal)) (hsc : TA.ShapeCasts TX) (x : Fin 73728 → Fin 512 → ℝ)
    (hX : ∀ n c, shapeCast TX (V0 (Proc.devRef .tc main_arg0) : FVec Ideal TA .f32) hsc (ix2 n c) = (x n c : EReal)) :
    IsReal (S := ⟨3, ![4, 128, 73728]⟩) (res_main_v8 (F := Ideal) V0)
    (fun j => x (j 2) (ch (j 0) (j 1)) - mu x (ch (j 0) (j 1))) := by
  intro j
  obtain ⟨g, a, n, rfl⟩ : ∃ (g : Fin 4) (a : Fin 128) (n : Fin 73728), j = ix3 g a n := ⟨j 0, j 1, j 2, eq_ix3 j⟩
  exact v8_apply V0 hsc x hX g a n

/-- The reference's regularised covariance. -/
theorem covR_isReal (V0 : Valuation τ sig (Elt Ideal)) (hsc : TA.ShapeCasts TX) (x : Fin 73728 → Fin 512 → ℝ)
    (hX : ∀ n c, shapeCast TX (V0 (Proc.devRef .tc main_arg0) : FVec Ideal TA .f32) hsc (ix2 n c) = (x n c : EReal)) :
    IsReal (S := TG) (res_main_v25 (F := Ideal) V0) (fun j => covReg x (j 0) (j 1) (j 2)) := by
  intro j
  obtain ⟨g, a, b, rfl⟩ : ∃ (g : Fin 4) (a b : Fin 128), j = ix3 g a b := ⟨j 0, j 1, j 2, eq_ix3 j⟩
  exact covR_apply V0 hsc x hX g a b

/-- The trace of the regularised covariance is positive. -/
theorem trReg_pos (x : Fin 73728 → Fin 512 → ℝ) (g : Fin 4) : 0 < trReg x g := by
  unfold trReg
  refine Finset.sum_pos (fun a _ => ?_) ⟨0, Finset.mem_univ _⟩
  unfold covReg covc
  rw [if_pos rfl, mul_one]
  have h1 : 0 ≤ (∑ n : Fin 73728, (x n (ch g a) - mu x (ch g a)) * (x n (ch g a) - mu x (ch g a))) / 73727 :=
    div_nonneg (Finset.sum_nonneg fun n _ => mul_self_nonneg _) (by norm_num)
  have h2 := mul_nonneg Consts.wCov_nonneg h1
  have h3 := Consts.wEye_pos
  linarith

end Cert.Whitening.CovR
end
-- ==== Proof.TraceSig.lean ====
/-
  Between the covariance and the iteration the two programs do the same thing in different words: the identity
  matrix from two index ramps, the trace as the sum of the diagonal, the covariance divided by its trace.
-/
import proofs.«401155_j5385888989602_3_alg».proof.Proof.Gen.KernelIdeal.Skeleton
import proofs.«401155_j5385888989602_3_alg».proof.Proof.Gen.ReferenceIdeal.Run
import proofs.«401155_j5385888989602_3_alg».proof.Proof.Spec
import proofs.«401155_j5385888989602_3_alg».proof.Proof.Consts
import proofs.«401155_j5385888989602_3_alg».proof.Proof.LibReal
import Idealize.ShloMosaic.Lib.ValueIdx
import Idealize.ShloMosaic.Lib.ValueLayout
import Idealize.ShloMosaic.Lib.IdealHost
import Idealize.ShloMosaic.Lib.Pipeline.Value

noncomputable section

open scoped BigOperators

namespace Cert.Whitening.TraceSig

open Idealize.ShloMosaic Idealize.ShloMosaic.TcCoe Idealize.ShloMosaic.ValueIdx Idealize.ShloMosaic.StableHlo
open Cert.KernelIdeal.Gen

variable (V0 : Valuation Cert.ReferenceIdeal.τ Cert.ReferenceIdeal.sig (Elt Ideal))

/-- Two coordinates below 128, as 32-bit words, are equal words exactly when they are equal. -/
private theorem cmpi_eq_coord (a b : Fin 128) :
    IntOp.cmpi .eq (BitVec.ofNat 32 a.val) (BitVec.ofNat 32 b.val) = if a = b then 1#1 else 0#1 := by
  unfold IntOp.cmpi
  by_cases h : a = b
  · subst h; simp
  · rw [if_neg h]
    have hne : BitVec.ofNat 32 a.val ≠ BitVec.ofNat 32 b.val := by
      intro e
      have e' := congrArg BitVec.toNat e
      rw [BitVec.toNat_ofNat, BitVec.toNat_ofNat] at e'
      have ha := a.isLt; have hb := b.isLt
      apply h; apply Fin.ext; omega
    show BitVec.ofBool (BitVec.ofNat 32 a.val == BitVec.ofNat 32 b.val) = 0#1
    rw [beq_eq_false_iff_ne.mpr hne]; rfl

/-- Entry (a, b) of each of the kernel's four identity matrices. -/
private theorem eyeK_apply (g : Fin 4) (a b : Fin 128) :
    (k1_pay3 (F := Ideal) : FVec Ideal TG .f32) (ix3 g a b) = if a = b then 1 else 0 := by
  unfold k1_pay3
  refine (broadcastTo_apply _ _ (ix3 g a b) (ix3 (0 : Fin 1) a b) (fun c => match c with
    | ⟨0, _⟩ => rfl | ⟨1, _⟩ => rfl | ⟨2, _⟩ => rfl)).trans ?_
  refine (shapeCast_apply _ _ (ix3 (0 : Fin 1) a b) (ix3 (0 : Fin 1) a b) rfl).trans ?_
  refine (shapeCast_ab_1ab_apply _ _ (0 : Fin 1) a b).trans ?_
  rw [sitofp_apply, extui_apply]
  show FloatOps.sitofp (F := Ideal) .f32 ((IntOp.cmpi .eq (iota Kind.tc Cert.KernelIdeal.S128x128 32 [0] iota_S128x128_d0_w32 (ix2 a b)) (iota Kind.tc Cert.KernelIdeal.S128x128 32 [1] iota_S128x128_d1_w32 (ix2 a b))).setWidth 32) = _
  rw [iota_single_apply, iota_single_apply]
  show FloatOps.sitofp (F := Ideal) .f32 ((IntOp.cmpi .eq (BitVec.ofNat 32 a.val) (BitVec.ofNat 32 b.val)).setWidth 32) = _
  rw [cmpi_eq_coord]
  by_cases h : a = b
  · rw [if_pos h, if_pos h]
    show ((((BitVec.setWidth 32 1#1).toInt : ℤ) : ℝ) : EReal) = 1
    have e : (BitVec.setWidth 32 1#1).toInt = 1 := by decide
    rw [e]; norm_num
  · rw [if_neg h, if_neg h]
    show ((((BitVec.setWidth 32 0#1).toInt : ℤ) : ℝ) : EReal) = 0
    have e : (BitVec.setWidth 32 0#1).toInt = 0 := by decide
    rw [e]; norm_num

/-- Entry (a, b) of the reference's identity matrix. -/
private theorem eyeR_apply (a b : Fin 128) :
    Cert.ReferenceIdeal.Value.res_main_v18 (F := Ideal) V0 (ix2 a b) = (if a = b then 1 else 0 : EReal) := by
  unfold Cert.ReferenceIdeal.Value.res_main_v18
  show FloatOps.uitofp (F := Ideal) .f32 (IntOp.cmpi .eq
      (IntOp.addi (BitVec.ofNat 32 a.val) (broadcastInDim Cert.ReferenceIdeal.S128x128 ![] Cert.ReferenceIdeal.Gen.bcast_S_S128x128
            (constantI Cert.ReferenceIdeal.S_ 32 0#32) (ix2 a b)))
      (BitVec.ofNat 32 b.val)) = _
  rw [broadcastInDim_scalar_apply]
  show FloatOps.uitofp (F := Ideal) .f32 (IntOp.cmpi .eq (BitVec.ofNat 32 a.val + 0#32) (BitVec.ofNat 32 b.val)) = _
  rw [BitVec.add_zero, cmpi_eq_coord]
  by_cases h : a = b
  · rw [if_pos h, if_pos h]
    show ((((1#1 : BitVec 1).toNat : ℕ) : ℝ) : EReal) = 1
    norm_num
  · rw [if_neg h, if_neg h]
    show ((((0#1 : BitVec 1).toNat : ℕ) : ℝ) : EReal) = 0
    norm_num

/-- A rank-3 index set is the product of its three coordinate ranges. -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over it is the triple sum over the coordinates. -/
private theorem sum_idx3 {M : Type*} [AddCommMonoid M] {n0 n1 n2 : Nat} (f : (⟨3, ![n0, n1, n2]⟩ : Shape).Idx → M) :
    ∑ i, f i = ∑ g : Fin n0, ∑ a : Fin n1, ∑ b : Fin n2, f (ix3 g a b) := by
  rw [← Equiv.sum_comp (idxEquiv3 (n0 := n0) (n1 := n1) (n2 := n2)).symm f, Fintype.sum_prod_type]
  refine Finset.sum_congr rfl fun g _ => ?_
  rw [Fintype.sum_prod_type]
  rfl

/-- Dropping the two member coordinates of (g, a, b) leaves the group g. -/
private theorem drop_ix3_eq_iff (h : TG.Reduces [1, 2] ⟨1, ![4]⟩) (g g' : Fin 4) (a b : Fin 128) :
    h.drop (ix3 g a b) = ix1 g' ↔ g = g' := by
  have e : (h.drop (ix3 g a b) 0 : Nat) = g.val := h.drop_apply_val_of_eq (ix3 g a b) 0 0
  constructor
  · intro he
    apply Fin.ext
    rw [← e, he]
  · intro hg
    subst hg
    funext c
    match c with
    | ⟨0, _⟩ => exact Fin.ext e

/-- The sum over the indices that drop to group g is the double sum over that group's members. -/
private theorem sum_fiber (h : TG.Reduces [1, 2] ⟨1, ![4]⟩) (x : TG.Idx → EReal) (g : Fin 4) :
    ∑ i ∈ Finset.univ.filter (fun i => h.drop i = ix1 g), x i = ∑ a : Fin 128, ∑ b : Fin 128, x (ix3 g a b) := by
  rw [Finset.sum_filter, sum_idx3, Finset.sum_eq_single g]
  · refine Finset.sum_congr rfl fun a _ => Finset.sum_congr rfl fun b _ => ?_
    rw [if_pos ((drop_ix3_eq_iff h g g a b).mpr rfl)]
  · intro g' _ hne
    refine Finset.sum_eq_zero fun a _ => Finset.sum_eq_zero fun b _ => ?_
    rw [if_neg (fun e => hne ((drop_ix3_eq_iff h g' g a b).mp e))]
  · intro hg
    exact absurd (Finset.mem_univ g) hg

/-- A double sum that keeps only the diagonal is the sum of the diagonal. -/
private theorem sum_diag (f : Fin 128 → Fin 128 → EReal) :
    ∑ a : Fin 128, ∑ b : Fin 128, (if a = b then f a b else 0) = ∑ a : Fin 128, f a a := by
  refine Finset.sum_congr rfl fun a _ => ?_
  rw [Finset.sum_ite_eq Finset.univ a (f a), if_pos (Finset.mem_univ a)]

/-- The kernel's trace of group g: the sum over the group of the covariance times the identity is the sum of the
    diagonal. -/
private theorem trK_apply (C : FVec Ideal TG .f32) (g : Fin 4) (u v : Fin 1) :
    shapeCast Cert.KernelIdeal.S4x1x1 (multiReduction .add [1, 2] Cert.KernelIdeal.S4 (mulf C (k1_pay3 (F := Ideal))) 0x00000000#32
      reduces_S4x128x128_S4 (.inl rfl) rfl) shapeCasts_S4_S4x1x1 (ix3 g u v) = ∑ a : Fin 128, C (ix3 g a a) := by
  refine (shapeCast_apply _ _ (ix3 g u v) (ix1 g) (by
    rw [Shape.rowMajor_val_one, Shape.rowMajor_val_three]
    show g.val = (g.val * 1 + u.val) * 1 + v.val
    omega)).trans ?_
  show Ideal.reduceAdd reduces_S4x128x128_S4 (mulf C (k1_pay3 (F := Ideal))) (ix1 g) = _
  unfold Ideal.reduceAdd
  refine (sum_fiber reduces_S4x128x128_S4 _ g).trans ?_
  refine Eq.trans ?_ (sum_diag fun a b => C (ix3 g a b))
  refine Finset.sum_congr rfl fun a _ => Finset.sum_congr rfl fun b _ => ?_
  rw [mulf_apply, eyeK_apply]
  by_cases h : a = b
  · rw [if_pos h, if_pos h, mul_one]
  · rw [if_neg h, if_neg h, mul_zero]

/-- The reference's trace of group g: the sum over the group of the covariance masked to the diagonal. -/
private theorem trR_apply (C : FVec Ideal TG .f32) (g : Fin 4) (u v : Fin 1) :
    broadcastInDim Cert.ReferenceIdeal.S4x1x1 ![0] Cert.ReferenceIdeal.Gen.bcast_S4_S4x1x1_0
      (Host.reduceAdd (select (broadcastInDim Cert.ReferenceIdeal.S4x128x128 ![1, 2] Cert.ReferenceIdeal.Gen.bcast_S128x128_S4x128x128_1_2
          (cmpi .eq (iotaInDim Cert.ReferenceIdeal.S128x128 32 0) (iotaInDim Cert.ReferenceIdeal.S128x128 32 1))) C
          (broadcastInDim Cert.ReferenceIdeal.S4x128x128 ![] Cert.ReferenceIdeal.Gen.bcast_S_S4x128x128 (constant Cert.ReferenceIdeal.S_ .f32 0x00000000#32)))
        (constant Cert.ReferenceIdeal.S_ .f32 0x00000000#32) Cert.ReferenceIdeal.Gen.reducesTo_S4x128x128_S4_d1_2 Cert.ReferenceIdeal.Gen.h_S_)
      (ix3 g u v) = ∑ a : Fin 128, C (ix3 g a a) := by
  refine (broadcastInDim_apply _ _ _ (ix3 g u v) (ix1 g) (fun c => match c with | ⟨0, _⟩ => rfl)).trans ?_
  rw [hostReduceAdd_apply, constant_apply, Ideal.ofBits_zero_f32]
  unfold Ideal.hostReduceAdd
  rw [zero_add, Shape.ReducesTo.drop_eq_drop Cert.ReferenceIdeal.Gen.reducesTo_S4x128x128_S4_d1_2 reduces_S4x128x128_S4]
  refine (sum_fiber reduces_S4x128x128_S4 _ g).trans ?_
  refine Eq.trans ?_ (sum_diag fun a b => C (ix3 g a b))
  refine Finset.sum_congr rfl fun a _ => Finset.sum_congr rfl fun b _ => ?_
  rw [select_apply, broadcastInDim_scalar_apply, constant_apply, Ideal.ofBits_zero_f32]
  rw [broadcastInDim_apply _ _ _ (ix3 g a b) (ix2 a b) (fun c => match c with | ⟨0, _⟩ => rfl | ⟨1, _⟩ => rfl)]
  show Scalar.select (IntOp.cmpi .eq (BitVec.ofNat 32 a.val) (BitVec.ofNat 32 b.val)) (C (ix3 g a b)) 0 = _
  rw [cmpi_eq_coord]
  by_cases h : a = b
  · rw [if_pos h, if_pos h, select_one]
  · rw [if_neg h, if_neg h, select_zero]

/-- The kernel's identity matrices are the reference's. -/
theorem eye_eq : (k1_pay3 (F := Ideal) : FVec Ideal TG .f32) = Cert.ReferenceIdeal.Value.res_main_v36 (F := Ideal) V0 := by
  funext j
  obtain ⟨g, a, b, rfl⟩ : ∃ (g : Fin 4) (a b : Fin 128), j = ix3 g a b := ⟨j 0, j 1, j 2, eq_ix3 j⟩
  rw [eyeK_apply]
  unfold Cert.ReferenceIdeal.Value.res_main_v36
  refine Eq.symm ((broadcastInDim_apply _ _ _ (ix3 g a b) (ix2 a b) (fun c => match c with
    | ⟨0, _⟩ => rfl | ⟨1, _⟩ => rfl)).trans ?_)
  exact eyeR_apply V0 a b

/-- Its entries are 0 and 1. -/
theorem eye_finite : Finite (S := TG) (k1_pay3 (F := Ideal)) := by
  intro j
  obtain ⟨g, a, b, rfl⟩ : ∃ (g : Fin 4) (a b : Fin 128), j = ix3 g a b := ⟨j 0, j 1, j 2, eq_ix3 j⟩
  rw [eyeK_apply]
  by_cases h : a = b
  · exact ⟨1, by rw [if_pos h]; norm_num⟩
  · exact ⟨0, by rw [if_neg h]; norm_num⟩

/-- Equal covariances have equal traces. -/
theorem tr_eq (x0 : FVec Ideal TRow .f32) (x1 : FVec Ideal TG .f32)
    (hC : (k1_pay4 (F := Ideal) x0 x1 : FVec Ideal TG .f32) = Cert.ReferenceIdeal.Value.res_main_v25 (F := Ideal) V0) :
    (k1_pay5 (F := Ideal) x0 x1 : FVec Ideal TT .f32) = Cert.ReferenceIdeal.Value.res_main_v33 (F := Ideal) V0 := by
  funext j
  obtain ⟨g, u, v, rfl⟩ : ∃ (g : Fin 4) (u v : Fin 1), j = ix3 g u v := ⟨j 0, j 1, j 2, eq_ix3 j⟩
  have e2 := trR_apply (Cert.ReferenceIdeal.Value.res_main_v25 (F := Ideal) V0) g u v
  unfold k1_pay5
  refine (trK_apply _ g u v).trans ?_
  rw [hC]
  unfold Cert.ReferenceIdeal.Value.res_main_v33
  exact e2.symm

/-- Equal covariances have equal normalised covariances. -/
theorem sig_eq (x0 : FVec Ideal TRow .f32) (x1 : FVec Ideal TG .f32)
    (hC : (k1_pay4 (F := Ideal) x0 x1 : FVec Ideal TG .f32) = Cert.ReferenceIdeal.Value.res_main_v25 (F := Ideal) V0) :
    (k1_pay6 (F := Ideal) x0 x1 : FVec Ideal TG .f32) = Cert.ReferenceIdeal.Value.res_main_v35 (F := Ideal) V0 := by
  funext j
  obtain ⟨g, a, b, rfl⟩ : ∃ (g : Fin 4) (a b : Fin 128), j = ix3 g a b := ⟨j 0, j 1, j 2, eq_ix3 j⟩
  unfold k1_pay6 Cert.ReferenceIdeal.Value.res_main_v35
  rw [divf_apply, hostDivf_apply]
  rw [broadcastTo_apply _ _ (ix3 g a b) (ix3 g (0 : Fin 1) (0 : Fin 1)) (fun c => match c with
    | ⟨0, _⟩ => rfl | ⟨1, _⟩ => rfl | ⟨2, _⟩ => rfl)]
  rw [broadcastInDim_apply _ _ _ (ix3 g a b) (ix3 g (0 : Fin 1) (0 : Fin 1)) (fun c => match c with
    | ⟨0, _⟩ => rfl | ⟨1, _⟩ => rfl | ⟨2, _⟩ => rfl)]
  rw [tr_eq V0 x0 x1 hC, hC]

/-- The trace of a real covariance is the real sum of its diagonal. -/
theorem tr_isReal (r : TG.Idx → ℝ) (hC : IsReal (S := TG) (Cert.ReferenceIdeal.Value.res_main_v25 (F := Ideal) V0) r) :
    IsReal (S := TT) (Cert.ReferenceIdeal.Value.res_main_v33 (F := Ideal) V0) (fun j => ∑ a : Fin 128, r (ix3 (j 0) a a)) := by
  intro j
  obtain ⟨g, u, v, rfl⟩ : ∃ (g : Fin 4) (u v : Fin 1), j = ix3 g u v := ⟨j 0, j 1, j 2, eq_ix3 j⟩
  unfold Cert.ReferenceIdeal.Value.res_main_v33
  refine (trR_apply _ g u v).trans ?_
  show _ = ((∑ a : Fin 128, r (ix3 g a a) : ℝ) : EReal)
  rw [← Cert.LibReal.coe_sum]
  exact Finset.sum_congr rfl fun a _ => hC (ix3 g a a)

/-- A real covariance of positive trace has a real normalised covariance. -/
theorem sig_finite (r : TG.Idx → ℝ) (hC : IsReal (S := TG) (Cert.ReferenceIdeal.Value.res_main_v25 (F := Ideal) V0) r)
    (hpos : ∀ g : Fin 4, 0 < ∑ a : Fin 128, r (ix3 g a a)) :
    Finite (S := TG) (Cert.ReferenceIdeal.Value.res_main_v35 (F := Ideal) V0) := by
  intro j
  obtain ⟨g, a, b, rfl⟩ : ∃ (g : Fin 4) (a b : Fin 128), j = ix3 g a b := ⟨j 0, j 1, j 2, eq_ix3 j⟩
  have hT : Cert.ReferenceIdeal.Value.res_main_v33 (F := Ideal) V0 (ix3 g (0 : Fin 1) (0 : Fin 1))
      = ((∑ a' : Fin 128, r (ix3 g a' a') : ℝ) : EReal) := tr_isReal V0 r hC (ix3 g (0 : Fin 1) (0 : Fin 1))
  unfold Cert.ReferenceIdeal.Value.res_main_v35
  rw [hostDivf_apply]
  rw [broadcastInDim_apply _ _ _ (ix3 g a b) (ix3 g (0 : Fin 1) (0 : Fin 1)) (fun c => match c with
    | ⟨0, _⟩ => rfl | ⟨1, _⟩ => rfl | ⟨2, _⟩ => rfl)]
  rw [hC (ix3 g a b), hT]
  exact ⟨_, Cert.LibReal.div_coe_coe _ _ (ne_of_gt (hpos g))⟩

end Cert.Whitening.TraceSig

end
-- ==== Proof.NS.lean ====
/-
  The iteration: on real matrices the kernel's product in four parts (leading and residual parts of both operands)
  is the plain product, because a real number minus itself is zero and zero times anything is zero; so the kernel's
  three steps and final scaling are the reference's, and every iterate stays real.
-/
import proofs.«401155_j5385888989602_3_alg».proof.Proof.WhK
import proofs.«401155_j5385888989602_3_alg».proof.Proof.WhR
import proofs.«401155_j5385888989602_3_alg».proof.Proof.Consts
import proofs.«401155_j5385888989602_3_alg».proof.Proof.LibReal
import Idealize.ShloMosaic.Lib.Pipeline.Value

noncomputable section

open scoped BigOperators

namespace Cert.Whitening.NS

open Idealize.ShloMosaic Idealize.ShloMosaic.TcCoe Idealize.ShloMosaic.ValueIdx
open Cert.KernelIdeal.Gen

/-- The contraction record of the kernel's products. -/
private abbrev dK := Cert.KernelIdeal.dot_S4x128x128_S4x128x128_S4x128x128_2_1_1_2_0_0
/-- The contraction record of the reference's products: the same lists. -/
private abbrev dR := Cert.ReferenceIdeal.dot_S4x128x128_S4x128x128_S4x128x128_2_1_1_2_0_0

private theorem dK_eq_dR : dK = dR := rfl

/-- The zero array the kernel's products accumulate into. -/
private abbrev Z : FVec Ideal TG .f32 := constant TG .f32 0x00000000#32

/-- The zero array as an operand. -/
private abbrev O : FVec Ideal TG .bf16 := fun _ => (0 : EReal)

/-- The leading part of an array: itself. -/
private abbrev hi (P : FVec Ideal TG .f32) : FVec Ideal TG .bf16 := truncf .bf16 P (by decide)
/-- The residual part of an array: it minus its leading part. -/
private abbrev lo (P : FVec Ideal TG .f32) : FVec Ideal TG .bf16 := truncf .bf16 (subf P P) (by decide)

/-- The product in four parts. -/
private def fp (P Q : FVec Ideal TG .f32) : FVec Ideal TG .f32 :=
  addf (addf (addf (matmul dK none (hi P) (hi Q) Z) (matmul dK none (hi P) (lo Q) Z)) (matmul dK none (lo P) (hi Q) Z))
    (matmul dK none (lo P) (lo Q) Z)

/-- The residual part of a real array is the zero array. -/
private theorem lo_zero {P : FVec Ideal TG .f32} (hP : Finite (S := TG) P) : lo P = O := by
  funext j
  obtain ⟨r, hr⟩ := hP j
  show P j - P j = 0
  rw [hr]
  exact Cert.LibReal.coe_sub_self r

/-- A product with the zero array on the right is the zero array. -/
private theorem matmul_zero_right (A : FVec Ideal TG .bf16) : matmul dK none A O Z = fun _ => 0 := by
  funext j
  exact (Ideal.matmul_constant_zero_apply dK none A O j).trans (Finset.sum_eq_zero fun k _ => mul_zero _)

/-- A product with the zero array on the left is the zero array. -/
private theorem matmul_zero_left (B : FVec Ideal TG .bf16) : matmul dK none O B Z = fun _ => 0 := by
  funext j
  exact (Ideal.matmul_constant_zero_apply dK none O B j).trans (Finset.sum_eq_zero fun k _ => zero_mul _)

/-- On real arrays the product in four parts is the plain product. -/
private theorem four_part {P Q : FVec Ideal TG .f32} (hP : Finite (S := TG) P) (hQ : Finite (S := TG) Q) :
    fp P Q = Host.dotGeneral dR none P Q := by
  unfold fp
  rw [lo_zero hP, lo_zero hQ, matmul_zero_right, matmul_zero_left, matmul_zero_left]
  funext j
  rw [addf_apply, addf_apply, addf_apply, add_zero, add_zero, add_zero]
  exact (Ideal.matmul_constant_zero_apply dK none (hi P) (hi Q) j).trans (Ideal.dotGeneral_apply dR none .single P Q j).symm

/-- The splat of the literal three. -/
private abbrev c3 : FVec Ideal TG .f32 := broadcast TG (Scalar.ofBits (F := Ideal) .f32 0x40400000#32)
/-- The splat of the literal two. -/
private abbrev c2 : FVec Ideal TG .f32 := broadcast TG (Scalar.ofBits (F := Ideal) .f32 0x40000000#32)

/-- The kernel's numerator of one step: three times the iterate minus the triple product with the covariance, each
    product in four parts. -/
private def numK (P Sg : FVec Ideal TG .f32) : FVec Ideal TG .f32 :=
  subf (mulf c3 P) (fp (fp (fp P P) P) Sg)

/-- The kernel's step. -/
private def stepK (P Sg : FVec Ideal TG .f32) : FVec Ideal TG .f32 := divf (numK P Sg) c2

private theorem pay11_eq (P Sg : FVec Ideal TG .f32) : k1_pay11 P Sg (hi P) (lo P) (hi P) (lo P) Z = stepK P Sg := rfl

private theorem pay15_eq (P Sg : FVec Ideal TG .f32) : k1_pay15 Sg P (hi P) (lo P) (hi P) = stepK P Sg := rfl

private theorem pay17_eq (P Sg : FVec Ideal TG .f32) : k1_pay17 Sg P (hi P) = numK P Sg := rfl

private theorem iter1_eq (Sg : FVec Ideal TG .f32) : iter1 (F := Ideal) Sg = stepK (k1_pay3 (F := Ideal)) Sg := rfl

private theorem iter2_eq (Sg : FVec Ideal TG .f32) : iter2 (F := Ideal) Sg = stepK (iter1 (F := Ideal) Sg) Sg := rfl

private theorem whK_eq (T : FVec Ideal TT .f32) (Sg : FVec Ideal TG .f32) :
    whK (F := Ideal) T Sg = divf (stepK (iter2 (F := Ideal) Sg) Sg) (broadcastTo TG (sqrt T) (by decide)) := rfl

/-- The reference's splat of the literal three. -/
private abbrev c3R : FVec Ideal TG .f32 :=
  broadcastInDim Cert.ReferenceIdeal.S4x128x128 ![] Cert.ReferenceIdeal.Gen.bcast_S_S4x128x128 (constant Cert.ReferenceIdeal.S_ .f32 0x40400000#32)
/-- The reference's splat of the literal two. -/
private abbrev c2R : FVec Ideal TG .f32 :=
  broadcastInDim Cert.ReferenceIdeal.S4x128x128 ![] Cert.ReferenceIdeal.Gen.bcast_S_S4x128x128 (constant Cert.ReferenceIdeal.S_ .f32 0x40000000#32)

private theorem c3_apply (j : TG.Idx) : c3 j = ((3 : ℝ) : EReal) := Consts.ofBits_three
private theorem c2_apply (j : TG.Idx) : c2 j = ((2 : ℝ) : EReal) := Consts.ofBits_two
private theorem c3R_eq : c3R = c3 := rfl
private theorem c2R_eq : c2R = c2 := rfl

/-- A product of real arrays is real. -/
private theorem fin_dot {P Q : FVec Ideal TG .f32} (hP : Finite (S := TG) P) (hQ : Finite (S := TG) Q) :
    Finite (S := TG) (Host.dotGeneral dR none P Q) := by
  choose p hp using hP
  choose q hq using hQ
  intro j
  refine ⟨∑ k : dR.contr.Idx, p (dR.lhsIdx j k) * q (dR.rhsIdx j k), ?_⟩
  refine (Ideal.dotGeneral_apply dR none .single P Q j).trans ?_
  rw [← Cert.LibReal.coe_sum]
  exact Finset.sum_congr rfl fun k _ => by rw [hp, hq, EReal.coe_mul]

/-- Three times a real array minus a real array is real. -/
private theorem fin_num {P D : FVec Ideal TG .f32} (hP : Finite (S := TG) P) (hD : Finite (S := TG) D) :
    Finite (S := TG) (subf (mulf c3 P) D) := by
  intro j
  obtain ⟨p, hp⟩ := hP j
  obtain ⟨d, hd⟩ := hD j
  refine ⟨3 * p - d, ?_⟩
  rw [subf_apply, mulf_apply, c3_apply, hp, hd, ← EReal.coe_mul, ← EReal.coe_sub]

/-- Half a real array is real. -/
private theorem fin_half {N : FVec Ideal TG .f32} (hN : Finite (S := TG) N) : Finite (S := TG) (divf N c2) := by
  intro j
  obtain ⟨n, hn⟩ := hN j
  refine ⟨n / 2, ?_⟩
  rw [divf_apply, c2_apply, hn]
  exact Cert.LibReal.div_coe_coe n 2 (by norm_num)

/-- On real arrays the kernel's numerator is the reference's. -/
private theorem numK_eq {P Sg : FVec Ideal TG .f32} (hP : Finite (S := TG) P) (hS : Finite (S := TG) Sg) :
    numK P Sg = subf (mulf c3 P) (Host.dotGeneral dR none (Host.dotGeneral dR none (Host.dotGeneral dR none P P) P) Sg) := by
  unfold numK
  rw [four_part hP hP, four_part (fin_dot hP hP) hP, four_part (fin_dot (fin_dot hP hP) hP) hS]

/-- On real arrays the kernel's step is the reference's. -/
private theorem stepK_eq {P Sg : FVec Ideal TG .f32} (hP : Finite (S := TG) P) (hS : Finite (S := TG) Sg) :
    stepK P Sg = stepR (F := Ideal) P Sg := by
  unfold stepK
  rw [numK_eq hP hS]
  rfl

/-- The kernel's numerator of real arrays is real. -/
private theorem fin_numK {P Sg : FVec Ideal TG .f32} (hP : Finite (S := TG) P) (hS : Finite (S := TG) Sg) :
    Finite (S := TG) (numK P Sg) := by
  rw [numK_eq hP hS]
  exact fin_num hP (fin_dot (fin_dot (fin_dot hP hP) hP) hS)

/-- The kernel's step of real arrays is real. -/
private theorem fin_stepK {P Sg : FVec Ideal TG .f32} (hP : Finite (S := TG) P) (hS : Finite (S := TG) Sg) :
    Finite (S := TG) (stepK P Sg) := fin_half (fin_numK hP hS)

/-- The kernel's spread of the trace's square root over a group, read at an index. -/
private theorem sqrtK_apply (T : FVec Ideal TT .f32) (g : Fin 4) (a b : Fin 128) :
    broadcastTo TG (sqrt T) (by decide) (ix3 g a b) = Ideal.sqrt (T (ix3 g 0 0)) :=
  broadcastTo_apply (sqrt T) _ (ix3 g a b) (ix3 g 0 0) (fun c => by fin_cases c <;> rfl)

/-- The reference's spread of the trace's square root over a group, read at an index. -/
private theorem sqrtR_apply (T : FVec Ideal TT .f32) (g : Fin 4) (a b : Fin 128) :
    broadcastInDim Cert.ReferenceIdeal.S4x128x128 ![0, 1, 2] Cert.ReferenceIdeal.Gen.bcast_S4x1x1_S4x128x128_0_1_2 (Host.sqrt T) (ix3 g a b)
      = Ideal.sqrt (T (ix3 g 0 0)) :=
  broadcastInDim_apply ![0, 1, 2] _ (Host.sqrt T) (ix3 g a b) (ix3 g 0 0) (fun c => by fin_cases c <;> rfl)

/-- The two spreads are one array. -/
private theorem sqrtK_eq_sqrtR (T : FVec Ideal TT .f32) :
    (broadcastTo TG (sqrt T) (by decide) : FVec Ideal TG .f32)
      = broadcastInDim Cert.ReferenceIdeal.S4x128x128 ![0, 1, 2] Cert.ReferenceIdeal.Gen.bcast_S4x1x1_S4x128x128_0_1_2 (Host.sqrt T) := by
  funext j
  obtain ⟨g, a, b, rfl⟩ : ∃ g a b, j = ix3 g a b := ⟨j 0, j 1, j 2, eq_ix3 j⟩
  rw [sqrtK_apply, sqrtR_apply]

/-- The kernel's whitening matrices are the reference's, from the same trace, normalised covariance and identity. -/
theorem wh_eq (T : FVec Ideal TT .f32) (Sg : FVec Ideal TG .f32)
    (hT : ∀ j, ∃ r : ℝ, 0 < r ∧ T j = (r : EReal)) (hS : Finite (S := TG) Sg) (hP : Finite (S := TG) (k1_pay3 (F := Ideal))) :
    (whK (F := Ideal) T Sg : FVec Ideal TG .f32) = whR (F := Ideal) T Sg (k1_pay3 (F := Ideal)) := by
  have h1 : Finite (S := TG) (stepK (k1_pay3 (F := Ideal)) Sg) := fin_stepK hP hS
  have h2 : Finite (S := TG) (stepK (stepK (k1_pay3 (F := Ideal)) Sg) Sg) := fin_stepK h1 hS
  rw [whK_eq, iter2_eq, iter1_eq, stepK_eq h2 hS, stepK_eq h1 hS, stepK_eq hP hS, sqrtK_eq_sqrtR]
  rfl

/-- They are real. -/
theorem wh_finite (T : FVec Ideal TT .f32) (Sg : FVec Ideal TG .f32)
    (hT : ∀ j, ∃ r : ℝ, 0 < r ∧ T j = (r : EReal)) (hS : Finite (S := TG) Sg) (hP : Finite (S := TG) (k1_pay3 (F := Ideal))) :
    Finite (S := TG) (whK (F := Ideal) T Sg) := by
  have h1 : Finite (S := TG) (stepK (k1_pay3 (F := Ideal)) Sg) := fin_stepK hP hS
  have h2 : Finite (S := TG) (stepK (stepK (k1_pay3 (F := Ideal)) Sg) Sg) := fin_stepK h1 hS
  have h3 : Finite (S := TG) (stepK (stepK (stepK (k1_pay3 (F := Ideal)) Sg) Sg) Sg) := fin_stepK h2 hS
  rw [whK_eq, iter2_eq, iter1_eq]
  intro j
  obtain ⟨g, a, b, rfl⟩ : ∃ g a b, j = ix3 g a b := ⟨j 0, j 1, j 2, eq_ix3 j⟩
  obtain ⟨x, hx⟩ := h3 (ix3 g a b)
  obtain ⟨r, hr0, hr⟩ := hT (ix3 g 0 0)
  refine ⟨x / Real.sqrt r, ?_⟩
  rw [divf_apply, sqrtK_apply, hx, hr, Cert.LibReal.sqrt_coe_nonneg r hr0.le]
  exact Cert.LibReal.div_coe_coe x (Real.sqrt r) (Real.sqrt_pos.mpr hr0).ne'

end Cert.Whitening.NS

end
-- ==== Proof.Final.lean ====
/-
  The last step on both sides is the same sum: the kernel contracts the centred row with a whitening matrix row
  sample by sample, the reference contracts the whitening matrix with the centred, transposed and grouped input
  and lays the result back out; the scale and the shift are applied per channel on both sides.
-/
import proofs.«401155_j5385888989602_3_alg».proof.Proof.Gen.KernelIdeal.Skeleton
import proofs.«401155_j5385888989602_3_alg».proof.Proof.WhR
import proofs.«401155_j5385888989602_3_alg».proof.Proof.Spec
import Idealize.ShloMosaic.Lib.Pipeline.Value
import Idealize.ShloMosaic.Lib.ValueIdx
import Idealize.ShloMosaic.PureOps.Ideal.Laws

noncomputable section

open scoped BigOperators

namespace Cert.Whitening.Final

open Idealize.ShloMosaic Idealize.ShloMosaic.TcCoe Idealize.ShloMosaic.ValueIdx Idealize.ShloMosaic.StableHlo
open Cert.KernelIdeal.Gen

/-- The flat sample index of a batch, height and width position. -/
private def smp (b : Fin 32) (h w : Fin 48) : Fin 73728 :=
  ⟨(b.val * 48 + h.val) * 48 + w.val, by have := b.isLt; have := h.isLt; have := w.isLt; omega⟩

/-- The input read as samples by channels, at a sample and a channel, is the given array there. -/
private theorem X_apply (A : FVec Ideal TA .f32) (hsc : TA.ShapeCasts TX) (b : Fin 32) (h w : Fin 48) (c : Fin 512) :
    shapeCast TX A hsc (ix2 (smp b h w) c) = A (ix4 b h w c) := by
  apply shapeCast_apply
  rw [Shape.rowMajor_val_four, Shape.rowMajor_val_two]
  rfl

/-- The reference's channels-by-samples matrix at a channel and a sample is the given array there. -/
private theorem v1_apply (V0 : Valuation Cert.ReferenceIdeal.τ Cert.ReferenceIdeal.sig (Elt Ideal))
    (b : Fin 32) (h w : Fin 48) (c : Fin 512) :
    (Cert.ReferenceIdeal.Value.res_main_v1 (F := Ideal) V0 : FVec Ideal Cert.ReferenceIdeal.S512x73728 .f32) (ix2 c (smp b h w))
      = (V0 (Proc.devRef .tc Cert.ReferenceIdeal.main_arg0) : FVec Ideal TA .f32) (ix4 b h w c) := by
  unfold Cert.ReferenceIdeal.Value.res_main_v1
  show shapeCast Cert.ReferenceIdeal.S512x73728 _ _ _ = _
  rw [shapeCast_apply _ _ _ (ix4 c b h w)]
  · apply transpose_apply
    intro a
    fin_cases a <;> rfl
  · rw [Shape.rowMajor_val_four, Shape.rowMajor_val_two]
    show ((c.val * 32 + b.val) * 48 + h.val) * 48 + w.val = c.val * 73728 + ((b.val * 48 + h.val) * 48 + w.val)
    omega

/-- Every sample index is a batch, height and width position. -/
private theorem smp_surj (n : Fin 73728) : ∃ (b : Fin 32) (h w : Fin 48), n = smp b h w :=
  ⟨⟨n.val / 2304, by have := n.isLt; omega⟩, ⟨n.val / 48 % 48, Nat.mod_lt _ (by decide)⟩,
    ⟨n.val % 48, Nat.mod_lt _ (by decide)⟩,
    Fin.ext (by show n.val = (n.val / 2304 * 48 + n.val / 48 % 48) * 48 + n.val % 48; omega)⟩

/-- The reference's channels-by-samples matrix is the transpose of the samples-by-channels matrix. -/
private theorem v1_eq_X (V0 : Valuation Cert.ReferenceIdeal.τ Cert.ReferenceIdeal.sig (Elt Ideal)) (hsc : TA.ShapeCasts TX)
    (c : Fin 512) (n : Fin 73728) :
    (Cert.ReferenceIdeal.Value.res_main_v1 (F := Ideal) V0 : FVec Ideal Cert.ReferenceIdeal.S512x73728 .f32) (ix2 c n)
      = shapeCast TX (V0 (Proc.devRef .tc Cert.ReferenceIdeal.main_arg0) : FVec Ideal TA .f32) hsc (ix2 n c) := by
  obtain ⟨b, h, w, rfl⟩ := smp_surj n
  rw [v1_apply, X_apply]

/-- The kernel's mean of a channel: the column total over the number of samples. -/
private theorem mean_apply (X : FVec Ideal TX .f32) (c : Fin 512) :
    k1_pay2 (F := Ideal) (totF X) (ix2 0 c)
      = Ideal.div (∑ n : Fin 73728, X (ix2 n c)) (Ideal.ofBits .f32 0x47900000#32) := by
  unfold k1_pay2
  show Ideal.div (shapeCast _ (totF X) _ (ix2 0 c)) _ = _
  rw [shapeCast_apply _ _ _ (ix2 0 c) rfl]
  rfl

/-- The host's sum over the samples of a channels-by-samples matrix, from zero. -/
private theorem rowsum_apply (v : FVec Ideal Cert.ReferenceIdeal.S512x73728 .f32) (c : Fin 512) :
    (Host.reduceAdd v (constant (F := Ideal) Cert.ReferenceIdeal.S_ .f32 0x00000000#32)
        Cert.ReferenceIdeal.Gen.reducesTo_S512x73728_S512_d1 Cert.ReferenceIdeal.Gen.h_S_ : FVec Ideal Cert.ReferenceIdeal.S512 .f32) (ix1 c)
      = ∑ n : Fin 73728, v (ix2 c n) := by
  unfold Host.reduceAdd
  rw [Ideal.hostReduceAdd_def]
  rw [Ideal.hostReduceAdd_single _ (by decide : Cert.ReferenceIdeal.S512x73728.Reduces [1] Cert.ReferenceIdeal.S512)]
  rw [constant_apply, Ideal.ofBits_zero_f32, zero_add]
  show ∑ n : Fin 73728, v _ = _
  refine Finset.sum_congr rfl fun n _ => congrArg v ?_
  funext a; fin_cases a <;> rfl

/-- The reference's mean of a channel, spread over the samples. -/
private theorem refmean_apply (v : FVec Ideal Cert.ReferenceIdeal.S512x73728 .f32) (c : Fin 512) (n : Fin 73728) :
    broadcastInDim Cert.ReferenceIdeal.S512x73728 ![0, 1] Cert.ReferenceIdeal.Gen.bcast_S512x1_S512x73728_0_1
        (Host.divf (broadcastInDim Cert.ReferenceIdeal.S512x1 ![0] Cert.ReferenceIdeal.Gen.bcast_S512_S512x1_0
            (Host.reduceAdd v (constant (F := Ideal) Cert.ReferenceIdeal.S_ .f32 0x00000000#32)
              Cert.ReferenceIdeal.Gen.reducesTo_S512x73728_S512_d1 Cert.ReferenceIdeal.Gen.h_S_))
          (broadcastInDim Cert.ReferenceIdeal.S512x1 ![] Cert.ReferenceIdeal.Gen.bcast_S_S512x1
            (constant (F := Ideal) Cert.ReferenceIdeal.S_ .f32 0x47900000#32))) (ix2 c n)
      = Ideal.div (∑ n' : Fin 73728, v (ix2 c n')) (Ideal.ofBits .f32 0x47900000#32) := by
  rw [broadcastInDim_apply _ _ _ _ (ix2 c (0 : Fin 1)) (by intro a; fin_cases a <;> rfl)]
  show Ideal.div (broadcastInDim _ _ _ _ (ix2 c (0 : Fin 1))) (broadcastInDim _ _ _ _ (ix2 c (0 : Fin 1))) = _
  rw [broadcastInDim_apply _ _ _ _ (ix1 c) (by intro a; fin_cases a; rfl), rowsum_apply]
  rfl

/-- A channels-by-samples matrix that is the transpose of the samples-by-channels input, centred by the host along
    the samples and grouped, at a group, a member and a sample: the input there minus the kernel's mean of that
    channel. -/
private theorem centred_apply (v1 : FVec Ideal Cert.ReferenceIdeal.S512x73728 .f32) (X : FVec Ideal TX .f32)
    (hv : ∀ (c : Fin 512) (n : Fin 73728), v1 (ix2 c n) = X (ix2 n c)) (g : Fin 4) (k : Fin 128) (n : Fin 73728) :
    shapeCast Cert.ReferenceIdeal.S4x128x73728
        (subf v1 (broadcastInDim Cert.ReferenceIdeal.S512x73728 ![0, 1] Cert.ReferenceIdeal.Gen.bcast_S512x1_S512x73728_0_1
          (Host.divf (broadcastInDim Cert.ReferenceIdeal.S512x1 ![0] Cert.ReferenceIdeal.Gen.bcast_S512_S512x1_0
              (Host.reduceAdd v1 (constant (F := Ideal) Cert.ReferenceIdeal.S_ .f32 0x00000000#32)
                Cert.ReferenceIdeal.Gen.reducesTo_S512x73728_S512_d1 Cert.ReferenceIdeal.Gen.h_S_))
            (broadcastInDim Cert.ReferenceIdeal.S512x1 ![] Cert.ReferenceIdeal.Gen.bcast_S_S512x1
              (constant (F := Ideal) Cert.ReferenceIdeal.S_ .f32 0x47900000#32)))))
        Cert.ReferenceIdeal.Gen.shapeCasts_S512x73728_S4x128x73728 (ix3 g k n)
      = X (ix2 n (ch g k)) - k1_pay2 (F := Ideal) (totF X) (ix2 0 (ch g k)) := by
  rw [shapeCast_apply _ _ _ (ix2 (ch g k) n) (by
    rw [Shape.rowMajor_val_two, Shape.rowMajor_val_three]
    show (128 * g.val + k.val) * 73728 + n.val = (g.val * 128 + k.val) * 73728 + n.val
    omega)]
  rw [subf_apply, refmean_apply, hv, mean_apply, Finset.sum_congr rfl fun n' _ => hv (ch g k) n']

/-- The reference's centred, grouped input at a group, a member and a sample. -/
private theorem v8_apply (V0 : Valuation Cert.ReferenceIdeal.τ Cert.ReferenceIdeal.sig (Elt Ideal)) (hsc : TA.ShapeCasts TX)
    (g : Fin 4) (k : Fin 128) (n : Fin 73728) :
    (Cert.ReferenceIdeal.Value.res_main_v8 (F := Ideal) V0 : FVec Ideal Cert.ReferenceIdeal.S4x128x73728 .f32) (ix3 g k n)
      = (shapeCast TX (V0 (Proc.devRef .tc Cert.ReferenceIdeal.main_arg0) : FVec Ideal TA .f32) hsc : FVec Ideal TX .f32)
            (ix2 n (ch g k))
        - k1_pay2 (F := Ideal) (totF (shapeCast TX (V0 (Proc.devRef .tc Cert.ReferenceIdeal.main_arg0) : FVec Ideal TA .f32) hsc))
            (ix2 0 (ch g k)) := by
  unfold Cert.ReferenceIdeal.Value.res_main_v8
  exact centred_apply _ _ (v1_eq_X V0 hsc) g k n

/-- The reference's product of a whitening matrix with a grouped matrix, at a group, a member and a sample. -/
private theorem dot_apply (Wh : FVec Ideal TG .f32) (v : FVec Ideal Cert.ReferenceIdeal.S4x128x73728 .f32)
    (g : Fin 4) (a : Fin 128) (n : Fin 73728) :
    (Host.dotGeneral Cert.ReferenceIdeal.dot_S4x128x128_S4x128x73728_S4x128x73728_2_1_1_2_0_0 none Wh v
        : FVec Ideal Cert.ReferenceIdeal.S4x128x73728 .f32) (ix3 g a n)
      = ∑ k : Fin 128, Wh (ix3 g a k) * v (ix3 g k n) := by
  simp only [Host.dotGeneral]
  rw [Ideal.dotGeneral_apply]
  rw [← Equiv.sum_comp (contrEquiv1 Cert.ReferenceIdeal.dot_S4x128x128_S4x128x73728_S4x128x73728_2_1_1_2_0_0 128 rfl rfl).symm]
  refine Finset.sum_congr rfl fun k _ => ?_
  congr 1
  · refine congrArg Wh ?_
    funext d; fin_cases d
    · rfl
    · rfl
    · exact Fin.ext (contrEquiv1_symm_val Cert.ReferenceIdeal.dot_S4x128x128_S4x128x73728_S4x128x73728_2_1_1_2_0_0 128 rfl rfl k)
  · refine congrArg v ?_
    funext d; fin_cases d
    · rfl
    · exact Fin.ext (contrEquiv1_symm_val Cert.ReferenceIdeal.dot_S4x128x128_S4x128x73728_S4x128x73728_2_1_1_2_0_0 128 rfl rfl k)
    · rfl

/-- The reference's last step from a whitening matrix, a grouped matrix, a scale and a shift, at a batch, height,
    width and channel position: the whitening matrix row of the channel against the grouped matrix's column of the
    sample, times the channel's scale, plus its shift. -/
private theorem res_apply (Wh : FVec Ideal TG .f32) (v8 : FVec Ideal Cert.ReferenceIdeal.S4x128x73728 .f32)
    (G' B' : FVec Ideal TP .f32) (b : Fin 32) (h w : Fin 48) (c : Fin 512) :
    addf (mulf (transpose Cert.ReferenceIdeal.S32x48x48x512 [1, 2, 3, 0]
            (shapeCast Cert.ReferenceIdeal.S512x32x48x48
              (Host.dotGeneral Cert.ReferenceIdeal.dot_S4x128x128_S4x128x73728_S4x128x73728_2_1_1_2_0_0 none Wh v8)
              Cert.ReferenceIdeal.Gen.shapeCasts_S4x128x73728_S512x32x48x48)
            Cert.ReferenceIdeal.Gen.transposes_S512x32x48x48_S32x48x48x512_1_2_3_0)
          (broadcastInDim Cert.ReferenceIdeal.S32x48x48x512 ![0, 1, 2, 3]
            Cert.ReferenceIdeal.Gen.bcast_S1x1x1x512_S32x48x48x512_0_1_2_3 G'))
        (broadcastInDim Cert.ReferenceIdeal.S32x48x48x512 ![0, 1, 2, 3]
          Cert.ReferenceIdeal.Gen.bcast_S1x1x1x512_S32x48x48x512_0_1_2_3 B') (ix4 b h w c)
      = (∑ k : Fin 128, Wh (ix3 (grp c) (mem c) k) * v8 (ix3 (grp c) k (smp b h w))) * G' (ix4 0 0 0 c)
        + B' (ix4 0 0 0 c) := by
  rw [addf_apply, mulf_apply]
  rw [transpose_apply _ _ _ (ix4 b h w c) (ix4 c b h w) (by intro a; fin_cases a <;> rfl)]
  rw [shapeCast_apply _ _ (ix4 c b h w) (ix3 (grp c) (mem c) (smp b h w)) (by
    rw [Shape.rowMajor_val_three, Shape.rowMajor_val_four]
    show ((c.val / 128) * 128 + c.val % 128) * 73728 + ((b.val * 48 + h.val) * 48 + w.val)
      = ((c.val * 32 + b.val) * 48 + h.val) * 48 + w.val
    omega)]
  rw [dot_apply]
  rw [broadcastInDim_apply _ _ G' (ix4 b h w c) (ix4 0 0 0 c) (by intro a; fin_cases a <;> rfl)]
  rw [broadcastInDim_apply _ _ B' (ix4 b h w c) (ix4 0 0 0 c) (by intro a; fin_cases a <;> rfl)]

/-- The scale or shift read as one row of channels, at a channel, is the given array there. -/
private theorem row_apply (P : FVec Ideal TP .f32) (hscP : TP.ShapeCasts TRow) (c : Fin 512) :
    shapeCast TRow P hscP (ix2 0 c) = P (ix4 0 0 0 c) := by
  apply shapeCast_apply
  rw [Shape.rowMajor_val_four, Shape.rowMajor_val_two]
  rfl

/-- The whitened output laid out as batch, height, width, channels, at such a position, is the whitened output at
    the position's sample and the channel. -/
private theorem out_apply (Y : FVec Ideal TX .f32) (hscO : TX.ShapeCasts TA) (b : Fin 32) (h w : Fin 48) (c : Fin 512) :
    shapeCast TA Y hscO (ix4 b h w c) = Y (ix2 (smp b h w) c) := by
  apply shapeCast_apply
  rw [Shape.rowMajor_val_four, Shape.rowMajor_val_two]
  rfl

/-- The kernel's output, laid out as batch, height, width, channels, is the reference's result from the same
    whitening matrix. -/
theorem final_eq (V0 : Valuation Cert.ReferenceIdeal.τ Cert.ReferenceIdeal.sig (Elt Ideal))
    (hsc : TA.ShapeCasts TX) (hscP : TP.ShapeCasts TRow) (hscO : TX.ShapeCasts TA) (Wh : FVec Ideal TG .f32) :
    shapeCast TA
      (outOf (shapeCast TX (V0 (Proc.devRef .tc Cert.ReferenceIdeal.main_arg0) : FVec Ideal TA .f32) hsc)
        (k1_pay2 (F := Ideal) (totF (shapeCast TX (V0 (Proc.devRef .tc Cert.ReferenceIdeal.main_arg0) : FVec Ideal TA .f32) hsc)))
        Wh
        (shapeCast TRow (V0 (Proc.devRef .tc Cert.ReferenceIdeal.main_arg1) : FVec Ideal TP .f32) hscP)
        (shapeCast TRow (V0 (Proc.devRef .tc Cert.ReferenceIdeal.main_arg2) : FVec Ideal TP .f32) hscP)) hscO
      = resR (F := Ideal) Wh V0 := by
  funext j
  obtain ⟨b, h, w, c, rfl⟩ : ∃ (b : Fin 32) (h w : Fin 48) (c : Fin 512), j = ix4 b h w c :=
    ⟨j 0, j 1, j 2, j 3, eq_ix4 j⟩
  rw [out_apply]
  unfold resR
  rw [res_apply Wh _ (V0 (Proc.devRef .tc Cert.ReferenceIdeal.main_arg1) : FVec Ideal TP .f32)
    (V0 (Proc.devRef .tc Cert.ReferenceIdeal.main_arg2) : FVec Ideal TP .f32) b h w c]
  unfold outOf
  show (∑ k : Fin 128, (_ - _) * Wh (ix3 (grp c) (mem c) k)) * shapeCast TRow _ hscP (ix2 0 c)
      + shapeCast TRow _ hscP (ix2 0 c) = _
  rw [row_apply, row_apply]
  congr 2
  refine Finset.sum_congr rfl fun k _ => ?_
  rw [v8_apply V0 hsc, mul_comm]

end Cert.Whitening.Final

end
-- ==== Proof.Bridge.lean ====
/-
  The two programs' results as one array. From a real-entried input: the kernel's regularised covariance and the
  reference's are the same real matrix, so are their traces (positive), normalised covariances and identity matrices;
  the iteration then gives the same whitening matrices, real-entried; and the last product, scale and shift agree
  entry by entry.
-/
import proofs.«401155_j5385888989602_3_alg».proof.Proof.Gen.KernelIdeal.Skeleton
import proofs.«401155_j5385888989602_3_alg».proof.Proof.Gen.ReferenceIdeal.Run
import proofs.«401155_j5385888989602_3_alg».proof.Proof.Spec
import proofs.«401155_j5385888989602_3_alg».proof.Proof.WhK
import proofs.«401155_j5385888989602_3_alg».proof.Proof.WhR
import proofs.«401155_j5385888989602_3_alg».proof.Proof.CovK
import proofs.«401155_j5385888989602_3_alg».proof.Proof.CovR
import proofs.«401155_j5385888989602_3_alg».proof.Proof.TraceSig
import proofs.«401155_j5385888989602_3_alg».proof.Proof.NS
import proofs.«401155_j5385888989602_3_alg».proof.Proof.Final

noncomputable section

open scoped BigOperators

namespace Cert.Whitening.Bridge

open Idealize.ShloMosaic Idealize.ShloMosaic.TcCoe Idealize.ShloMosaic.ValueIdx Idealize.ShloMosaic.StableHlo
open Cert.KernelIdeal.Gen

variable (V0 : Valuation Cert.ReferenceIdeal.τ Cert.ReferenceIdeal.sig (Elt Ideal))
  (hsc : TA.ShapeCasts TX) (hscP : TP.ShapeCasts TRow) (hscO : TX.ShapeCasts TA)

/-- The sample matrix of the reference's first argument. -/
abbrev Xof : FVec Ideal TX .f32 := shapeCast TX (V0 (Proc.devRef .tc Cert.ReferenceIdeal.main_arg0) : FVec Ideal TA .f32) hsc

/-- The kernel's whitening matrices from a sample matrix. -/
abbrev WhOf (X : FVec Ideal TX .f32) : FVec Ideal TG .f32 :=
  whK (F := Ideal) (k1_pay5 (F := Ideal) (totF X) (totFF X)) (k1_pay6 (F := Ideal) (totF X) (totFF X))

/-- The reference's whitening matrices. -/
abbrev WhRef : FVec Ideal TG .f32 :=
  whR (F := Ideal) (Cert.ReferenceIdeal.Value.res_main_v33 (F := Ideal) V0) (Cert.ReferenceIdeal.Value.res_main_v35 (F := Ideal) V0)
    (Cert.ReferenceIdeal.Value.res_main_v36 (F := Ideal) V0)

variable (hfin : Finite (S := TA) (V0 (Proc.devRef .tc Cert.ReferenceIdeal.main_arg0)))

include hfin in
/-- A real-entried argument has a real-entried sample matrix. -/
theorem X_real : ∃ x : Fin 73728 → Fin 512 → ℝ, ∀ n c, Xof V0 hsc (ix2 n c) = (x n c : EReal) := by
  have h : ∀ n c, ∃ r : ℝ, Xof V0 hsc (ix2 n c) = (r : EReal) := fun n c => hfin (Shape.reshapeEquiv hsc (ix2 n c))
  choose x hx using h
  exact ⟨x, hx⟩

include hfin in
/-- The kernel's whitening matrices are the reference's, and the kernel's sample matrix, means and whitening matrices
    are real-entried. -/
theorem wh_eq : WhOf (Xof V0 hsc) = WhRef V0 ∧ Finite (S := TX) (Xof V0 hsc)
    ∧ Finite (S := TRow) (k1_pay2 (F := Ideal) (totF (Xof V0 hsc))) ∧ Finite (S := TG) (WhOf (Xof V0 hsc)) := by
  obtain ⟨x, hx⟩ := X_real V0 hsc hfin
  have hcovK := CovK.covK_isReal (Xof V0 hsc) x hx
  have hcovR := CovR.covR_isReal V0 hsc x hx
  have hC : (k1_pay4 (F := Ideal) (totF (Xof V0 hsc)) (totFF (Xof V0 hsc)) : FVec Ideal TG .f32)
      = Cert.ReferenceIdeal.Value.res_main_v25 (F := Ideal) V0 := funext fun j => (hcovK j).trans (hcovR j).symm
  have htr := TraceSig.tr_eq V0 _ _ hC
  have hsig := TraceSig.sig_eq V0 _ _ hC
  have hpos : ∀ g : Fin 4, 0 < ∑ a : Fin 128, (fun j : TG.Idx => covReg x (j 0) (j 1) (j 2)) (ix3 g a a) := fun g => CovR.trReg_pos x g
  have hT := TraceSig.tr_isReal V0 _ hcovR
  have hS := TraceSig.sig_finite V0 _ hcovR hpos
  have hT' : ∀ j, ∃ r : ℝ, 0 < r ∧ Cert.ReferenceIdeal.Value.res_main_v33 (F := Ideal) V0 j = (r : EReal) :=
    fun j => ⟨_, hpos (j 0), hT j⟩
  have hXfin : Finite (S := TX) (Xof V0 hsc) := fun j => by
    rw [eq_ix2 j]; exact ⟨_, hx _ _⟩
  refine ⟨?_, hXfin, (CovK.meanK_isReal (Xof V0 hsc) x hx).finite, ?_⟩
  · show whK (F := Ideal) _ _ = _
    rw [htr, hsig, NS.wh_eq _ _ hT' hS TraceSig.eye_finite, TraceSig.eye_eq V0]
  · show Finite (S := TG) (whK (F := Ideal) _ _)
    rw [htr, hsig]
    exact NS.wh_finite _ _ hT' hS TraceSig.eye_finite

include hfin in
/-- The kernel's laid-out result is the reference's result. -/
theorem result_eq :
    shapeCast TA
      (outOf (Xof V0 hsc) (k1_pay2 (F := Ideal) (totF (Xof V0 hsc))) (WhOf (Xof V0 hsc))
        (shapeCast TRow (V0 (Proc.devRef .tc Cert.ReferenceIdeal.main_arg1) : FVec Ideal TP .f32) hscP)
        (shapeCast TRow (V0 (Proc.devRef .tc Cert.ReferenceIdeal.main_arg2) : FVec Ideal TP .f32) hscP)) hscO
      = resR (F := Ideal) (WhRef V0) V0 := by
  rw [← (wh_eq V0 hsc hfin).1]
  exact Final.final_eq V0 hsc hscP hscO _

end Cert.Whitening.Bridge

end
-- ==== Proof.PreReal.lean ====
/-
  The precondition read: every entry of the input array is a real number.
-/
import proofs.«401155_j5385888989602_3_alg».proof.Defs
import proofs.«401155_j5385888989602_3_alg».proof.Proof.Gen.Pre_finite_inputs
import proofs.«401155_j5385888989602_3_alg».proof.Proof.Gen.KernelIdeal
import proofs.«401155_j5385888989602_3_alg».proof.Proof.Spec
import Idealize.ShloMosaic.Lib.ReduceAll

noncomputable section

open scoped BigOperators

namespace Cert.Whitening.PreReal

open Idealize.ShloMosaic Idealize.ShloMosaic.TcCoe Idealize.ShloMosaic.ValueIdx Idealize.SL.Sem
open Cert.KernelIdeal

/-- An extended real whose absolute value (the larger of it and its negative) lies below plus infinity is a real
    number: minus infinity and plus infinity both have absolute value plus infinity. -/
private theorem real_of_abs_lt_top (x : EReal) (hx : max x (-x) < ⊤) : ∃ r : ℝ, x = (r : EReal) := by
  induction x using EReal.rec with
  | bot => simp at hx
  | coe r => exact ⟨r, rfl⟩
  | top => simp at hx

/-- The single-precision pattern with every exponent bit set, the sign clear and a zero fraction denotes plus infinity. -/
private theorem ofBits_inf : Ideal.ofBits .f32 0x7F800000#32 = (⊤ : EReal) := by
  simp [Ideal.ofBits, Ideal.ieee]

/-- A truth value written as a one-bit word that equals one is true. -/
private theorem of_ofBool_decide_eq_one {p : Prop} [Decidable p] (h : BitVec.ofBool (decide p) = 1#1) : p := by
  by_contra hn
  rw [decide_eq_false hn] at h
  exact absurd h (by decide)

/-- Under the precondition the first argument's entries are all real. -/
theorem arg0_finite (m : (ℓ : Loc nD τ sig) → Buf (Elt Ideal) ℓ) (h : Cert.Pre_KernelIdeal m) (c : Dev nD) :
    Finite (S := TA) (m ((c.tc : Thread nD τ).loc main_arg0)) := by
  intro j
  -- the result of a reduction over all axes has exactly one index
  haveI : Subsingleton Cert.Pre_finite_inputs.S_.Idx := ⟨fun a b => funext fun d => d.elim0⟩
  have h1 := congrFun (h c) ValueIdx.ix0
  unfold Cert.Pre_finite_inputs.fn at h1
  dsimp only at h1
  -- the conjunction of the three all-entries tests is one: so is its first member
  have h2 : IntOp.andi (IntOp.andi _ _) _ = 1#1 := h1
  obtain ⟨h3, -⟩ := IntOp.andi_eq_one.1 h2
  obtain ⟨h4, -⟩ := IntOp.andi_eq_one.1 h3
  -- a conjunction over all entries that is one is one at entry j
  have h5 := Host.reduce_andi_all _ _ _ _ _ h4 j
  -- at entry j the test compares the entry's absolute value with the pattern of plus infinity
  have h6 : ∀ x : EReal, x = m ((c.tc : Thread nD τ).loc main_arg0) j →
      Ideal.cmp .olt (max x (-x)) (Ideal.ofBits .f32 0x7F800000#32) = 1#1 := fun x hx => by subst hx; exact h5
  have h7 := h6 _ rfl
  rw [ofBits_inf] at h7
  simp only [Ideal.cmp] at h7
  exact real_of_abs_lt_top _ (of_ofBool_decide_eq_one h7)

end Cert.Whitening.PreReal

end
-- ==== Proof.lean ====
/-
  Group whitening by an iterated inverse square root: three kernels (per-core column totals and raw second moments;
  means, regularised covariance, its trace and three steps of the iteration P ↦ (3P − P·P·P·Σ)/2 from the identity;
  centring, the product with the whitening matrices, scale and shift) against the plain array program that centres
  first, forms the covariance as a product of deviations and iterates with whole products.

  Over the extended reals and for real-entried inputs the two agree: the raw second moment minus the sample count
  times the product of means is the sum of products of deviations; the trace of the regularised covariance is
  positive, so every quotient is a real number and every matrix of the iteration is real-entried; on real-entried
  matrices the kernels' products in leading and residual parts are the plain products, because a real minus itself is
  zero; and the final contraction is the same sum on both sides.

  The three frames come from the generated frame certificates and the generated run of the reference; the kernel
  program's run with its result array named is the generated launch called once more (Proof/KRun.lean).
-/
import proofs.«401155_j5385888989602_3_alg».proof.Defs
import proofs.«401155_j5385888989602_3_alg».proof.Proof.Gen.Kernel
import proofs.«401155_j5385888989602_3_alg».proof.Proof.Gen.Kernel.Frame
import proofs.«401155_j5385888989602_3_alg».proof.Proof.Gen.KernelIdeal
import proofs.«401155_j5385888989602_3_alg».proof.Proof.Gen.KernelIdeal.Frame
import proofs.«401155_j5385888989602_3_alg».proof.Proof.Gen.ReferenceIdeal
import proofs.«401155_j5385888989602_3_alg».proof.Proof.Gen.ReferenceIdeal.Run
import proofs.«401155_j5385888989602_3_alg».proof.Proof.Gen.Pre_finite_inputs
import proofs.«401155_j5385888989602_3_alg».proof.Proof.KRun
import proofs.«401155_j5385888989602_3_alg».proof.Proof.KValue
import proofs.«401155_j5385888989602_3_alg».proof.Proof.Bridge
import proofs.«401155_j5385888989602_3_alg».proof.Proof.PreReal
import Idealize.ShloMosaic.Adequacy
import Idealize.ShloMosaic.Init

noncomputable section

open scoped BigOperators

namespace Cert.Proof

open Idealize.ShloMosaic Idealize.ShloMosaic.TcCoe Idealize.ShloMosaic.ValueIdx Idealize.ShloMosaic.StableHlo Idealize.SL.Sem
open Cert.Whitening

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Every narrowing to the short format followed by the widening back is the identity on extended reals. -/
theorem preserves : Cert.preserves_Kernel_KernelIdeal :=
  ⟨IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16⟩

theorem algebraic : Cert.algebraic_KernelIdeal_ReferenceIdeal := by
  intro m ρ m' ρ' hpre hagree
  refine ⟨fun c => Cert.KernelIdeal.Gen.W6 m ρ c (Proc.devRef .tc Cert.KernelIdeal.main_v8), ?_, ?_⟩
  · exact Cert.KernelIdeal.GenValue.run_value (F := Ideal) m ρ
  · refine (θ_run Cert.ReferenceIdeal.defs _ _).mono (fun r h c => ⟨(h c).1.trans ?_, (h c).2⟩)
      (Cert.ReferenceIdeal.Value.run (F := Ideal) m' ρ')
    show _ = Cert.KernelIdeal.Gen.W6 m ρ c (Proc.devRef .tc Cert.KernelIdeal.main_v8)
    -- the reference's launch contents agree with the kernel program's on the three arguments
    have hA0 : launchContents m' c (Proc.devRef .tc Cert.ReferenceIdeal.main_arg0)
        = m ((c.tc : Thread Cert.KernelIdeal.nD Cert.KernelIdeal.τ).loc Cert.KernelIdeal.main_arg0) := (hagree c).1
    have hA1 : launchContents m' c (Proc.devRef .tc Cert.ReferenceIdeal.main_arg1)
        = m ((c.tc : Thread Cert.KernelIdeal.nD Cert.KernelIdeal.τ).loc Cert.KernelIdeal.main_arg1) := (hagree c).2.1
    have hA2 : launchContents m' c (Proc.devRef .tc Cert.ReferenceIdeal.main_arg2)
        = m ((c.tc : Thread Cert.KernelIdeal.nD Cert.KernelIdeal.τ).loc Cert.KernelIdeal.main_arg2) := (hagree c).2.2
    have hfin : Finite (S := TA) (launchContents m' c (Proc.devRef .tc Cert.ReferenceIdeal.main_arg0)) := by
      rw [hA0]; exact PreReal.arg0_finite m hpre c
    have hX : Bridge.Xof (launchContents m' c) Cert.KernelIdeal.Gen.shapeCasts_S32x48x48x512_S73728x512 = KValue.Xk m c := by
      show shapeCast TX (launchContents m' c (Proc.devRef .tc Cert.ReferenceIdeal.main_arg0) : FVec Ideal TA .f32) _ = _
      rw [hA0]
    have hb := Bridge.wh_eq (launchContents m' c) Cert.KernelIdeal.Gen.shapeCasts_S32x48x48x512_S73728x512 hfin
    have hres := Bridge.result_eq (launchContents m' c) Cert.KernelIdeal.Gen.shapeCasts_S32x48x48x512_S73728x512
      Cert.KernelIdeal.Gen.shapeCasts_S1x1x1x512_S1x512 Cert.KernelIdeal.Gen.shapeCasts_S73728x512_S32x48x48x512 hfin
    rw [hX] at hb
    rw [hX, hA1, hA2] at hres
    -- the run's term is the reference's result function of its whitening matrices, by the definitions' unfolding
    refine (show _ = resR (F := Ideal) (Bridge.WhRef (launchContents m' c)) (launchContents m' c) from rfl).trans ?_
    rw [← hres]
    exact (KValue.result_eq m ρ c hb.2.1 hb.2.2.1 hb.2.2.2).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
